-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S650000 : Shape := ⟨1, ![650000]⟩
abbrev S10000x10000 : Shape := ⟨2, ![10000, 10000]⟩
abbrev S650000x1 : Shape := ⟨2, ![650000, 1]⟩
abbrev S650000x2 : Shape := ⟨2, ![650000, 2]⟩
abbrev S1x128 : Shape := ⟨2, ![1, 128]⟩
abbrev S10000x64 : Shape := ⟨2, ![10000, 64]⟩
abbrev S400x10000 : Shape := ⟨2, ![400, 10000]⟩
abbrev S400x128 : Shape := ⟨2, ![400, 128]⟩

abbrev nBuf : Space → Nat
  | .hbm => 78
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S10000, .f32⟩
  | .hbm, ⟨16, _⟩ => ⟨S640000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000, .f32⟩
  | .hbm, ⟨40, _⟩ => ⟨S640000, .f32⟩
  | .hbm, ⟨41, _⟩ => ⟨S10000, .f32⟩
  | .hbm, ⟨42, _⟩ => ⟨S10000, .i32⟩
  | .hbm, ⟨43, _⟩ => ⟨S650000, .i32⟩
  | .hbm, ⟨44, _⟩ => ⟨S650000, .i32⟩
  | .hbm, ⟨45, _⟩ => ⟨S650000, .f32⟩
  | .hbm, ⟨46, _⟩ => ⟨S_, .f32⟩
  | .hbm, ⟨47, _⟩ => ⟨S10000x10000, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x1, .i32⟩
  | .hbm, ⟨64, _⟩ => ⟨S650000x2, .i32⟩
  | .hbm, ⟨65, _⟩ => ⟨S10000x10000, .f32⟩
  | .hbm, ⟨66, _⟩ => ⟨S10000x10000, .bf16⟩
  | .hbm, ⟨67, _⟩ => ⟨S10000x128, .bf16⟩
  | .hbm, ⟨68, _⟩ => ⟨S128x128, .bf16⟩
  | .hbm, ⟨69, _⟩ => ⟨S1x128, .f32⟩
  | .hbm, ⟨70, _⟩ => ⟨S10000x128, .bf16⟩
  | .hbm, ⟨71, _⟩ => ⟨S128x128, .f32⟩
  | .hbm, ⟨72, _⟩ => ⟨S128, .f32⟩
  | .hbm, ⟨73, _⟩ => ⟨S128x128, .bf16⟩
  | .hbm, ⟨74, _⟩ => ⟨S1x128, .f32⟩
  | .hbm, ⟨75, _⟩ => ⟨S10000x128, .f32⟩
  | .hbm, ⟨76, _⟩ => ⟨S10000x64, .f32⟩
  | .hbm, ⟨77, _⟩ => ⟨S10000x64, .f32⟩
  | .local _ .vmem, ⟨0, _⟩ => ⟨S400x10000, .bf16⟩
  | .local _ .vmem, ⟨1, _⟩ => ⟨S400x10000, .bf16⟩
  | .local _ .vmem, ⟨2, _⟩ => ⟨S10000x128, .bf16⟩
  | .local _ .vmem, ⟨3, _⟩ => ⟨S128x128, .bf16⟩
  | .local _ .vmem, ⟨4, _⟩ => ⟨S1x128, .f32⟩
  | .local _ .vmem, ⟨5, _⟩ => ⟨S400x128, .bf16⟩
  | .local _ .vmem, ⟨6, _⟩ => ⟨S400x128, .bf16⟩
  | .local _ .vmem, ⟨7, _⟩ => ⟨S400x10000, .bf16⟩
  | .local _ .vmem, ⟨8, _⟩ => ⟨S400x10000, .bf16⟩
  | .local _ .vmem, ⟨9, _⟩ => ⟨S10000x128, .bf16⟩
  | .local _ .vmem, ⟨10, _⟩ => ⟨S128x128, .bf16⟩
  | .local _ .vmem, ⟨11, _⟩ => ⟨S1x128, .f32⟩
  | .local _ .vmem, ⟨12, _⟩ => ⟨S400x128, .f32⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c : Ref sig .tc := ⟨.hbm, 22, rfl⟩
abbrev main_call0_v11 : Ref sig .tc := ⟨.hbm, 23, rfl⟩
abbrev main_call0_v12 : Ref sig .tc := ⟨.hbm, 24, rfl⟩
abbrev main_call0_c_2 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_c_3 : Ref sig .tc := ⟨.hbm, 31, rfl⟩
abbrev main_call0_v18 : Ref sig .tc := ⟨.hbm, 32, rfl⟩
abbrev main_call0_v19 : Ref sig .tc := ⟨.hbm, 33, rfl⟩
abbrev main_call0_c_4 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_cst_5 : Ref sig .tc := ⟨.hbm, 46, rfl⟩
abbrev main_call0_v31 : Ref sig .tc := ⟨.hbm, 47, rfl⟩
abbrev main_call0_c_6 : Ref sig .tc := ⟨.hbm, 48, rfl⟩
abbrev main_call0_v32 : Ref sig .tc := ⟨.hbm, 49, rfl⟩
abbrev main_call0_v33 : Ref sig .tc := ⟨.hbm, 50, rfl⟩
abbrev main_call0_c_7 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_c_8 : Ref sig .tc := ⟨.hbm, 55, rfl⟩
abbrev main_call0_v37 : Ref sig .tc := ⟨.hbm, 56, rfl⟩
abbrev main_call0_v38 : Ref sig .tc := ⟨.hbm, 57, rfl⟩
abbrev main_call0_c_9 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_v0_0 : Ref sig .tc := ⟨.hbm, 76, rfl⟩
abbrev main_v0_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  concatenates_S640000_S10000_S650000_d0 : Shape.Concatenates [S640000, S10000] S650000 0
  bcast_S_S10000x10000 : S_.BroadcastsInDim S10000x10000 (![] : Fin 0 → Fin S10000x10000.rank)
  bcast_S_S650000 : S_.BroadcastsInDim S650000 (![] : Fin 0 → Fin S650000.rank)
  bcast_S650000_S650000x1_0 : S650000.BroadcastsInDim S650000x1 (![0] : Fin 1 → Fin S650000x1.rank)
  concatenates_S650000x1_S650000x1_S650000x2_d1 : Shape.Concatenates [S650000x1, S650000x1] S650000x2 1
  bitsLt_bf16_f32 : FTy.bits .bf16 < FTy.bits .f32
  shapeCasts_S128_S1x128 : S128.ShapeCasts S1x128
  concatenates_S128x64_S128x64_S128x128_d1 : Shape.Concatenates [S128x64, S128x64] S128x128 1
  concatenates_S64_S64_S128_d0 : Shape.Concatenates [S64, S64] S128 0
  slices_S10000x128_S10000x64_0_0 : S10000x128.Slices ![0, 0] S10000x64
  slices_S10000x128_S10000x64_0_64 : S10000x128.Slices ![0, 64] S10000x64
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  iota_S400x128_d1_w32 : S400x128.Iotas .tc 32 [1]
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10000x10000_S650000x2_S650000_n_01_01_1_wf : ScatterDims.WF S10000x10000 S650000x2 S650000 [] [0, 1] [0, 1] 1
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .bf16 = 32 ∨ (Rect.block (s := S10000x128) S400x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x10000_S650000x2_S650000_n_01_01_1 : ScatterDims S10000x10000 S650000x2 S650000 where
  updateWindowDims := []
  insertedWindowDims := [0, 1]
  scatterDimsToOperandDims := [0, 1]
  indexVectorDim := 1
  wf := scatter_S10000x10000_S650000x2_S650000_n_01_01_1_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_call0_v46) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v47) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v48) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v49) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v50) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v46) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v50) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v53) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v55) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S640000x128 : Shape := ⟨2, ![640000, 128]⟩
abbrev S10000x1 : Shape := ⟨2, ![10000, 1]⟩
abbrev S1x128 : Shape := ⟨2, ![1, 128]⟩
abbrev S10000x64 : Shape := ⟨2, ![10000, 64]⟩
abbrev S640000x64 : Shape := ⟨2, ![640000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S10000x128, .f32⟩
  | 1 => ⟨S2x640000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x640000, .i32⟩
  | 9 => ⟨S640000, .i32⟩
  | 10 => ⟨S1x640000, .i32⟩
  | 11 => ⟨S640000, .i32⟩
  | 12 => ⟨S_, .f32⟩
  | 13 => ⟨S640000, .f32⟩
  | 14 => ⟨S_, .f32⟩
  | 15 => ⟨S10000, .f32⟩
  | 16 => ⟨S640000x1, .i32⟩
  | 17 => ⟨S10000, .f32⟩
  | 18 => ⟨S_, .f32⟩
  | 19 => ⟨S10000, .f32⟩
  | 20 => ⟨S10000, .f32⟩
  | 21 => ⟨S10000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S640000, .f32⟩
  | 41 => ⟨S10000, .f32⟩
  | 42 => ⟨S10000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x1, .f32⟩
  | 53 => ⟨S640000x128, .f32⟩
  | 54 => ⟨S640000x128, .f32⟩
  | 55 => ⟨S_, .f32⟩
  | 56 => ⟨S10000x128, .f32⟩
  | 57 => ⟨S640000x1, .i32⟩
  | 58 => ⟨S10000x128, .f32⟩
  | 59 => ⟨S10000x1, .f32⟩
  | 60 => ⟨S10000x128, .f32⟩
  | 61 => ⟨S10000x128, .f32⟩
  | 62 => ⟨S10000x128, .f32⟩
  | 63 => ⟨S1x128, .f32⟩
  | 64 => ⟨S10000x128, .f32⟩
  | 65 => ⟨S10000x128, .f32⟩
  | 66 => ⟨S_, .f32⟩
  | 67 => ⟨S10000x128, .f32⟩
  | 68 => ⟨S10000x128, .f32⟩
  | 69 => ⟨S10000x64, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000x64, .f32⟩
  | 79 => ⟨S640000x1, .f32⟩
  | 80 => ⟨S640000x64, .f32⟩
  | 81 => ⟨S640000x64, .f32⟩
  | 82 => ⟨S_, .f32⟩
  | 83 => ⟨S10000x64, .f32⟩
  | 84 => ⟨S640000x1, .i32⟩
  | 85 => ⟨S10000x64, .f32⟩
  | 86 => ⟨S10000x1, .f32⟩
  | 87 => ⟨S10000x64, .f32⟩
  | 88 => ⟨S10000x64, .f32⟩
  | 89 => ⟨S10000x64, .f32⟩
  | 90 => ⟨S1x64, .f32⟩
  | 91 => ⟨S10000x64, .f32⟩
  | 92 => ⟨S10000x64, .f32⟩
  | 93 => ⟨S10000x64, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x64, .f32⟩
  | 103 => ⟨S640000x1, .f32⟩
  | 104 => ⟨S640000x64, .f32⟩
  | 105 => ⟨S640000x64, .f32⟩
  | 106 => ⟨S_, .f32⟩
  | 107 => ⟨S10000x64, .f32⟩
  | 108 => ⟨S640000x1, .i32⟩
  | 109 => ⟨S10000x64, .f32⟩
  | 110 => ⟨S10000x1, .f32⟩
  | 111 => ⟨S10000x64, .f32⟩
  | 112 => ⟨S10000x64, .f32⟩
  | 113 => ⟨S10000x64, .f32⟩
  | 114 => ⟨S1x64, .f32⟩
  | 115 => ⟨S10000x64, .f32⟩
  | 116 => ⟨S10000x64, .f32⟩
  | 117 => ⟨S_, .f32⟩
  | 118 => ⟨S10000x64, .f32⟩
  | 119 => ⟨S10000x64, .f32⟩
  | 120 => ⟨S10000x64, .f32⟩
  | 121 => ⟨S10000x64, .f32⟩
  | 122 => ⟨S10000x64, .i1⟩
  | 123 => ⟨S10000x64, .f32⟩
  | 124 => ⟨S10000x64, .f32⟩
  | 125 => ⟨S10000x64, .f32⟩
  | 126 => ⟨S10000x64, .f32⟩
  | 127 => ⟨S10000x64, .f32⟩
  | _ => ⟨S10000x128, .f32⟩

abbrev hbmTy0_1 (i : Nat) : BufTy := match i % 128 with
  | 0 => ⟨S10000x64, .f32⟩
  | 1 => ⟨S10000x64, .f32⟩
  | 2 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_11 : Ref sig .tc := ⟨.hbm, 94, rfl⟩
abbrev main_v71 : Ref sig .tc := ⟨.hbm, 95, rfl⟩
abbrev main_v72 : Ref sig .tc := ⟨.hbm, 96, rfl⟩
abbrev main_c_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call1_cst : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_v8 : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_v91 : Ref sig .tc := ⟨.hbm, 130, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S640000x1_S640000x64_0_1 : S640000x1.BroadcastsInDim S640000x64 (![0, 1] : Fin 2 → Fin S640000x64.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x64_S10000x64_1_0_0_1_n_n_wf : DotDims.WF S10000x128 S128x64 S10000x64 [1] [0] [0] [1] [] []
  gather_S10000x64_S640000x1_S640000x64_1_0_n_n_0_1_164_wf : GatherDims.WF S10000x64 S640000x1 S640000x64 [1] [0] [] [0] [] 1 ![1, 64]
  scatter_S10000x64_S640000x1_S640000x64_1_0_0_1_wf : ScatterDims.WF S10000x64 S640000x1 S640000x64 [1] [0] [0] 1

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S640000x1_S640000x64_1_0_n_n_0_1_164 : GatherDims S10000x64 S640000x1 S640000x64 where
  offsetDims := [1]
  collapsedSliceDims := [0]
  operandBatchingDims := []
  startIndicesBatchingDims := []
  startIndexMap := [0]
  indexVectorDim := 1
  sliceSizes := ![1, 64]
  wf := gather_S10000x64_S640000x1_S640000x64_1_0_n_n_0_1_164_wf
def scatter_S10000x64_S640000x1_S640000x64_1_0_0_1 : ScatterDims S10000x64 S640000x1 S640000x64 where
  updateWindowDims := [1]
  insertedWindowDims := [0]
  scatterDimsToOperandDims := [0]
  indexVectorDim := 1
  wf := scatter_S10000x64_S640000x1_S640000x64_1_0_0_1_wf

class Facts : Prop extends Facts₀ where

variable [Facts]
-- ==== Proof.Spec.lean ====
/-
  The graph-convolution encoder as plain functions of its argument arrays, at the extended reals.

  Nodes are `Fin 10000`, edges `Fin 640000`; `ei` is the [2, 640000] table of edge words, row 0 the sources
  and row 1 the destinations. A word names the node it clamps to (`node`); in range it IS that node.

  `deg n` is one plus the number of edges into `n`, `dis = deg^(-1/2)`; an edge weighs `dis src · dis dst` and the
  self loop at `n` weighs `dis n · dis n`.

  One layer, at node `n`, for one weight column `w` and its bias `b`, in two arrangements:
  * `aggLayer`  — transform, then gather along the edges: with `h s = Σ_k X s k · w k`,
                   `(Σ_{e into n} h (src e) · weight e + h n · selfweight n) + b`;
  * `adjLayer`  — aggregate through the dense normalised adjacency first: with
                   `adj n s = Σ_{e : s → n} weight e + [n = s] selfweight n`,
                   `(Σ_k (Σ_s adj n s · X s k) · w k) + b`.
  The network on top of a layer `L`: `hid = relu (L x W1 b1)`, `mu = L hid W_mu b_mu`,
  `logstd = softplus (L hid W_ls b_ls)`.
-/
import Idealize.ShloMosaic.Lib.ValueIdx
import Idealize.ShloMosaic.PureOps.Ideal.Laws

noncomputable section

open scoped BigOperators

namespace Cert.Gcn

open Idealize.ShloMosaic Idealize.ShloMosaic.ValueIdx

/-- The edge table's shape. -/
abbrev SEdges : Shape := ⟨2, ![2, 640000]⟩

/-- The node a word names: its signed value clamped into `[0, 9999]`. -/
def node (w : BitVec 32) : Fin 10000 := ⟨min w.toInt.toNat 9999, by omega⟩

/-- A word in range is the node it names. -/
theorem node_val_of_inRange {w : BitVec 32} (h0 : 0 ≤ w.toInt) (h1 : w.toInt < 10000) : ((node w).val : ℤ) = w.toInt := by
  unfold node
  show ((min w.toInt.toNat 9999 : ℕ) : ℤ) = w.toInt
  omega

/-- Source and destination node of edge `e`. -/
def src (ei : IVec SEdges 32) (e : Fin 640000) : Fin 10000 := node (ei (ix2 (0 : Fin 2) e))
def dst (ei : IVec SEdges 32) (e : Fin 640000) : Fin 10000 := node (ei (ix2 (1 : Fin 2) e))

/-- One plus the number of edges whose destination WORD is `n` (as the degree count is printed: from the zero word,
    a one word per such edge, and a one word for the self loop). -/
def deg (ei : IVec SEdges 32) (n : Fin 10000) : EReal :=
  (Ideal.ofBits .f32 0x00000000#32
      + ∑ e ∈ Finset.univ.filter (fun e : Fin 640000 => (ei (ix2 (1 : Fin 2) e)).toInt = (n.val : ℤ)), Ideal.ofBits .f32 0x3F800000#32)
    + Ideal.ofBits .f32 0x3F800000#32

/-- The degree normaliser `deg^(-1/2)`. -/
def dis (ei : IVec SEdges 32) (n : Fin 10000) : EReal := Ideal.rsqrt (deg ei n)

/-- The weight of edge `e` and of the self loop at `n`. -/
def edgeW (ei : IVec SEdges 32) (e : Fin 640000) : EReal := dis ei (src ei e) * dis ei (dst ei e)
def selfW (ei : IVec SEdges 32) (n : Fin 10000) : EReal := dis ei n * dis ei n

/-- Transform, then gather along the edges. -/
def aggLayer (ei : IVec SEdges 32) (X : Fin 10000 → Fin 128 → EReal) (w : Fin 128 → EReal) (b : EReal) (n : Fin 10000) : EReal :=
  ((∑ e ∈ Finset.univ.filter (fun e : Fin 640000 => dst ei e = n), (∑ k : Fin 128, X (src ei e) k * w k) * edgeW ei e)
      + (∑ k : Fin 128, X n k * w k) * selfW ei n)
    + b

/-- The dense normalised adjacency. -/
def adj (ei : IVec SEdges 32) (n s : Fin 10000) : EReal :=
  (∑ e ∈ Finset.univ.filter (fun e : Fin 640000 => dst ei e = n ∧ src ei e = s), edgeW ei e)
    + (if n = s then selfW ei n else 0)

/-- Aggregate through the adjacency, then transform. -/
def adjLayer (ei : IVec SEdges 32) (X : Fin 10000 → Fin 128 → EReal) (w : Fin 128 → EReal) (b : EReal) (n : Fin 10000) : EReal :=
  (∑ k : Fin 128, (∑ s : Fin 10000, adj ei n s * X s k) * w k) + b

/-- One fused kernel's pre-activation at row `n`, column `j`, over the four arrays a region stages (the adjacency, the
    features, the weights, the bias row): `(Σ_k (Σ_s A n s · X s k) · W k j) + b 0 j`. -/
def cell (A : (⟨2, ![10000, 10000]⟩ : Shape).Idx → EReal) (X : (⟨2, ![10000, 128]⟩ : Shape).Idx → EReal)
    (W : (⟨2, ![128, 128]⟩ : Shape).Idx → EReal) (b : (⟨2, ![1, 128]⟩ : Shape).Idx → EReal) (n : Fin 10000) (j : Fin 128) : EReal :=
  (∑ k : Fin 128, (∑ s : Fin 10000, A (ix2 n s) * X (ix2 s k)) * W (ix2 k j)) + b (ix2 (0 : Fin 1) j)

/-- `log (1 + e^a)` as both programs spell it: `max a 0 + log1p (exp (-|a|))`. -/
def softplus (a : EReal) : EReal := max a 0 + Ideal.log1p (Ideal.exp (-(max a (-a))))

/-- The shape of a layer: features, one weight column, its bias, the node. -/
abbrev Layer := (Fin 10000 → Fin 128 → EReal) → (Fin 128 → EReal) → EReal → Fin 10000 → EReal

/-- The hidden features over a layer `L`: `relu (L x W1 b1)`. -/
def hid (L : Layer) (x : Fin 10000 → Fin 128 → EReal) (W1 : Fin 128 → Fin 128 → EReal) (b1 : Fin 128 → EReal) :
    Fin 10000 → Fin 128 → EReal :=
  fun n k => max (L x (fun k' => W1 k' k) (b1 k) n) 0

/-- The mean head. -/
def muOf (L : Layer) (x : Fin 10000 → Fin 128 → EReal) (W1 : Fin 128 → Fin 128 → EReal) (b1 : Fin 128 → EReal)
    (Wmu : Fin 128 → Fin 64 → EReal) (bmu : Fin 64 → EReal) (n : Fin 10000) (j : Fin 64) : EReal :=
  L (hid L x W1 b1) (fun k => Wmu k j) (bmu j) n

/-- The log-deviation head. -/
def lsOf (L : Layer) (x : Fin 10000 → Fin 128 → EReal) (W1 : Fin 128 → Fin 128 → EReal) (b1 : Fin 128 → EReal)
    (Wls : Fin 128 → Fin 64 → EReal) (bls : Fin 64 → EReal) (n : Fin 10000) (j : Fin 64) : EReal :=
  softplus (L (hid L x W1 b1) (fun k => Wls k j) (bls j) n)

end Cert.Gcn

end
-- ==== Proof.LayerAlgebra.lean ====
/-
  The two arrangements of the graph-convolution layer agree on real data.

  All numbers involved are reals once the features and the weight column are: the degree is a real at least one,
  so its inverse square root is a real, and so are the edge and self-loop weights. In the reals the equality is
  distributivity and an exchange of finite sums:
    Σ_k (Σ_s (Σ_{e : s → n} W e + [n = s] S n) · X s k) · w k
      = Σ_{e into n} (Σ_k X (src e) k · w k) · W e + (Σ_k X n k · w k) · S n.
-/
import proofs.«419644_j5583457485490_3_alg».proof.Proof.Spec
import Mathlib.Algebra.BigOperators.Group.Finset.Basic
import Mathlib.Algebra.BigOperators.Ring.Finset
import Mathlib.Algebra.Order.BigOperators.Group.Finset
import Mathlib.Data.EReal.Basic
import Mathlib.Data.EReal.Operations

noncomputable section

open scoped BigOperators

namespace Cert.Gcn

open Idealize.ShloMosaic Idealize.ShloMosaic.ValueIdx

/-! ### The identity in the reals, over abstract finite index types -/

/-- Gathering the edges into n by their source: Σ_s (Σ_{e : s → n} W e) · X s = Σ_{e into n} W e · X (src e). -/
theorem sum_fiber_mul {E N : Type*} [Fintype E] [Fintype N] [DecidableEq N]
    (d s : E → N) (W : E → ℝ) (Y : N → ℝ) (n : N) :
    ∑ s', (∑ e ∈ Finset.univ.filter (fun e => d e = n ∧ s e = s'), W e) * Y s'
      = ∑ e ∈ Finset.univ.filter (fun e => d e = n), W e * Y (s e) := by
  simp only [Finset.sum_filter, Finset.sum_mul]
  rw [Finset.sum_comm]
  refine Finset.sum_congr rfl fun e _ => ?_
  by_cases h : d e = n
  · simp [h, ite_mul]
  · simp [h]

/-- The self-loop term picks out the node itself. -/
theorem sum_self_mul {N : Type*} [Fintype N] [DecidableEq N] (S : N → ℝ) (Y : N → ℝ) (n : N) :
    ∑ s', (if n = s' then S n else 0) * Y s' = S n * Y n := by
  simp [ite_mul]

/-- Aggregating through the adjacency then transforming equals transforming then gathering along the edges. -/
theorem real_identity {E N K : Type*} [Fintype E] [Fintype N] [Fintype K] [DecidableEq N]
    (d s : E → N) (W : E → ℝ) (S : N → ℝ) (X : N → K → ℝ) (w : K → ℝ) (n : N) :
    ∑ k, (∑ s', ((∑ e ∈ Finset.univ.filter (fun e => d e = n ∧ s e = s'), W e)
            + (if n = s' then S n else 0)) * X s' k) * w k
      = (∑ e ∈ Finset.univ.filter (fun e => d e = n), (∑ k, X (s e) k * w k) * W e)
          + (∑ k, X n k * w k) * S n := by
  have h : ∀ k, ∑ s', ((∑ e ∈ Finset.univ.filter (fun e => d e = n ∧ s e = s'), W e)
            + (if n = s' then S n else 0)) * X s' k
        = (∑ e ∈ Finset.univ.filter (fun e => d e = n), W e * X (s e) k) + S n * X n k := by
    intro k
    simp only [add_mul, Finset.sum_add_distrib]
    rw [sum_fiber_mul d s W (fun s' => X s' k) n, sum_self_mul S (fun s' => X s' k) n]
  simp only [h]
  simp only [add_mul, Finset.sum_add_distrib, Finset.sum_mul]
  congr 1
  · rw [Finset.sum_comm]
    exact Finset.sum_congr rfl fun e _ => Finset.sum_congr rfl fun k _ => by ring
  · exact Finset.sum_congr rfl fun k _ => by ring

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of positive zero denotes 0. -/
theorem ofBits_zero : Ideal.ofBits .f32 0x00000000#32 = ((0 : ℝ) : EReal) := by
  simp [Ideal.ofBits, Ideal.ieee]

/-- The word of one denotes 1. -/
theorem ofBits_one : Ideal.ofBits .f32 0x3F800000#32 = ((1 : ℝ) : EReal) := by
  simp [Ideal.ofBits, Ideal.ieee, -EReal.coe_mul]; norm_num

/-- The degree is a real, at least one. -/
theorem deg_real (ei : IVec SEdges 32) (n : Fin 10000) : ∃ r : ℝ, 0 < r ∧ deg ei n = (r : EReal) := by
  refine ⟨0 + (∑ _e ∈ Finset.univ.filter
      (fun e : Fin 640000 => (ei (ix2 (1 : Fin 2) e)).toInt = (n.val : ℤ)), (1 : ℝ)) + 1, ?_, ?_⟩
  · have : (0 : ℝ) ≤ ∑ _e ∈ Finset.univ.filter
        (fun e : Fin 640000 => (ei (ix2 (1 : Fin 2) e)).toInt = (n.val : ℤ)), (1 : ℝ) :=
      Finset.sum_nonneg fun _ _ => zero_le_one
    linarith
  · unfold deg
    rw [ofBits_zero, ofBits_one, EReal.coe_add, EReal.coe_add, coe_sum]

theorem dis_real (ei : IVec SEdges 32) (n : Fin 10000) : ∃ r : ℝ, dis ei n = (r : EReal) := by
  obtain ⟨r, hr, h⟩ := deg_real ei n
  refine ⟨(Real.sqrt r)⁻¹, ?_⟩
  unfold dis
  rw [h, Ideal.rsqrt_coe, if_neg (not_lt.mpr hr.le), if_neg hr.ne']

/-! ### The layer equality -/

/-- Both arrangements, written over real witnesses of the data. -/
theorem layers_coe (ei : IVec SEdges 32) (X : Fin 10000 → Fin 128 → ℝ) (w : Fin 128 → ℝ) (b : EReal)
    (D : Fin 10000 → ℝ) (hD : ∀ n, dis ei n = (D n : EReal)) (n : Fin 10000) :
    adjLayer ei (fun s k => (X s k : EReal)) (fun k => (w k : EReal)) b n
        = ((∑ k, (∑ s', ((∑ e ∈ Finset.univ.filter (fun e : Fin 640000 => dst ei e = n ∧ src ei e = s'),
              D (src ei e) * D (dst ei e)) + (if n = s' then D n * D n else 0)) * X s' k) * w k : ℝ) : EReal) + b
      ∧ aggLayer ei (fun s k => (X s k : EReal)) (fun k => (w k : EReal)) b n
        = (((∑ e ∈ Finset.univ.filter (fun e : Fin 640000 => dst ei e = n),
              (∑ k, X (src ei e) k * w k) * (D (src ei e) * D (dst ei e)))
            + (∑ k, X n k * w k) * (D n * D n) : ℝ) : EReal) + b := by
  have hite : ∀ s' : Fin 10000, (if n = s' then ((D n * D n : ℝ) : EReal) else 0)
      = ((if n = s' then D n * D n else 0 : ℝ) : EReal) := by
    intro s'; split_ifs <;> simp
  constructor
  · unfold adjLayer adj edgeW selfW
    simp only [hD, ← EReal.coe_mul, hite, ← coe_sum, ← EReal.coe_add]
  · unfold aggLayer edgeW selfW
    simp only [hD, ← EReal.coe_mul, ← coe_sum, ← EReal.coe_add]

theorem adjLayer_eq_aggLayer (ei : IVec SEdges 32) (X : Fin 10000 → Fin 128 → EReal) (w : Fin 128 → EReal) (b : EReal)
    (hX : ∀ s k, ∃ r : ℝ, X s k = (r : EReal)) (hw : ∀ k, ∃ r : ℝ, w k = (r : EReal)) (n : Fin 10000) :
    adjLayer ei X w b n = aggLayer ei X w b n := by
  choose X' hX' using hX
  choose w' hw' using hw
  choose D hD using dis_real ei
  obtain rfl : X = fun s k => (X' s k : EReal) := funext fun s => funext fun k => hX' s k
  obtain rfl : w = fun k => (w' k : EReal) := funext hw'
  obtain ⟨h1, h2⟩ := layers_coe ei X' w' b D hD n
  rw [h1, h2, real_identity (dst ei) (src ei) (fun e => D (src ei e) * D (dst ei e)) (fun m => D m * D m) X' w' n]

theorem aggLayer_real (ei : IVec SEdges 32) (X : Fin 10000 → Fin 128 → EReal) (w : Fin 128 → EReal) (b : EReal)
    (hX : ∀ s k, ∃ r : ℝ, X s k = (r : EReal)) (hw : ∀ k, ∃ r : ℝ, w k = (r : EReal)) (hb : ∃ r : ℝ, b = (r : EReal)) (n : Fin 10000) :
    ∃ r : ℝ, aggLayer ei X w b n = (r : EReal) := by
  choose X' hX' using hX
  choose w' hw' using hw
  choose D hD using dis_real ei
  obtain ⟨b', rfl⟩ := hb
  obtain rfl : X = fun s k => (X' s k : EReal) := funext fun s => funext fun k => hX' s k
  obtain rfl : w = fun k => (w' k : EReal) := funext hw'
  obtain ⟨_, h2⟩ := layers_coe ei X' w' (b' : EReal) D hD n
  exact ⟨_, by rw [h2, ← EReal.coe_add]⟩

/-! ### The heads -/

/-- Both arrangements give the same hidden features on real data. -/
theorem hid_adj_eq_agg (ei : IVec SEdges 32) (x : Fin 10000 → Fin 128 → EReal) (W1 : Fin 128 → Fin 128 → EReal)
    (b1 : Fin 128 → EReal)
    (hx : ∀ s k, ∃ r : ℝ, x s k = (r : EReal)) (hW1 : ∀ k j, ∃ r : ℝ, W1 k j = (r : EReal)) :
    hid (adjLayer ei) x W1 b1 = hid (aggLayer ei) x W1 b1 := by
  funext n k
  unfold hid
  rw [adjLayer_eq_aggLayer ei x (fun k' => W1 k' k) (b1 k) hx (fun k' => hW1 k' k) n]

/-- The hidden features are real on real data. -/
theorem hid_real (ei : IVec SEdges 32) (x : Fin 10000 → Fin 128 → EReal) (W1 : Fin 128 → Fin 128 → EReal)
    (b1 : Fin 128 → EReal)
    (hx : ∀ s k, ∃ r : ℝ, x s k = (r : EReal)) (hW1 : ∀ k j, ∃ r : ℝ, W1 k j = (r : EReal))
    (hb1 : ∀ j, ∃ r : ℝ, b1 j = (r : EReal)) (n : Fin 10000) (k : Fin 128) :
    ∃ r : ℝ, hid (aggLayer ei) x W1 b1 n k = (r : EReal) := by
  obtain ⟨r, hr⟩ := aggLayer_real ei x (fun k' => W1 k' k) (b1 k) hx (fun k' => hW1 k' k) (hb1 k) n
  refine ⟨max r 0, ?_⟩
  unfold hid
  rw [hr, EReal.coe_strictMono.monotone.map_max, EReal.coe_zero]

theorem muOf_adj_eq_agg (ei : IVec SEdges 32) (x : Fin 10000 → Fin 128 → EReal) (W1 : Fin 128 → Fin 128 → EReal) (b1 : Fin 128 → EReal)
    (Wmu : Fin 128 → Fin 64 → EReal) (bmu : Fin 64 → EReal)
    (hx : ∀ s k, ∃ r : ℝ, x s k = (r : EReal)) (hW1 : ∀ k j, ∃ r : ℝ, W1 k j = (r : EReal)) (hb1 : ∀ j, ∃ r : ℝ, b1 j = (r : EReal))
    (hWmu : ∀ k j, ∃ r : ℝ, Wmu k j = (r : EReal)) (n : Fin 10000) (j : Fin 64) :
    muOf (adjLayer ei) x W1 b1 Wmu bmu n j = muOf (aggLayer ei) x W1 b1 Wmu bmu n j := by
  unfold muOf
  rw [hid_adj_eq_agg ei x W1 b1 hx hW1]
  exact adjLayer_eq_aggLayer ei _ _ _ (hid_real ei x W1 b1 hx hW1 hb1) (fun k => hWmu k j) n

theorem lsOf_adj_eq_agg (ei : IVec SEdges 32) (x : Fin 10000 → Fin 128 → EReal) (W1 : Fin 128 → Fin 128 → EReal) (b1 : Fin 128 → EReal)
    (Wls : Fin 128 → Fin 64 → EReal) (bls : Fin 64 → EReal)
    (hx : ∀ s k, ∃ r : ℝ, x s k = (r : EReal)) (hW1 : ∀ k j, ∃ r : ℝ, W1 k j = (r : EReal)) (hb1 : ∀ j, ∃ r : ℝ, b1 j = (r : EReal))
    (hWls : ∀ k j, ∃ r : ℝ, Wls k j = (r : EReal)) (n : Fin 10000) (j : Fin 64) :
    lsOf (adjLayer ei) x W1 b1 Wls bls n j = lsOf (aggLayer ei) x W1 b1 Wls bls n j := by
  unfold lsOf
  rw [hid_adj_eq_agg ei x W1 b1 hx hW1]
  exact congrArg softplus
    (adjLayer_eq_aggLayer ei _ _ _ (hid_real ei x W1 b1 hx hW1 hb1) (fun k => hWls k j) n)

end Cert.Gcn

end
-- ==== Proof.PreRead.lean ====
/-
  The precondition read back. The printed test is a conjunction of eight one-bit scalars: for each of the seven
  real-valued arrays, "every entry has absolute value below +∞", and for the table of edge words, "every word w has
  0 ≤ w and w < 10000, read signed". When the conjunction is 1, every entry of the seven arrays is a real number
  (neither +∞ nor −∞) and every edge word lies in [0, 10000).
-/
import proofs.«419644_j5583457485490_3_alg».proof.Pre_finite_inputs
import proofs.«419644_j5583457485490_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Gcn

open Idealize.ShloMosaic Idealize.ShloMosaic.StableHlo.Predicate

/-- The empty shape has one index. -/
instance subsingleton_scalar_idx : Subsingleton (⟨0, ![]⟩ : Shape).Idx := ⟨fun a b => funext fun d => d.elim0⟩

/-- The pattern 0x7F800000 denotes +∞. -/
theorem inf_pattern : Ideal.ofBits .f32 0x7F800000#32 = (⊤ : EReal) := by
  simp [Ideal.ofBits, Ideal.ieee]

/-- An extended real whose absolute value is strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- An array whose "all entries have absolute value below +∞" test is 1 has real entries. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel) (init : IVec (⟨0, ![]⟩ : Shape) 1)
    (e : Host.reduce IntOp.andi
        (cmpf .olt (Host.absf x) (broadcastInDim s ![] hb (constant (F := Ideal) (⟨0, ![]⟩ : Shape) .f32 0x7F800000#32)))
        init hr h0 ValueIdx.ix0 = 1#1) :
    ∀ i, ∃ r : ℝ, x i = (r : EReal) := by
  intro i
  have hi := Host.reduce_andi_all _ init hr h0 ValueIdx.ix0 e i
  rw [show cmpf .olt (Host.absf x) (broadcastInDim s ![] hb (constant (F := Ideal) (⟨0, ![]⟩ : Shape) .f32 0x7F800000#32)) i
      = Ideal.cmp .olt (max (x i) (-(x i))) (Ideal.ofBits .f32 0x7F800000#32) from by
        simp only [cmpf, bcast_scalar hb h0]; rfl] at hi
  rw [inf_pattern] at hi
  simp only [Ideal.cmp, ofBool_eq_one_iff, decide_eq_true_eq] at hi
  exact real_of_abs_lt_top _ hi

/-- A table of words whose "every word w has 0 ≤ w and w < 10000, signed" test is 1 has every word in [0, 10000). -/
theorem range_of_all {s : Shape} {axes : List (Fin s.rank)} (a : IVec s 32)
    (hb : (⟨0, ![]⟩ : Shape).BroadcastsInDim s (![] : Fin 0 → Fin s.rank))
    (hr : s.ReducesTo axes (⟨0, ![]⟩ : Shape)) (h0 : 0 < (⟨0, ![]⟩ : Shape).numel) (init : IVec (⟨0, ![]⟩ : Shape) 1)
    (e : Host.reduce IntOp.andi
        (andi (cmpi .sge a (broadcastInDim s ![] hb (constantI (⟨0, ![]⟩ : Shape) 32 0#32)))
          (cmpi .slt a (broadcastInDim s ![] hb (constantI (⟨0, ![]⟩ : Shape) 32 10000#32))))
        init hr h0 ValueIdx.ix0 = 1#1) :
    ∀ i, 0 ≤ (a i).toInt ∧ (a i).toInt < 10000 := by
  intro i
  have hi := Host.reduce_andi_all _ init hr h0 ValueIdx.ix0 e i
  simp only [andi, cmpi, bcast_scalar hb h0, constantI, IntOp.andi_eq_one, IntOp.cmpi_sge, IntOp.cmpi_slt] at hi
  have z : (0#32 : BitVec 32).toInt = 0 := by decide
  have t : (10000#32 : BitVec 32).toInt = 10000 := by decide
  rw [z, t] at hi
  exact hi

open Cert.Pre_finite_inputs in
/-- THE PRECONDITION READ BACK: when the printed test is 1, the seven real-valued arrays hold real numbers and every
    edge word lies in [0, 10000). -/
theorem pre_read [Cert.Pre_finite_inputs.Facts]
    (a0 : FVec Ideal Cert.Pre_finite_inputs.S10000x128 .f32) (a1 : IVec Cert.Pre_finite_inputs.S2x640000 32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (a6 : FVec Ideal Cert.Pre_finite_inputs.S128x64 .f32) (a7 : FVec Ideal Cert.Pre_finite_inputs.S64 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, 0 ≤ (a1 i).toInt ∧ (a1 i).toInt < 10000) := by
  have e := congrFun h ValueIdx.ix0
  dsimp only [Cert.Pre_finite_inputs.fn, Cert.Pre_finite_inputs.fn_part1, Cert.Pre_finite_inputs.fn_part2] at e
  have split : ∀ (x y : IVec S_ 1) (j : S_.Idx), andi x y j = IntOp.andi (x j) (y j) := fun _ _ _ => rfl
  simp only [split, IntOp.andi_eq_one] at e
  obtain ⟨⟨⟨⟨⟨⟨⟨e0, e2⟩, e3⟩, e4⟩, e5⟩, e6⟩, e7⟩, e1⟩ := e
  exact ⟨real_of_all a0 _ _ _ _ e0, real_of_all a2 _ _ _ _ e2, real_of_all a3 _ _ _ _ e3, real_of_all a4 _ _ _ _ e4,
    real_of_all a5 _ _ _ _ e5, real_of_all a6 _ _ _ _ e6, real_of_all a7 _ _ _ _ e7, range_of_all a1 _ _ _ _ e1⟩

/-- info: 'Cert.Gcn.pre_read' depends on axioms: [propext, Classical.choice, Quot.sound] -/
#guard_msgs in #print axioms pre_read

end Cert.Gcn

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.RefConv1.lean ====
/-
  One graph-convolution block of the reference, read at one element.

  The block forms `h = X · W`, gathers `h`'s rows at the edges' sources and weighs each by its edge weight, adds the
  weighted rows into the rows of their destinations starting from zero, adds `h` weighed by the self-loop weight, and adds
  the bias. For edge words in range the negative-index wrap is the identity, the gather's clamp names the source node and an
  update lands in row `g` exactly when the edge's destination node is `g`. So the block's output at `(g, j)` is
  `(Σ_{e : dst e = g} (Σ_k X (src e, k) · W (k, j)) · w_e + (Σ_k X (g, k) · W (k, j)) · w_g) + b j`,
  with the edge weights `w_e` and the self weights `w_g` left as the stages that compute them.
-/
import proofs.«419644_j5583457485490_3_alg».proof.Proof.Gen.ReferenceIdeal.Read
import proofs.«419644_j5583457485490_3_alg».proof.Proof.Spec
import proofs.«419644_j5583457485490_3_alg».proof.Proof.LibScatterRead
import Idealize.ShloMosaic.Lib.ValueIdx
import Idealize.ShloMosaic.PureOps.Ideal.Laws

noncomputable section

open scoped BigOperators

namespace Cert.Gcn.RefConv1

open Cert.ReferenceIdeal Cert.ReferenceIdeal.Read Idealize.ShloMosaic Idealize.ShloMosaic.ValueIdx Idealize.ShloMosaic.ScatterRead Cert.Gcn

/-! ## The edge words -/

/-- The flattened first row of the edge table at `e` is the table's source word of edge `e`. -/
theorem srcWord_apply (x1 : (⟨S2x640000, .i32⟩ : BufTy).Contents (Elt Ideal)) (e : Fin 640000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The flattened second row of the edge table at `e` is the table's destination word of edge `e`. -/
theorem dstWord_apply (x1 : (⟨S2x640000, .i32⟩ : BufTy).Contents (Elt Ideal)) (e : Fin 640000) :
    val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The negative-index wrap `if w < 0 then w + 10000 else w` leaves a non-negative word alone. -/
theorem wrap_of_nonneg (w a : BitVec 32) (h0 : 0 ≤ w.toInt) :
    Scalar.select (IntOp.cmpi .slt w 0#32) a w = w := by
  have hs : w.slt 0#32 = false := by
    rw [Bool.eq_false_iff]
    intro h
    rw [BitVec.slt_iff_toInt_lt] at h
    have hz : (0#32 : BitVec 32).toInt = 0 := by decide
    omega
  show Scalar.select (BitVec.ofBool (w.slt 0#32)) a w = w
  rw [hs]
  exact select_zero a w

/-- For a source word in range, the wrapped word is the word. -/
theorem wrapped_apply (x1 : (⟨S2x640000, .i32⟩ : BufTy).Contents (Elt Ideal))
    (hin : ∀ i, 0 ≤ (x1 i).toInt ∧ (x1 i).toInt < 10000) (e : Fin 640000) :
    val_main_v32 (F := Ideal) x1 (ix1 e) = x1 (ix2 (0 : Fin 2) e) := by
  rw [val_main_v32_apply, val_main_v29_apply, val_main_v28_apply, val_main_c_5_apply, srcWord_apply]
  exact wrap_of_nonneg _ _ (hin _).1

/-- The gather's index column at row `e` is the source word of edge `e`. -/
theorem srcCol_apply (x1 : (⟨S2x640000, .i32⟩ : BufTy).Contents (Elt Ideal))
    (hin : ∀ i, 0 ≤ (x1 i).toInt ∧ (x1 i).toInt < 10000) (e : Fin 640000) :
    val_main_v33 (F := Ideal) x1 (ix2 e (0 : Fin 1)) = x1 (ix2 (0 : Fin 2) e) := by
  have hi : idx_main_v33 (ix2 e (0 : Fin 1)) = ix1 e := funext fun a => Fin.ext (by match a with | ⟨0, _⟩ => rfl)
  rw [val_main_v33_apply, hi]
  exact wrapped_apply x1 hin e

/-- The scatter's index column at row `e` is the destination word of edge `e`. -/
theorem dstCol_apply (x1 : (⟨S2x640000, .i32⟩ : BufTy).Contents (Elt Ideal)) (e : Fin 640000) :
    val_main_v39 (F := Ideal) x1 (ix2 e (0 : Fin 1)) = x1 (ix2 (1 : Fin 2) e) := by
  have hi : idx_main_v39 (ix2 e (0 : Fin 1)) = ix1 e := funext fun a => Fin.ext (by match a with | ⟨0, _⟩ => rfl)
  rw [val_main_v39_apply, hi]
  exact dstWord_apply x1 e

/-- An update lands in row `g` exactly when its edge's destination node is `g`. -/
theorem lands_iff (x1 : (⟨S2x640000, .i32⟩ : BufTy).Contents (Elt Ideal))
    (hin : ∀ i, 0 ≤ (x1 i).toInt ∧ (x1 i).toInt < 10000) (e : Fin 640000) (g : Fin 10000) :
    (val_main_v39 (F := Ideal) x1 (ix2 e (0 : Fin 1))).toInt = (g.val : ℤ) ↔ dst x1 e = g := by
  rw [dstCol_apply]
  have hv : ((dst x1 e).val : ℤ) = (x1 (ix2 (1 : Fin 2) e)).toInt := node_val_of_inRange (hin _).1 (hin _).2
  constructor
  · intro h
    exact Fin.ext (by omega)
  · rintro rfl
    exact hv.symm

/-! ## The transformed features, the messages, the aggregate -/

/-- `h = X · W` at `(n, j)`. -/
theorem hidden_apply (x0 : (⟨S10000x128, .f32⟩ : BufTy).Contents (Elt Ideal)) (x2 : (⟨S128x128, .f32⟩ : BufTy).Contents (Elt Ideal))
    (n : Fin 10000) (j : Fin 128) :
    val_main_v27 (F := Ideal) x0 x2 (ix2 n j) = ∑ k : Fin 128, x0 (ix2 n k) * x2 (ix2 k j) := by
  rw [val_main_v27_apply]
  refine Finset.sum_congr rfl fun k _ => ?_
  have el : lidx_main_v27 (ix2 n j) k = ix2 n k := funext fun a => Fin.ext (by match a with | ⟨0, _⟩ => rfl | ⟨1, _⟩ => rfl)
  have er : ridx_main_v27 (ix2 n j) k = ix2 k j := funext fun a => Fin.ext (by match a with | ⟨0, _⟩ => rfl | ⟨1, _⟩ => rfl)
  rw [el, er]

/-- The gathered rows: row `e` is `h`'s row at the source node of edge `e`. -/
theorem gathered_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (hin : ∀ i, 0 ≤ (x1 i).toInt ∧ (x1 i).toInt < 10000)
    (e : Fin 640000) (k : Fin 128) :
    val_main_v34 (F := Ideal) x0 x1 x2 (ix2 e k) = val_main_v27 (F := Ideal) x0 x2 (ix2 (src x1 e) k) := by
  unfold val_main_v34
  refine (gather_rows_apply (by decide) gather_S10000x128_S640000x1_S640000x128_1_0_n_n_0_1_1128 rfl rfl rfl rfl rfl rfl rfl
    (val_main_v27 (F := Ideal) x0 x2) (val_main_v33 (F := Ideal) x1) e k).trans ?_
  refine congrArg (fun n => val_main_v27 (F := Ideal) x0 x2 (ix2 n k)) (Fin.ext ?_)
  show min (val_main_v33 (F := Ideal) x1 (ix2 e (0 : Fin 1))).toInt.toNat (10000 - 1) = min (x1 (ix2 (0 : Fin 2) e)).toInt.toNat 9999
  rw [srcCol_apply x1 hin e]

/-- The edge weights spread over the columns: every column of row `e` is edge `e`'s weight. -/
theorem edgeCol_apply (x1 : (⟨S2x640000, .i32⟩ : BufTy).Contents (Elt Ideal)) (e : Fin 640000) (k : Fin 128) :
    val_main_v36 (F := Ideal) x1 (ix2 e k) = val_main_v25 (F := Ideal) x1 (ix1 e) := by
  rw [val_main_v36_apply, val_main_v35_apply]
  refine congrArg (val_main_v25 (F := Ideal) x1) (funext fun a => Fin.ext ?_)
  match a with
  | ⟨0, _⟩ => rfl

/-- The messages: `h`'s row at the source, times the edge's weight. -/
theorem msg_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (hin : ∀ i, 0 ≤ (x1 i).toInt ∧ (x1 i).toInt < 10000)
    (e : Fin 640000) (k : Fin 128) :
    val_main_v37 (F := Ideal) x0 x1 x2 (ix2 e k)
      = val_main_v27 (F := Ideal) x0 x2 (ix2 (src x1 e) k) * val_main_v25 (F := Ideal) x1 (ix1 e) := by
  rw [val_main_v37_apply, gathered_apply x0 x1 x2 hin e k, edgeCol_apply x1 e k, Ideal.mulf_def]

/-- The array the aggregate starts from is zero. -/
theorem zeros_apply (i : S10000x128.Idx) : val_main_v38 (F := Ideal) i = 0 := by
  rw [val_main_v38_apply, val_main_cst_7_apply]
  exact Ideal.ofBits_zero_f32

/-- The aggregate is the row scatter-add of the messages, by the destination column, into the zero array. -/
theorem agg_eq (x0 : (⟨S10000x128, .f32⟩ : BufTy).Contents (Elt Ideal)) (x1 : (⟨S2x640000, .i32⟩ : BufTy).Contents (Elt Ideal))
    (x2 : (⟨S128x128, .f32⟩ : BufTy).Contents (Elt Ideal)) :
    val_main_v40 (F := Ideal) x0 x1 x2
      = Ideal.hostScatterAdd scatter_S10000x128_S640000x1_S640000x128_1_0_0_1 (val_main_v38 (F := Ideal))
          (val_main_v39 (F := Ideal) x1) (val_main_v37 (F := Ideal) x0 x1 x2) := rfl

/-- The aggregate at `(g, j)`: the messages of the edges into `g`, column `j`, summed. -/
theorem agg_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (hin : ∀ i, 0 ≤ (x1 i).toInt ∧ (x1 i).toInt < 10000)
    (g : Fin 10000) (j : Fin 128) :
    val_main_v40 (F := Ideal) x0 x1 x2 (ix2 g j)
      = ∑ e ∈ Finset.univ.filter (fun e : Fin 640000 => dst x1 e = g), val_main_v37 (F := Ideal) x0 x1 x2 (ix2 e j) := by
  rw [agg_eq]
  refine (scatterAdd_rows_apply scatter_S10000x128_S640000x1_S640000x128_1_0_0_1 rfl rfl rfl rfl (val_main_v38 (F := Ideal))
    (val_main_v39 (F := Ideal) x1) (val_main_v37 (F := Ideal) x0 x1 x2) g j).trans ?_
  rw [zeros_apply, zero_add, Finset.sum_filter, Finset.sum_filter]
  refine Finset.sum_congr rfl fun e _ => ?_
  exact if_congr (lands_iff x1 hin e g) rfl rfl

/-! ## The self term, the bias, the block -/

/-- The self weights spread over the columns: every column of row `g` is node `g`'s self weight. -/
theorem selfCol_apply (x1 : (⟨S2x640000, .i32⟩ : BufTy).Contents (Elt Ideal)) (g : Fin 10000) (j : Fin 128) :
    val_main_v42 (F := Ideal) x1 (ix2 g j) = val_main_v26 (F := Ideal) x1 (ix1 g) := by
  rw [val_main_v42_apply, val_main_v41_apply]
  refine congrArg (val_main_v26 (F := Ideal) x1) (funext fun a => Fin.ext ?_)
  match a with
  | ⟨0, _⟩ => rfl

/-- The bias spread over the rows: row `g`, column `j` is the bias at `j`. -/
theorem biasRow_apply (x3 : (⟨S128, .f32⟩ : BufTy).Contents (Elt Ideal)) (g : Fin 10000) (j : Fin 128) :
    val_main_v46 (F := Ideal) x3 (ix2 g j) = x3 (ix1 j) := by
  rw [val_main_v46_apply, val_main_v45_apply]
  refine congrArg x3 (funext fun a => Fin.ext ?_)
  match a with
  | ⟨0, _⟩ => rfl

/-- The block's output at `(g, j)`: the weighted transformed features of the edges into `g`, summed, plus `g`'s own
    weighted transformed features, plus the bias. -/
theorem refConv1_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (hin : ∀ i, 0 ≤ (x1 i).toInt ∧ (x1 i).toInt < 10000) (g : Fin 10000) (j : Fin 128) :
    val_main_v47 (F := Ideal) x0 x1 x2 x3 (ix2 g j)
      = ((∑ e ∈ Finset.univ.filter (fun e : Fin 640000 => dst x1 e = g),
            (∑ k : Fin 128, x0 (ix2 (src x1 e) k) * x2 (ix2 k j)) * val_main_v25 (F := Ideal) x1 (ix1 e))
          + (∑ k : Fin 128, x0 (ix2 g k) * x2 (ix2 k j)) * val_main_v26 (F := Ideal) x1 (ix1 g))
        + x3 (ix1 j) := by
  have hmsg : ∀ e : Fin 640000, val_main_v37 (F := Ideal) x0 x1 x2 (ix2 e j)
      = (∑ k : Fin 128, x0 (ix2 (src x1 e) k) * x2 (ix2 k j)) * val_main_v25 (F := Ideal) x1 (ix1 e) := fun e => by
    rw [msg_apply x0 x1 x2 hin e j, hidden_apply x0 x2 (src x1 e) j]
  rw [val_main_v47_apply, val_main_v44_apply, val_main_v43_apply, agg_apply x0 x1 x2 hin g j, hidden_apply x0 x2 g j,
    selfCol_apply x1 g j, biasRow_apply x3 g j, Ideal.addf_def, Ideal.addf_def, Ideal.mulf_def]
  simp only [hmsg]

end Cert.Gcn.RefConv1

end
-- ==== Proof.RefConv2.lean ====
/-
  One graph-convolution block of the reference program, read at an index.

  The block: the hidden features `H` [10000, 128] times a weight matrix `W` [128, 64] (`h = H · W`); for every edge
  `e` the row of `h` at the edge's source, scaled by the edge's weight; those rows added into the row of the edge's
  destination, from zeros; plus `h` scaled row by row by the self-loop weight; plus the bias row.

  With every edge word in `[0, 10000)`: adding 10000 to a negative word changes nothing; the row a word selects,
  clamped into range, is the node the word names; and an edge's row lands in row `g` exactly when the edge's
  destination is `g`. So the block's element at node `g` and column `j` is
  `(Σ_{e into g} (Σ_k H (src e, k) · W (k, j)) · weight e  +  (Σ_k H (g, k) · W (k, j)) · selfweight g) + b j`
  (`refConv2_apply`), the edge and self-loop weights left as the stages that compute them.
-/
import proofs.«419644_j5583457485490_3_alg».proof.Proof.Gen.ReferenceIdeal.Read
import proofs.«419644_j5583457485490_3_alg».proof.Proof.Spec
import proofs.«419644_j5583457485490_3_alg».proof.Proof.LibScatterRead
import Idealize.ShloMosaic.Lib.Affine
import Idealize.ShloMosaic.Lib.ValueIdx
import Idealize.ShloMosaic.PureOps.Ideal.Laws

noncomputable section

open scoped BigOperators

namespace Cert.Gcn.RefConv2

open Cert.ReferenceIdeal Cert.ReferenceIdeal.Read Idealize.ShloMosaic Idealize.ShloMosaic.ValueIdx Cert.Gcn
  Idealize.ShloMosaic.ScatterRead

/-- The contents of the arrays the block reads. -/
abbrev Feat : Type := (⟨S10000x128, .f32⟩ : BufTy).Contents (Elt Ideal)
abbrev Edges : Type := (⟨S2x640000, .i32⟩ : BufTy).Contents (Elt Ideal)
abbrev W1 : Type := (⟨S128x128, .f32⟩ : BufTy).Contents (Elt Ideal)
abbrev B1 : Type := (⟨S128, .f32⟩ : BufTy).Contents (Elt Ideal)
abbrev W2 : Type := (⟨S128x64, .f32⟩ : BufTy).Contents (Elt Ideal)
abbrev B2 : Type := (⟨S64, .f32⟩ : BufTy).Contents (Elt Ideal)

/-! ## The edge words -/

/-- The source word of edge `e` is row 0 of the table. -/
theorem srcWord (x1 : Edges) (e : Fin 640000) : val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- The destination word of edge `e` is row 1 of the table. -/
theorem dstWord (x1 : Edges) (e : Fin 640000) : val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- A source word that is not negative is left as it is by the wrap of negative indices. -/
theorem wrapWord (x1 : Edges) (hin : ∀ i, 0 ≤ (x1 i).toInt ∧ (x1 i).toInt < 10000) (e : Fin 640000) :
    val_main_v54 (F := Ideal) x1 (ix1 e) = x1 (ix2 (0 : Fin 2) e) := by
  rw [val_main_v54_apply, val_main_v51_apply, val_main_v50_apply, val_main_c_8_apply, srcWord]
  have h : IntOp.cmpi .slt (x1 (ix2 (0 : Fin 2) e)) 0#32 = 0#1 :=
    eq_zero_of_ne_one fun h1 => by
      have h2 := IntOp.cmpi_slt.mp h1
      have z : (0#32 : BitVec 32).toInt = 0 := by decide
      have h3 := (hin (ix2 (0 : Fin 2) e)).1
      omega
  rw [h, select_zero]

/-! ## The product with the weights -/

/-- The transformed features at node `n`, column `j`. -/
theorem hidMul (x0 : Feat) (x1 : Edges) (x2 : W1) (x3 : B1) (x4 : W2) (n : Fin 10000) (j : Fin 64) :
    val_main_v49 (F := Ideal) x0 x1 x2 x3 x4 (ix2 n j)
      = ∑ k : Fin 128, val_main_v48 (F := Ideal) x0 x1 x2 x3 (ix2 n k) * x4 (ix2 k j) := by
  rw [val_main_v49_apply]
  refine Finset.sum_congr rfl fun k _ => ?_
  have el : lidx_main_v49 (ix2 n j) k = ix2 n k := funext fun a => by
    match a with
    | ⟨0, _⟩ => rfl
    | ⟨1, _⟩ => rfl
  have er : ridx_main_v49 (ix2 n j) k = ix2 k j := funext fun a => by
    match a with
    | ⟨0, _⟩ => rfl
    | ⟨1, _⟩ => rfl
  rw [el, er]

/-! ## The rows gathered along the edges -/

/-- A row gather from the [10000, 64] array read at an element: the operand's row at the node the index word names. -/
theorem gath_read (y : FVec Ideal S10000x64 .f32) (idx : IVec S640000x1 32) (e : Fin 640000) (j : Fin 64) :
    Host.gather gather_S10000x64_S640000x1_S640000x64_1_0_n_n_0_1_164 y idx (ix2 e j)
      = y (ix2 (node (idx (ix2 e (0 : Fin 1)))) j) := by
  refine (gather_rows_apply (N := 10000) (M := 640000) (D := 64) (by omega)
    gather_S10000x64_S640000x1_S640000x64_1_0_n_n_0_1_164 rfl rfl rfl rfl rfl rfl rfl y idx e j).trans ?_
  rfl

/-- The index word of edge `e`'s gather is its source word. -/
theorem gatherWord (x1 : Edges) (hin : ∀ i, 0 ≤ (x1 i).toInt ∧ (x1 i).toInt < 10000) (e : Fin 640000) :
    val_main_v55 (F := Ideal) x1 (ix2 e (0 : Fin 1)) = x1 (ix2 (0 : Fin 2) e) := by
  rw [val_main_v55_apply]
  refine Eq.trans (congrArg (val_main_v54 (F := Ideal) x1) (funext fun a => ?_)) (wrapWord x1 hin e)
  match a with
  | ⟨0, _⟩ => rfl

/-- The gathered row of edge `e` is the row of its source node. -/
theorem gathered (x0 : Feat) (x1 : Edges) (x2 : W1) (x3 : B1) (x4 : W2)
    (hin : ∀ i, 0 ≤ (x1 i).toInt ∧ (x1 i).toInt < 10000) (e : Fin 640000) (j : Fin 64) :
    val_main_v56 (F := Ideal) x0 x1 x2 x3 x4 (ix2 e j) = val_main_v49 (F := Ideal) x0 x1 x2 x3 x4 (ix2 (src x1 e) j) := by
  unfold val_main_v56
  generalize val_main_v49 (F := Ideal) x0 x1 x2 x3 x4 = y
  refine (gath_read y (val_main_v55 (F := Ideal) x1) e j).trans ?_
  rw [gatherWord x1 hin e]
  rfl

/-- The weight column broadcast along a row reads the edge's weight. -/
theorem edgeWeight_read (x1 : Edges) (e : Fin 640000) (j : Fin 64) :
    val_main_v58 (F := Ideal) x1 (ix2 e j) = val_main_v25 (F := Ideal) x1 (ix1 e) := by
  rw [val_main_v58_apply, val_main_v57_apply]
  refine congrArg (val_main_v25 (F := Ideal) x1) (funext fun a => ?_)
  match a with
  | ⟨0, _⟩ => rfl

/-- The message of edge `e`: its source's transformed features, scaled by the edge's weight. -/
theorem msg_read (x0 : Feat) (x1 : Edges) (x2 : W1) (x3 : B1) (x4 : W2)
    (hin : ∀ i, 0 ≤ (x1 i).toInt ∧ (x1 i).toInt < 10000) (e : Fin 640000) (j : Fin 64) :
    val_main_v59 (F := Ideal) x0 x1 x2 x3 x4 (ix2 e j)
      = (∑ k : Fin 128, val_main_v48 (F := Ideal) x0 x1 x2 x3 (ix2 (src x1 e) k) * x4 (ix2 k j)) * val_main_v25 (F := Ideal) x1 (ix1 e) := by
  rw [val_main_v59_apply, Ideal.mulf_def, gathered x0 x1 x2 x3 x4 hin, edgeWeight_read, hidMul]

/-! ## The messages added into their destinations -/

/-- An edge's message lands in row `g` exactly when the edge's destination is `g`. -/
theorem lands_iff (x1 : Edges) (hin : ∀ i, 0 ≤ (x1 i).toInt ∧ (x1 i).toInt < 10000) (g : Fin 10000) (v : Fin 640000) :
    (val_main_v61 (F := Ideal) x1 (ix2 v (0 : Fin 1))).toInt = (g.val : ℤ) ↔ dst x1 v = g := by
  have hc : val_main_v61 (F := Ideal) x1 (ix2 v (0 : Fin 1)) = x1 (ix2 (1 : Fin 2) v) := by
    rw [val_main_v61_apply]
    refine Eq.trans (congrArg (val_main_v3 (F := Ideal) x1) (funext fun a => ?_)) (dstWord x1 v)
    match a with
    | ⟨0, _⟩ => rfl
  rw [hc]
  have hw := hin (ix2 (1 : Fin 2) v)
  have hn : ((dst x1 v).val : ℤ) = (x1 (ix2 (1 : Fin 2) v)).toInt := node_val_of_inRange hw.1 hw.2
  constructor
  · intro h
    have h2 : ((dst x1 v).val : ℤ) = (g.val : ℤ) := hn.trans h
    exact Fin.ext (by exact_mod_cast h2)
  · rintro rfl
    exact hn.symm

/-- A row scatter-add into the [10000, 64] array read at an element: the operand's plus the updates whose index word,
    read signed, is the row. -/
theorem scat_read (x : FVec Ideal S10000x64 .f32) (idx : IVec S640000x1 32)
    (u : FVec Ideal S640000x64 .f32) (g : Fin 10000) (j : Fin 64) :
    Host.scatterAdd (F := Ideal) scatter_S10000x64_S640000x1_S640000x64_1_0_0_1 x idx u (ix2 g j)
      = x (ix2 g j) + ∑ v ∈ Finset.univ.filter (fun v : Fin 640000 => (idx (ix2 v (0 : Fin 1))).toInt = (g.val : ℤ)), u (ix2 v j) := by
  unfold Host.scatterAdd
  rw [Ideal.hostScatterAdd_def]
  exact scatterAdd_rows_apply scatter_S10000x64_S640000x1_S640000x64_1_0_0_1 rfl rfl rfl rfl x idx u g j

/-- The sum of the messages into node `g`. -/
theorem scattered (x0 : Feat) (x1 : Edges) (x2 : W1) (x3 : B1) (x4 : W2)
    (hin : ∀ i, 0 ≤ (x1 i).toInt ∧ (x1 i).toInt < 10000) (g : Fin 10000) (j : Fin 64) :
    val_main_v62 (F := Ideal) x0 x1 x2 x3 x4 (ix2 g j)
      = ∑ e ∈ Finset.univ.filter (fun e : Fin 640000 => dst x1 e = g),
          (∑ k : Fin 128, val_main_v48 (F := Ideal) x0 x1 x2 x3 (ix2 (src x1 e) k) * x4 (ix2 k j)) * val_main_v25 (F := Ideal) x1 (ix1 e) := by
  have hm : ∀ e : Fin 640000, val_main_v59 (F := Ideal) x0 x1 x2 x3 x4 (ix2 e j)
      = (∑ k : Fin 128, val_main_v48 (F := Ideal) x0 x1 x2 x3 (ix2 (src x1 e) k) * x4 (ix2 k j)) * val_main_v25 (F := Ideal) x1 (ix1 e) :=
    fun e => msg_read x0 x1 x2 x3 x4 hin e j
  unfold val_main_v62
  generalize val_main_v59 (F := Ideal) x0 x1 x2 x3 x4 = u at hm ⊢
  rw [scat_read, val_main_v60_apply, val_main_cst_10_apply, Ideal.ofBits_def, Ideal.ofBits_zero_f32, zero_add,
    Finset.sum_filter, Finset.sum_filter]
  refine Finset.sum_congr rfl fun v _ => ?_
  rw [hm v]
  exact if_congr (lands_iff x1 hin g v) rfl rfl

/-! ## The self loop and the bias -/

/-- The self-weight column broadcast along a row reads the node's self weight. -/
theorem selfWeight_read (x1 : Edges) (g : Fin 10000) (j : Fin 64) :
    val_main_v64 (F := Ideal) x1 (ix2 g j) = val_main_v26 (F := Ideal) x1 (ix1 g) := by
  rw [val_main_v64_apply, val_main_v63_apply]
  refine congrArg (val_main_v26 (F := Ideal) x1) (funext fun a => ?_)
  match a with
  | ⟨0, _⟩ => rfl

/-- The bias row broadcast down the nodes reads the bias at the column. -/
theorem bias_read (x5 : B2) (g : Fin 10000) (j : Fin 64) :
    val_main_v68 (F := Ideal) x5 (ix2 g j) = x5 (ix1 j) := by
  rw [val_main_v68_apply, val_main_v67_apply]
  refine congrArg x5 (funext fun a => ?_)
  match a with
  | ⟨0, _⟩ => rfl

/-! ## The block -/

/-- The block at node `g`, column `j`: the messages into `g`, the self loop's term, the bias. -/
theorem refConv2_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (hin : ∀ i, 0 ≤ (x1 i).toInt ∧ (x1 i).toInt < 10000) (g : Fin 10000) (j : Fin 64) :
    val_main_v69 (F := Ideal) x0 x1 x2 x3 x4 x5 (ix2 g j)
      = ((∑ e ∈ Finset.univ.filter (fun e : Fin 640000 => dst x1 e = g),
            (∑ k : Fin 128, val_main_v48 (F := Ideal) x0 x1 x2 x3 (ix2 (src x1 e) k) * x4 (ix2 k j)) * val_main_v25 (F := Ideal) x1 (ix1 e))
          + (∑ k : Fin 128, val_main_v48 (F := Ideal) x0 x1 x2 x3 (ix2 g k) * x4 (ix2 k j)) * val_main_v26 (F := Ideal) x1 (ix1 g))
        + x5 (ix1 j) := by
  rw [val_main_v69_apply, val_main_v66_apply, val_main_v65_apply, Ideal.addf_def, Ideal.addf_def, Ideal.mulf_def,
    scattered x0 x1 x2 x3 x4 hin g j, selfWeight_read, bias_read, hidMul]

end Cert.Gcn.RefConv2

end
-- ==== Proof.RefConv3.lean ====
/-
  One graph-convolution block of the reference, read at an index.

  The block multiplies the hidden features by a weight matrix, gathers the product's rows at the edges' source
  words, scales each by its edge weight, adds them up at the edges' destination words, adds the self loop's term
  and the bias. With every edge word in range the negative-index wrap is the identity, the gather's clamp is the
  node the word names, and an update lands at node g exactly when its edge's destination is g. So the block at
  (g, j) is
    (Σ_{e into g} (Σ_k h (src e) k · W k j) · weight e + (Σ_k h g k · W k j) · selfweight g) + b j,
  the edge and self-loop weights left as the stages that compute them.
-/
import proofs.«419644_j5583457485490_3_alg».proof.Proof.Gen.ReferenceIdeal.Read
import proofs.«419644_j5583457485490_3_alg».proof.Proof.Spec
import proofs.«419644_j5583457485490_3_alg».proof.Proof.LibScatterRead

noncomputable section

open scoped BigOperators

namespace Cert.Gcn.RefConv3

open Cert.ReferenceIdeal Cert.ReferenceIdeal.Read Idealize.ShloMosaic Idealize.ShloMosaic.ValueIdx Cert.Gcn

/-! ### The edge words -/

/-- The source word of edge e is row 0 of the edge table. -/
theorem srcWord (x1 : (⟨S2x640000, .i32⟩ : BufTy).Contents (Elt Ideal)) (e : Fin 640000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The destination word of edge e is row 1 of the edge table. -/
theorem dstWord (x1 : (⟨S2x640000, .i32⟩ : BufTy).Contents (Elt Ideal)) (e : Fin 640000) :
    val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The gather's index column at edge e: the source word itself, the negative-index wrap being the identity on a
    word that is not negative. -/
theorem gatherWord (x1 : (⟨S2x640000, .i32⟩ : BufTy).Contents (Elt Ideal)) (e : Fin 640000)
    (h0 : 0 ≤ (x1 (ix2 (0 : Fin 2) e)).toInt) :
    val_main_v76 (F := Ideal) x1 (ix2 e (0 : Fin 1)) = x1 (ix2 (0 : Fin 2) e) := by
  rw [val_main_v76_apply, val_main_v75_apply, val_main_v72_apply]
  have hi : idx_main_v76 (ix2 e (0 : Fin 1)) = ix1 e :=
    funext fun a => Fin.ext (by match a with | ⟨0, _⟩ => rfl)
  rw [hi, srcWord, val_main_v71_apply, val_main_c_11_apply]
  have hlt : (x1 (ix2 (0 : Fin 2) e)).slt 0#32 = false := by
    simp only [BitVec.slt, BitVec.toInt_zero, decide_eq_false_iff_not, Int.not_lt]
    exact h0
  have hc : IntOp.cmpi .slt (x1 (ix2 (0 : Fin 2) e)) 0#32 = 0#1 := by
    show BitVec.ofBool ((x1 (ix2 (0 : Fin 2) e)).slt 0#32) = 0#1
    rw [hlt]
    rfl
  rw [hc]
  show (if (0#1 : BitVec 1) = 1 then _ else _) = _
  rw [if_neg (by decide)]

/-- The scatter's index column at edge e: the destination word. -/
theorem scatterWord (x1 : (⟨S2x640000, .i32⟩ : BufTy).Contents (Elt Ideal)) (e : Fin 640000) :
    val_main_v82 (F := Ideal) x1 (ix2 e (0 : Fin 1)) = x1 (ix2 (1 : Fin 2) e) := by
  rw [val_main_v82_apply]
  have hi : idx_main_v82 (ix2 e (0 : Fin 1)) = ix1 e :=
    funext fun a => Fin.ext (by match a with | ⟨0, _⟩ => rfl)
  rw [hi, dstWord]

/-! ### The stages at an index -/

/-- The transformed features: the hidden features times the weight matrix. -/
theorem transformed_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x6 : (⟨S128x64, .f32⟩ : BufTy).Contents (Elt Ideal)) (n : Fin 10000) (j : Fin 64) :
    val_main_v70 (F := Ideal) x0 x1 x2 x3 x6 (ix2 n j)
      = ∑ k : Fin 128, val_main_v48 (F := Ideal) x0 x1 x2 x3 (ix2 n k) * x6 (ix2 k j) := by
  rw [val_main_v70_apply]
  refine Finset.sum_congr rfl fun k _ => ?_
  have hl : lidx_main_v70 (ix2 n j) k = ix2 n k :=
    funext fun a => Fin.ext (by match a with | ⟨0, _⟩ => rfl | ⟨1, _⟩ => rfl)
  have hr : ridx_main_v70 (ix2 n j) k = ix2 k j :=
    funext fun a => Fin.ext (by match a with | ⟨0, _⟩ => rfl | ⟨1, _⟩ => rfl)
  rw [hl, hr]

/-- The gathered rows: row e is the transformed features' row at the source of e. -/
theorem gathered_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x6 : (⟨S128x64, .f32⟩ : BufTy).Contents (Elt Ideal)) (e : Fin 640000) (j : Fin 64)
    (h0 : 0 ≤ (x1 (ix2 (0 : Fin 2) e)).toInt) :
    val_main_v77 (F := Ideal) x0 x1 x2 x3 x6 (ix2 e j) = val_main_v70 (F := Ideal) x0 x1 x2 x3 x6 (ix2 (src x1 e) j) := by
  unfold val_main_v77
  refine (ScatterRead.gather_rows_apply (N := 10000) (M := 640000) (D := 64) (by decide)
    gather_S10000x64_S640000x1_S640000x64_1_0_n_n_0_1_164 rfl rfl rfl rfl rfl rfl rfl
    (val_main_v70 (F := Ideal) x0 x1 x2 x3 x6) (val_main_v76 (F := Ideal) x1) e j).trans ?_
  refine congrArg (fun n : Fin 10000 => val_main_v70 (F := Ideal) x0 x1 x2 x3 x6 (ix2 n j)) (Fin.ext ?_)
  show min (val_main_v76 (F := Ideal) x1 (ix2 e (0 : Fin 1))).toInt.toNat (10000 - 1)
    = min (x1 (ix2 (0 : Fin 2) e)).toInt.toNat 9999
  rw [gatherWord x1 e h0]

/-- The edge weight spread over the columns. -/
theorem edgeWeight_apply (x1 : (⟨S2x640000, .i32⟩ : BufTy).Contents (Elt Ideal)) (e : Fin 640000) (j : Fin 64) :
    val_main_v79 (F := Ideal) x1 (ix2 e j) = val_main_v25 (F := Ideal) x1 (ix1 e) := by
  rw [val_main_v79_apply, val_main_v78_apply]
  exact congrArg (val_main_v25 (F := Ideal) x1) (funext fun a => Fin.ext (by match a with | ⟨0, _⟩ => rfl))

/-- The self-loop weight spread over the columns. -/
theorem selfWeight_apply (x1 : (⟨S2x640000, .i32⟩ : BufTy).Contents (Elt Ideal)) (g : Fin 10000) (j : Fin 64) :
    val_main_v85 (F := Ideal) x1 (ix2 g j) = val_main_v26 (F := Ideal) x1 (ix1 g) := by
  rw [val_main_v85_apply, val_main_v84_apply]
  exact congrArg (val_main_v26 (F := Ideal) x1) (funext fun a => Fin.ext (by match a with | ⟨0, _⟩ => rfl))

/-- The bias spread over the rows. -/
theorem bias_apply (x7 : (⟨S64, .f32⟩ : BufTy).Contents (Elt Ideal)) (g : Fin 10000) (j : Fin 64) :
    val_main_v89 (F := Ideal) x7 (ix2 g j) = x7 (ix1 j) := by
  rw [val_main_v89_apply, val_main_v88_apply]
  exact congrArg x7 (funext fun a => Fin.ext (by match a with | ⟨0, _⟩ => rfl))

/-- The messages: the gathered row scaled by its edge's weight. -/
theorem messages_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x6 : (⟨S128x64, .f32⟩ : BufTy).Contents (Elt Ideal)) (e : Fin 640000) (j : Fin 64)
    (h0 : 0 ≤ (x1 (ix2 (0 : Fin 2) e)).toInt) :
    val_main_v80 (F := Ideal) x0 x1 x2 x3 x6 (ix2 e j)
      = val_main_v70 (F := Ideal) x0 x1 x2 x3 x6 (ix2 (src x1 e) j) * val_main_v25 (F := Ideal) x1 (ix1 e) := by
  rw [val_main_v80_apply, gathered_apply x0 x1 x2 x3 x6 e j h0, edgeWeight_apply]
  exact Ideal.mulf_def _ _

/-- An in-range destination word is g exactly when the edge's destination node is g. -/
theorem dst_iff (x1 : (⟨S2x640000, .i32⟩ : BufTy).Contents (Elt Ideal))
    (hin : ∀ i, 0 ≤ (x1 i).toInt ∧ (x1 i).toInt < 10000) (e : Fin 640000) (g : Fin 10000) :
    (x1 (ix2 (1 : Fin 2) e)).toInt = (g.val : ℤ) ↔ dst x1 e = g := by
  have hn : ((dst x1 e).val : ℤ) = (x1 (ix2 (1 : Fin 2) e)).toInt :=
    node_val_of_inRange (hin _).1 (hin _).2
  constructor
  · intro h
    apply Fin.ext
    have : ((dst x1 e).val : ℤ) = (g.val : ℤ) := hn.trans h
    exact_mod_cast this
  · intro h
    rw [← hn, h]

/-- The scatter starts from zero. -/
theorem zeros_apply (g : Fin 10000) (j : Fin 64) : val_main_v81 (F := Ideal) (ix2 g j) = 0 := by
  rw [val_main_v81_apply, val_main_cst_13_apply, Ideal.ofBits_def]
  exact Ideal.ofBits_zero_f32

/-- The update of edge e lands in row g exactly when the edge's destination node is g. -/
theorem lands_iff (x1 : (⟨S2x640000, .i32⟩ : BufTy).Contents (Elt Ideal))
    (hin : ∀ i, 0 ≤ (x1 i).toInt ∧ (x1 i).toInt < 10000) (e : Fin 640000) (g : Fin 10000) :
    (val_main_v82 (F := Ideal) x1 (ix2 e (0 : Fin 1))).toInt = (g.val : ℤ) ↔ dst x1 e = g := by
  rw [scatterWord]
  exact dst_iff x1 hin e g

/-- A row scatter-add at the block's dimension numbers, read at one element, over any operands: the operand's
    element plus the updates of the rows whose index word, read signed, is the row. -/
theorem scatter_read (x : FVec Ideal S10000x64 .f32) (idx : IVec S640000x1 32) (u : FVec Ideal S640000x64 .f32)
    (g : Fin 10000) (j : Fin 64) :
    Host.scatterAdd scatter_S10000x64_S640000x1_S640000x64_1_0_0_1 x idx u (ix2 g j)
      = x (ix2 g j) + ∑ v ∈ Finset.univ.filter (fun v : Fin 640000 => (idx (ix2 v (0 : Fin 1))).toInt = (g.val : ℤ)), u (ix2 v j) := by
  unfold Host.scatterAdd
  rw [Ideal.hostScatterAdd_def]
  exact ScatterRead.scatterAdd_rows_apply _ rfl rfl rfl rfl x idx u g j

/-- The aggregation: the messages added up at their edges' destinations, from zero. -/
theorem aggregated_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x6 : (⟨S128x64, .f32⟩ : BufTy).Contents (Elt Ideal))
    (hin : ∀ i, 0 ≤ (x1 i).toInt ∧ (x1 i).toInt < 10000) (g : Fin 10000) (j : Fin 64) :
    val_main_v83 (F := Ideal) x0 x1 x2 x3 x6 (ix2 g j)
      = ∑ e ∈ Finset.univ.filter (fun e : Fin 640000 => dst x1 e = g), val_main_v80 (F := Ideal) x0 x1 x2 x3 x6 (ix2 e j) := by
  unfold val_main_v83
  rw [scatter_read, zeros_apply, zero_add, Finset.sum_filter, Finset.sum_filter]
  refine Finset.sum_congr rfl fun e _ => ?_
  exact if_congr (lands_iff x1 hin e g) rfl rfl

/-! ### The block -/

theorem refConv3_apply (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x6 : (⟨S128x64, .f32⟩ : BufTy).Contents (Elt Ideal)) (x7 : (⟨S64, .f32⟩ : BufTy).Contents (Elt Ideal))
    (hin : ∀ i, 0 ≤ (x1 i).toInt ∧ (x1 i).toInt < 10000) (g : Fin 10000) (j : Fin 64) :
    val_main_v90 (F := Ideal) x0 x1 x2 x3 x6 x7 (ix2 g j)
      = ((∑ e ∈ Finset.univ.filter (fun e : Fin 640000 => dst x1 e = g),
            (∑ k : Fin 128, val_main_v48 (F := Ideal) x0 x1 x2 x3 (ix2 (src x1 e) k) * x6 (ix2 k j)) * val_main_v25 (F := Ideal) x1 (ix1 e))
          + (∑ k : Fin 128, val_main_v48 (F := Ideal) x0 x1 x2 x3 (ix2 g k) * x6 (ix2 k j)) * val_main_v26 (F := Ideal) x1 (ix1 g))
        + x7 (ix1 j) := by
  have hmsg : ∀ e : Fin 640000, val_main_v80 (F := Ideal) x0 x1 x2 x3 x6 (ix2 e j)
      = (∑ k : Fin 128, val_main_v48 (F := Ideal) x0 x1 x2 x3 (ix2 (src x1 e) k) * x6 (ix2 k j)) * val_main_v25 (F := Ideal) x1 (ix1 e) :=
    fun e => by rw [messages_apply x0 x1 x2 x3 x6 e j (hin _).1, transformed_apply]
  rw [val_main_v90_apply, val_main_v87_apply, val_main_v86_apply, aggregated_apply x0 x1 x2 x3 x6 hin g j,
    selfWeight_apply, bias_apply, transformed_apply x0 x1 x2 x3 x6 g j]
  simp only [hmsg, Ideal.addf_def, Ideal.mulf_def]

end Cert.Gcn.RefConv3

end
-- ==== Proof.RefRead.lean ====
/-
  The reference program read at an index: its two results, element by element, are the graph-convolution encoder's
  mean and log-deviation heads as the specification writes them, provided every edge word names a node.

  The road. The degree count is a flat scatter-add of one words at the destination words; an edge weight is the
  product of the normaliser gathered at the edge's two words; a layer is the row scatter-add, at the destination
  words, of the transformed features gathered at the source words and scaled by the edge weight, plus the self
  loop's term and the bias. With every word in range the negative-index wrap is the identity, the gather's clamp
  is the node the word names, and an update lands at a node exactly when the edge's destination is that node.
-/
import proofs.«419644_j5583457485490_3_alg».proof.Proof.Gen.ReferenceIdeal.Run
import proofs.«419644_j5583457485490_3_alg».proof.Proof.Gen.ReferenceIdeal.Read
import proofs.«419644_j5583457485490_3_alg».proof.Proof.Spec
import proofs.«419644_j5583457485490_3_alg».proof.Proof.LibScatterRead
import proofs.«419644_j5583457485490_3_alg».proof.Proof.RefConv1
import proofs.«419644_j5583457485490_3_alg».proof.Proof.RefConv2
import proofs.«419644_j5583457485490_3_alg».proof.Proof.RefConv3
import Idealize.ShloMosaic.Lib.StableHlo.Predicate

noncomputable section

open scoped BigOperators

namespace Cert.Gcn.Ref

open Cert.ReferenceIdeal Cert.ReferenceIdeal.Gen Cert.ReferenceIdeal.Read Idealize.ShloMosaic Idealize.ShloMosaic.ValueIdx
  Idealize.ShloMosaic.ScatterRead Idealize.ShloMosaic.TcCoe Idealize.SL.Sem Idealize.ShloMosaic.StableHlo

/-- The edge table's contents. -/
abbrev EI : Type := (⟨S2x640000, .i32⟩ : BufTy).Contents (Elt Ideal)

/-- The other arguments' contents. -/
abbrev X0 : Type := (⟨S10000x128, .f32⟩ : BufTy).Contents (Elt Ideal)
abbrev W128 : Type := (⟨S128x128, .f32⟩ : BufTy).Contents (Elt Ideal)
abbrev B128 : Type := (⟨S128, .f32⟩ : BufTy).Contents (Elt Ideal)
abbrev W64 : Type := (⟨S128x64, .f32⟩ : BufTy).Contents (Elt Ideal)
abbrev B64 : Type := (⟨S64, .f32⟩ : BufTy).Contents (Elt Ideal)

/-! ## The edge words -/

/-- The source word of edge `e` is row 0 of the table. -/
theorem srcWord (x1 : EI) (e : Fin 640000) : val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- The destination word of edge `e` is row 1 of the table. -/
theorem dstWord (x1 : EI) (e : Fin 640000) : val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- A column index `(v, 0)` of an [n × 1] array reads the vector at `v`. -/
theorem col_idx (v : Fin 640000) : idx_main_v6 (ix2 v (0 : Fin 1)) = ix1 v := by
  funext a
  match a with
  | ⟨0, _⟩ => rfl

/-- The degree count's scatter indices are the destination words. -/
theorem v6_word (x1 : EI) (v : Fin 640000) : val_main_v6 (F := Ideal) x1 (ix2 v (0 : Fin 1)) = x1 (ix2 (1 : Fin 2) v) := by
  rw [val_main_v6_apply, col_idx, dstWord]

/-! ## The degree and its normaliser -/

/-- The degree count is the flat scatter-add of the one words at the destination words into the zero words. -/
theorem v7_eq (x1 : EI) : val_main_v7 (F := Ideal) x1
    = Ideal.hostScatterAdd scatter_S10000_S640000x1_S640000_n_0_0_1 (val_main_v5 (F := Ideal)) (val_main_v6 (F := Ideal) x1)
        (val_main_v4 (F := Ideal)) := rfl

/-- The degree at node `g`: the zero word, a one word per edge whose destination word is `g`, and the self loop's one. -/
theorem deg_read (x1 : EI) (g : Fin 10000) : val_main_v9 (F := Ideal) x1 (ix1 g) = deg x1 g := by
  have hsum : ∑ v ∈ Finset.univ.filter (fun v : Fin 640000 => (val_main_v6 (F := Ideal) x1 (ix2 v (0 : Fin 1))).toInt = (g.val : ℤ)),
        val_main_v4 (F := Ideal) (ix1 v)
      = ∑ e ∈ Finset.univ.filter (fun e : Fin 640000 => (x1 (ix2 (1 : Fin 2) e)).toInt = (g.val : ℤ)), Ideal.ofBits .f32 0x3F800000#32 :=
    Finset.sum_congr (Finset.filter_congr fun v _ => by rw [v6_word]) fun v _ => by
      rw [val_main_v4_apply, val_main_cst_apply, Ideal.ofBits_def]
  rw [deg, val_main_v9_apply, Ideal.addf_def, v7_eq, scatterAdd_flat_apply _ rfl rfl rfl rfl, hsum, val_main_v5_apply,
    val_main_cst_0_apply, val_main_v8_apply, val_main_cst_1_apply, Ideal.ofBits_def, Ideal.ofBits_def]

/-- The normaliser at node `g`. -/
theorem dis_read (x1 : EI) (g : Fin 10000) : val_main_v10 (F := Ideal) x1 (ix1 g) = dis x1 g := by
  rw [dis, val_main_v10_apply, deg_read, Ideal.hostUnary_rsqrt_def]

/-! ## The index wrap and the clamp, at a word in range -/

/-- A word that is not negative is not below zero: the wrap `select (w <s 0) (w + 10000) w` keeps it. -/
theorem wrap_of_nonneg (w a : BitVec 32) (h : 0 ≤ w.toInt) : Scalar.select (IntOp.cmpi .slt w 0#32) a w = w := by
  have hs : w.slt 0#32 = false := by
    have h' : ¬ w.toInt < 0 := by omega
    simp [BitVec.slt, h']
  have hc : IntOp.cmpi .slt w 0#32 = 0#1 := by
    show BitVec.ofBool (w.slt 0#32) = 0#1
    rw [hs]
    rfl
  rw [hc]
  exact select_zero _ _

/-- A flat table gathered at an [n × 1] column of words reads the table at the node each word names. -/
theorem take_read {n : Nat} (d : GatherDims ⟨1, ![10000]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![10000]⟩ : Shape).Idx → EReal) (idx : IVec ⟨2, ![n, 1]⟩ 32) (e : Fin n) :
    Host.gather d x idx (ix1 e) = x (ix1 (node (idx (ix2 e (0 : Fin 1))))) := by
  have e1 : (ix1 e : (⟨1, ![n]⟩ : Shape).Idx) = Shape.Idx.ofFin e := funext fun a => match a with | ⟨0, _⟩ => rfl
  have e2 : Predicate.ixP e = ix2 e (0 : Fin 1) := funext fun a => match a with | ⟨0, _⟩ => rfl | ⟨1, _⟩ => rfl
  rw [e1, Predicate.gather_take d hcoll hob hsim hivd x idx e (by decide)]
  congr 1
  funext a
  match a with
  | ⟨0, _⟩ =>
    apply Fin.ext
    show min (idx (Predicate.ixP e)).toInt.toNat (10000 - 1) = min (idx (ix2 e (0 : Fin 1))).toInt.toNat (10000 - 1)
    rw [e2]

/-- The wrapped source words, as the normaliser's gather reads them. -/
theorem v16_word (x1 : EI) (e : Fin 640000) (h : 0 ≤ (x1 (ix2 (0 : Fin 2) e)).toInt) :
    val_main_v16 (F := Ideal) x1 (ix2 e (0 : Fin 1)) = x1 (ix2 (0 : Fin 2) e) := by
  have ei : idx_main_v16 (ix2 e (0 : Fin 1)) = ix1 e := funext fun a => match a with | ⟨0, _⟩ => rfl
  rw [val_main_v16_apply, ei, val_main_v15_apply, val_main_v12_apply, srcWord, val_main_v11_apply, val_main_c_apply]
  exact wrap_of_nonneg _ _ h

/-- The wrapped destination words, as the normaliser's gather reads them. -/
theorem v23_word (x1 : EI) (e : Fin 640000) (h : 0 ≤ (x1 (ix2 (1 : Fin 2) e)).toInt) :
    val_main_v23 (F := Ideal) x1 (ix2 e (0 : Fin 1)) = x1 (ix2 (1 : Fin 2) e) := by
  have ei : idx_main_v23 (ix2 e (0 : Fin 1)) = ix1 e := funext fun a => match a with | ⟨0, _⟩ => rfl
  rw [val_main_v23_apply, ei, val_main_v22_apply, val_main_v19_apply, dstWord, val_main_v18_apply, val_main_c_3_apply]
  exact wrap_of_nonneg _ _ h

/-! ## The edge and self-loop weights -/

/-- The normaliser gathered at the source words. -/
theorem v17_read (x1 : EI) (e : Fin 640000) (h : 0 ≤ (x1 (ix2 (0 : Fin 2) e)).toInt) :
    val_main_v17 (F := Ideal) x1 (ix1 e) = dis x1 (src x1 e) := by
  have hf : val_main_v17 (F := Ideal) x1
      = Host.gather gather_S10000_S640000x1_S640000_n_0_n_n_0_1_1 (val_main_v10 (F := Ideal) x1) (val_main_v16 (F := Ideal) x1) := rfl
  rw [src, hf, take_read _ rfl rfl rfl rfl, v16_word x1 e h, dis_read]

/-- The normaliser gathered at the destination words. -/
theorem v24_read (x1 : EI) (e : Fin 640000) (h : 0 ≤ (x1 (ix2 (1 : Fin 2) e)).toInt) :
    val_main_v24 (F := Ideal) x1 (ix1 e) = dis x1 (dst x1 e) := by
  have hf : val_main_v24 (F := Ideal) x1
      = Host.gather gather_S10000_S640000x1_S640000_n_0_n_n_0_1_1 (val_main_v10 (F := Ideal) x1) (val_main_v23 (F := Ideal) x1) := rfl
  rw [dst, hf, take_read _ rfl rfl rfl rfl, v23_word x1 e h, dis_read]

/-- The weight of edge `e`. -/
theorem edgeW_read (x1 : EI) (hin : ∀ i, 0 ≤ (x1 i).toInt ∧ (x1 i).toInt < 10000) (e : Fin 640000) :
    val_main_v25 (F := Ideal) x1 (ix1 e) = edgeW x1 e := by
  rw [edgeW, val_main_v25_apply, Ideal.mulf_def, v17_read x1 e (hin _).1, v24_read x1 e (hin _).1]

/-- The weight of the self loop at `g`. -/
theorem selfW_read (x1 : EI) (g : Fin 10000) : val_main_v26 (F := Ideal) x1 (ix1 g) = selfW x1 g := by
  rw [selfW, val_main_v26_apply, Ideal.mulf_def, dis_read]

/-! ## The network over the layers -/

/-- A layer, written out. -/
theorem aggLayer_eq (x1 : EI) (X : Fin 10000 → Fin 128 → EReal) (w : Fin 128 → EReal) (b : EReal) (n : Fin 10000) :
    aggLayer x1 X w b n
      = ((∑ e ∈ Finset.univ.filter (fun e : Fin 640000 => dst x1 e = n), (∑ k : Fin 128, X (src x1 e) k * w k) * edgeW x1 e)
          + (∑ k : Fin 128, X n k * w k) * selfW x1 n) + b := rfl

/-- The hidden features: the first layer, rectified. -/
theorem hid_read (x0 : X0) (x1 : EI) (x2 : W128) (x3 : B128) (hin : ∀ i, 0 ≤ (x1 i).toInt ∧ (x1 i).toInt < 10000)
    (g : Fin 10000) (k : Fin 128) :
    val_main_v48 (F := Ideal) x0 x1 x2 x3 (ix2 g k)
      = hid (aggLayer x1) (fun s k' => x0 (ix2 s k')) (fun k' j' => x2 (ix2 k' j')) (fun j' => x3 (ix1 j')) g k := by
  rw [hid, aggLayer_eq, val_main_v48_apply, Ideal.maximumf_def, RefConv1.refConv1_apply x0 x1 x2 x3 hin, val_main_call0_v0_apply,
    val_main_call0_cst_apply, Ideal.ofBits_def, Ideal.ofBits_zero_f32, selfW_read]
  simp only [edgeW_read x1 hin]

/-- A value is never unequal to itself: the guard of the log-deviation's `select` is off. -/
theorem une_self {φ : FTy} (a : Ideal φ) : FloatOps.cmpf .une a a = 0#1 := by
  rw [Ideal.cmpf_def]
  unfold Ideal.cmp
  simp

/-- The second result is `log (1 + e^a)` of the log-deviation head's pre-activation `a`. -/
theorem softplus_read (x0 : X0) (x1 : EI) (x2 : W128) (x3 : B128) (x6 : W64) (x7 : B64) (g : Fin 10000) (j : Fin 64) :
    val_main_v91 (F := Ideal) x0 x1 x2 x3 x6 x7 (ix2 g j) = softplus (val_main_v90 (F := Ideal) x0 x1 x2 x3 x6 x7 (ix2 g j)) := by
  rw [softplus, val_main_v91_apply, val_main_call1_v4_apply, une_self, select_zero, val_main_call1_v11_apply, Ideal.addf_def,
    val_main_call1_v1_apply, Ideal.maximumf_def, val_main_call1_v10_apply, Ideal.hostUnary_log1p_def, val_main_call1_v9_apply,
    Ideal.hostUnary_exp_def, val_main_call1_v8_apply, Ideal.hostNegf_def, Ideal.negf_def, val_main_call1_v7_apply,
    Ideal.hostAbsf_def, Ideal.absf_def, val_main_call1_v3_apply, Ideal.subf_def, val_main_call1_v0_apply, val_main_call1_v2_apply,
    val_main_call1_cst_apply, Ideal.ofBits_def, Ideal.ofBits_zero_f32, sub_zero]

/-- The mean head. -/
theorem mu_read (x0 : X0) (x1 : EI) (x2 : W128) (x3 : B128) (x4 : W64) (x5 : B64)
    (hin : ∀ i, 0 ≤ (x1 i).toInt ∧ (x1 i).toInt < 10000) (n : Fin 10000) (j : Fin 64) :
    val_main_v69 (F := Ideal) x0 x1 x2 x3 x4 x5 (ix2 n j)
      = muOf (aggLayer x1) (fun s k => x0 (ix2 s k)) (fun k j' => x2 (ix2 k j')) (fun j' => x3 (ix1 j'))
          (fun k j' => x4 (ix2 k j')) (fun j' => x5 (ix1 j')) n j := by
  rw [muOf, aggLayer_eq, RefConv2.refConv2_apply x0 x1 x2 x3 x4 x5 hin, selfW_read]
  simp only [edgeW_read x1 hin, hid_read x0 x1 x2 x3 hin]

/-- The log-deviation head. -/
theorem ls_read (x0 : X0) (x1 : EI) (x2 : W128) (x3 : B128) (x6 : W64) (x7 : B64)
    (hin : ∀ i, 0 ≤ (x1 i).toInt ∧ (x1 i).toInt < 10000) (n : Fin 10000) (j : Fin 64) :
    val_main_v91 (F := Ideal) x0 x1 x2 x3 x6 x7 (ix2 n j)
      = lsOf (aggLayer x1) (fun s k => x0 (ix2 s k)) (fun k j' => x2 (ix2 k j')) (fun j' => x3 (ix1 j'))
          (fun k j' => x6 (ix2 k j')) (fun j' => x7 (ix1 j')) n j := by
  rw [lsOf, aggLayer_eq, softplus_read, RefConv3.refConv3_apply x0 x1 x2 x3 x6 x7 hin, selfW_read]
  simp only [edgeW_read x1 hin, hid_read x0 x1 x2 x3 hin]

/-! ## The two results -/

/-- The first result, element by element, is the mean head. -/
theorem res_out0_apply (m : (ℓ : Loc nD τ sig) → Buf (Elt Ideal) ℓ) (c : Dev nD)
    (hin : ∀ i, 0 ≤ (m ((c.tc : Thread nD τ).loc main_arg1) i).toInt ∧ (m ((c.tc : Thread nD τ).loc main_arg1) i).toInt < 10000)
    (n : Fin 10000) (j : Fin 64) :
    Cert.ReferenceIdeal.Value.res_out0 (F := Ideal) m c (ix2 n j)
      = muOf (aggLayer (m ((c.tc : Thread nD τ).loc main_arg1)))
          (fun s k => m ((c.tc : Thread nD τ).loc main_arg0) (ix2 s k)) (fun k j' => m ((c.tc : Thread nD τ).loc main_arg2) (ix2 k j'))
          (fun j' => m ((c.tc : Thread nD τ).loc main_arg3) (ix1 j')) (fun k j' => m ((c.tc : Thread nD τ).loc main_arg4) (ix2 k j'))
          (fun j' => m ((c.tc : Thread nD τ).loc main_arg5) (ix1 j')) n j := by
  show Cert.ReferenceIdeal.Value.res_main_v69 m c (ix2 n j) = _
  rw [val_main_v69_eq]
  exact mu_read _ _ _ _ _ _ hin n j

/-- The second result, element by element, is the log-deviation head. -/
theorem res_out1_apply (m : (ℓ : Loc nD τ sig) → Buf (Elt Ideal) ℓ) (c : Dev nD)
    (hin : ∀ i, 0 ≤ (m ((c.tc : Thread nD τ).loc main_arg1) i).toInt ∧ (m ((c.tc : Thread nD τ).loc main_arg1) i).toInt < 10000)
    (n : Fin 10000) (j : Fin 64) :
    Cert.ReferenceIdeal.Value.res_out1 (F := Ideal) m c (ix2 n j)
      = lsOf (aggLayer (m ((c.tc : Thread nD τ).loc main_arg1)))
          (fun s k => m ((c.tc : Thread nD τ).loc main_arg0) (ix2 s k)) (fun k j' => m ((c.tc : Thread nD τ).loc main_arg2) (ix2 k j'))
          (fun j' => m ((c.tc : Thread nD τ).loc main_arg3) (ix1 j')) (fun k j' => m ((c.tc : Thread nD τ).loc main_arg6) (ix2 k j'))
          (fun j' => m ((c.tc : Thread nD τ).loc main_arg7) (ix1 j')) n j := by
  show Cert.ReferenceIdeal.Value.res_main_v91 m c (ix2 n j) = _
  rw [val_main_v91_eq]
  exact ls_read _ _ _ _ _ _ hin n j

end Cert.Gcn.Ref

end
-- ==== Proof.RegionValue0.lean ====
/-
  The first fused region's result array, index by index.

  The region runs over 25 grid points. At point `t` its body reads rows `400 t … 400 t + 399` of the adjacency, the whole
  feature matrix, the whole weight matrix and the bias row, forms `((A_blk · X) · W) + b`, takes the maximum with zero and
  writes the [400,128] tile back as row block `t` of the result. So the result array after the region is, at `(n, j)`,
  `max (cell A X W b n j) 0` with `cell A X W b n j = (Σ_k (Σ_s A (n,s) · X (s,k)) · W (k,j)) + b (0,j)`.

  In order: the two contractions read at an index (their operand indices, axis by axis, then the sums re-indexed by the
  contracted coordinate); the body's tile at `(p, q)`; each staged block as a part of its array; what point `t` writes
  back as block `t` of ONE function of the four arrays; the 25 blocks cover the array; the array.
-/
import proofs.«419644_j5583457485490_3_alg».proof.Proof.Gen.KernelIdeal.Frame
import proofs.«419644_j5583457485490_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue0

open Cert.KernelIdeal Cert.KernelIdeal.Gen Idealize.ShloMosaic Idealize.ShloMosaic.ValueIdx Idealize.ShloMosaic.TcCoe Idealize.SL.Sem Cert.Gcn
open Idealize.ShloMosaic.Pipeline (Dat)

variable (V : (c : Dev nD) → (b : Ref sig .tc) → Buf (Elt Ideal) ((c : Thread nD τ).loc b))

/-! ## The two contractions read at an index -/

/-! The first contraction takes rows of the [400,10000] block against columns of the [10000,128] features; the second, rows of
    the [400,128] product against columns of the [128,128] weights. Each operand index is read axis by axis. -/

/-- Left operand of the first contraction, row axis: the output's row. -/
theorem lhsAX_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Left operand of the first contraction, column axis: the contracted coordinate. -/
theorem lhsAX_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- Right operand of the first contraction, row axis: the contracted coordinate. -/
theorem rhsAX_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- Right operand of the first contraction, column axis: the output's column. -/
theorem rhsAX_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Left operand of the second contraction, row axis: the output's row. -/
theorem lhsHW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- Left operand of the second contraction, column axis: the contracted coordinate. -/
theorem lhsHW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- Right operand of the second contraction, row axis: the contracted coordinate. -/
theorem rhsHW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- Right operand of the second contraction, column axis: the output's column. -/
theorem rhsHW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The first product into a zero accumulator, at `(p, k)`: row `p` of the block against column `k` of the features. -/
theorem mulAX_apply (x : FVec Ideal S400x10000 .bf16) (y : FVec Ideal S10000x128 .bf16) (p : Fin 400) (k : Fin 128) :
    matmul dot_S400x10000_S10000x128_S400x128_1_0_0_1_n_n none x y (constant (F := Ideal) S400x128 .f32 0x00000000#32) (ix2 p k)
      = ∑ s : Fin 10000, x (ix2 p s) * y (ix2 s k) := by
  refine (Ideal.matmul_constant_zero_apply dot_S400x10000_S10000x128_S400x128_1_0_0_1_n_n none x y (ix2 p k)).trans ?_
  rw [← Equiv.sum_comp (ValueIdx.contrEquiv1 dot_S400x10000_S10000x128_S400x128_1_0_0_1_n_n 10000 rfl rfl).symm]
  refine Finset.sum_congr rfl fun s _ => ?_
  have hs := ValueIdx.contrEquiv1_symm_val dot_S400x10000_S10000x128_S400x128_1_0_0_1_n_n 10000 rfl rfl s
  have el : dot_S400x10000_S10000x128_S400x128_1_0_0_1_n_n.lhsIdx (ix2 p k) ((ValueIdx.contrEquiv1 dot_S400x10000_S10000x128_S400x128_1_0_0_1_n_n 10000 rfl rfl).symm s) = ix2 p s := funext fun a => Fin.ext (by
    match a with
    | ⟨0, _⟩ => exact lhsAX_0 _ _
    | ⟨1, _⟩ => exact (lhsAX_1 _ _).trans hs)
  have er : dot_S400x10000_S10000x128_S400x128_1_0_0_1_n_n.rhsIdx (ix2 p k) ((ValueIdx.contrEquiv1 dot_S400x10000_S10000x128_S400x128_1_0_0_1_n_n 10000 rfl rfl).symm s) = ix2 s k := funext fun a => Fin.ext (by
    match a with
    | ⟨0, _⟩ => exact (rhsAX_0 _ _).trans hs
    | ⟨1, _⟩ => exact rhsAX_1 _ _)
  rw [el, er]

/-- The second product into a zero accumulator, at `(p, q)`: row `p` of the hidden tile against column `q` of the weights. -/
theorem mulHW_apply (h : FVec Ideal S400x128 .bf16) (w : FVec Ideal S128x128 .bf16) (p : Fin 400) (q : Fin 128) :
    matmul dot_S400x128_S128x128_S400x128_1_0_0_1_n_n none h w (constant (F := Ideal) S400x128 .f32 0x00000000#32) (ix2 p q)
      = ∑ k : Fin 128, h (ix2 p k) * w (ix2 k q) := by
  refine (Ideal.matmul_constant_zero_apply dot_S400x128_S128x128_S400x128_1_0_0_1_n_n none h w (ix2 p q)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhsHW_0 _ _
    | ⟨1, _⟩ => exact (lhsHW_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhsHW_0 _ _).trans hk
    | ⟨1, _⟩ => exact rhsHW_1 _ _)
  rw [el, er]

/-! ## The body's tile at an index -/

/-- The tile the body stores, at `(p, q)`: the two products chained, the bias row added, the maximum with zero; the
    narrowing to the stored format is the identity on the extended reals. -/
theorem tile_apply (x0 : Vec Ideal S400x10000 .bf16) (x1 : Vec Ideal S10000x128 .bf16) (x2 : Vec Ideal S128x128 .bf16) (x3 : Vec Ideal S1x128 .f32)
    (p : Fin 400) (q : Fin 128) :
    k0_pay1 (F := Ideal) x0 x1 x2 x3 (ix2 p q)
      = max ((∑ k : Fin 128, (∑ s : Fin 10000, x0 (ix2 p s) * x1 (ix2 s k)) * x2 (ix2 k q)) + x3 (ix2 (0 : Fin 1) q)) 0 := by
  unfold k0_pay1
  simp only [shapeCast_self]
  refine (truncf_apply (φ := .f32) (ψ := .bf16) _ bitsLt_bf16_f32 (ix2 p q)).trans ?_
  refine (maximumf_apply (φ := .f32) _ _ (ix2 p q)).trans ?_
  refine congrArg₂ max ?_ ?_
  · refine (addf_apply (φ := .f32) _ _ (ix2 p q)).trans ?_
    refine congrArg₂ (· + ·) ?_ ?_
    · refine (mulHW_apply _ _ p q).trans ?_
      refine Finset.sum_congr rfl fun k _ => ?_
      refine congrArg (· * x2 (ix2 k q)) ?_
      refine (truncf_apply (φ := .f32) (ψ := .bf16) _ bitsLt_bf16_f32 (ix2 p k)).trans ?_
      exact mulAX_apply x0 x1 p k
    · exact broadcastTo_1b_ab_apply x3 broadcasts_S1x128_S400x128 p q
  · show Ideal.ofBits .f32 0x00000000#32 = 0
    exact Ideal.ofBits_zero_f32

/-! ## The four arrays, and the result as one function of them -/

/-- The adjacency as the region finds it. -/
abbrev adjArr (c : Dev nD) : S10000x10000.Idx → EReal := V c main_call0_v46
/-- The features as the region finds them. -/
abbrev featArr (c : Dev nD) : S10000x128.Idx → EReal := V c main_call0_v47
/-- The weights as the region finds them. -/
abbrev wgtArr (c : Dev nD) : S128x128.Idx → EReal := V c main_call0_v48
/-- The bias row as the region finds it. -/
abbrev biasArr (c : Dev nD) : S1x128.Idx → EReal := V c main_call0_v49

/-- The result array: at `(n, j)` the layer's cell, cut below at zero. -/
abbrev reluCell (c : Dev nD) : S10000x128.Idx → EReal := fun i =>
  max (cell (adjArr V c) (featArr V c) (wgtArr V c) (biasArr V c) ⟨(i 0).val, idx2_lt0 i⟩ ⟨(i 1).val, idx2_lt1 i⟩) 0

/-! ## The staged blocks as parts of their arrays -/

theorem zero_offsets : (![0, 0] : Fin 2 → Nat) = fun _ => 0 := funext fun a => by fin_cases a <;> rfl

/-- The printed index maps over the grid: the adjacency's and the result's row-block index is the point, every other
    block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four staged blocks at point `t`, each at its literal shape. -/
abbrev adjBlk (c : Dev nD) (t : Fin cfg0.N) : Vec Ideal S400x10000 .bf16 := iblk0 V c 0 t
abbrev featBlk (c : Dev nD) (t : Fin cfg0.N) : Vec Ideal S10000x128 .bf16 := iblk0 V c 1 t
abbrev wgtBlk (c : Dev nD) (t : Fin cfg0.N) : Vec Ideal S128x128 .bf16 := iblk0 V c 2 t
abbrev biasBlk (c : Dev nD) (t : Fin cfg0.N) : Vec Ideal S1x128 .f32 := iblk0 V c 3 t

/-- The adjacency's block at point `t` is its rows `400 t … 400 t + 399`. -/
theorem adjBlk_apply (c : Dev nD) (t : Fin cfg0.N) (p : Fin 400) (s : Fin 10000) (n : Fin 10000) (hn : n.val = 400 * t.val + p.val) :
    adjBlk V c t (ix2 p s) = adjArr V c (ix2 n s) := by
  obtain ⟨e0, e1, -⟩ := index_facts t
  unfold adjBlk iblk0
  rw [View.read_apply]
  show V c main_call0_v46 _ = V c main_call0_v46 _
  congr 1
  funext a
  apply Fin.ext
  match a with
  | ⟨0, _⟩ => show win0_0.index t (0 : Fin 2) * 400 + 1 * p.val = n.val; omega
  | ⟨1, _⟩ => show win0_0.index t (1 : Fin 2) * 10000 + 1 * s.val = s.val; omega

/-- The features' block at every point is the whole array. -/
theorem featBlk_eq (c : Dev nD) (t : Fin cfg0.N) : featBlk V c t = featArr V c := by
  obtain ⟨-, -, e0, e1, -⟩ := index_facts t
  funext j
  unfold featBlk iblk0
  rw [View.read_apply]
  show V c main_call0_v47 _ = V c main_call0_v47 _
  congr 1
  funext a
  apply Fin.ext
  match a with
  | ⟨0, _⟩ => show win0_1.index t (0 : Fin 2) * 10000 + 1 * (j 0).val = (j 0).val; omega
  | ⟨1, _⟩ => show win0_1.index t (1 : Fin 2) * 128 + 1 * (j 1).val = (j 1).val; omega

/-- The weights' block at every point is the whole array. -/
theorem wgtBlk_eq (c : Dev nD) (t : Fin cfg0.N) : wgtBlk V c t = wgtArr V c := by
  obtain ⟨-, -, -, -, e0, e1, -⟩ := index_facts t
  funext j
  unfold wgtBlk iblk0
  rw [View.read_apply]
  show V c main_call0_v48 _ = V c main_call0_v48 _
  congr 1
  funext a
  apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The bias row's block at every point is the whole array. -/
theorem biasBlk_eq (c : Dev nD) (t : Fin cfg0.N) : biasBlk V c t = biasArr V c := by
  obtain ⟨-, -, -, -, -, -, e0, e1, -⟩ := index_facts t
  funext j
  unfold biasBlk iblk0
  rw [View.read_apply]
  show V c main_call0_v49 _ = V c main_call0_v49 _
  congr 1
  funext a
  apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-! ## What a point writes back, the cover, the array -/

/-- The body's tile over the staged blocks at point `t`, at `(p, q)`, is the layer's cell at row `400 t + p`, cut at zero. -/
theorem tile_eq_cell (c : Dev nD) (t : Fin cfg0.N) (p : Fin 400) (q : Fin 128) (n : Fin 10000) (j : Fin 128)
    (hn : n.val = 400 * t.val + p.val) (hj : j.val = q.val) :
    max ((∑ k : Fin 128, (∑ s : Fin 10000, adjBlk V c t (ix2 p s) * featBlk V c t (ix2 s k)) * wgtBlk V c t (ix2 k q))
        + biasBlk V c t (ix2 (0 : Fin 1) q)) 0
      = max (cell (adjArr V c) (featArr V c) (wgtArr V c) (biasArr V c) n j) 0 := by
  obtain rfl : j = q := Fin.ext hj
  unfold cell
  refine congrArg (max · 0) ?_
  exact congrArg₂ (· + ·)
    (Finset.sum_congr rfl fun k _ => congrArg₂ (· * ·)
      (Finset.sum_congr rfl fun s _ => congrArg₂ (· * ·) (adjBlk_apply V c t p s n hn) (congrFun (featBlk_eq V c t) (ix2 s k)))
      (congrFun (wgtBlk_eq V c t) (ix2 k j)))
    (congrFun (biasBlk_eq V c t) (ix2 (0 : Fin 1) j))

/-- What point `t` writes back is block `t` of `reluCell`. -/
theorem flushed_eq (c : Dev nD) (t : Fin cfg0.N) :
    (dat0 (F := Ideal) V c).flushed 4 t = ((cfg0.win 4).blk t).view.read (Elt Ideal) (reluCell V c) := by
  show (cfg0.win 4).cut (grid0.coords t) ((dat0 (F := Ideal) V c).after 4 t) = _
  rw [after0_4]
  unfold out0_4
  rw [View.canon_unit_zero zero_offsets]
  simp only [View.ld_unit_zero (S := S400x10000) zero_offsets, View.ld_unit_zero (S := S10000x128) zero_offsets,
    View.ld_unit_zero (S := S128x128) zero_offsets, View.ld_unit_zero (S := S1x128) zero_offsets]
  obtain ⟨-, -, -, -, -, -, -, -, e0, e1⟩ := index_facts t
  funext j
  obtain ⟨p, q, rfl⟩ : ∃ (p : Fin 400) (q : Fin 128), j = ix2 p q := ⟨j 0, j 1, eq_ix2 j⟩
  show k0_pay1 (F := Ideal) (adjBlk V c t) (featBlk V c t) (wgtBlk V c t) (biasBlk V c t) (ix2 p q)
    = reluCell V c (((cfg0.win 4).blk t).view.emb (ix2 p q))
  refine (tile_apply (adjBlk V c t) (featBlk V c t) (wgtBlk V c t) (biasBlk V c t) p q).trans ?_
  exact tile_eq_cell V c t p q _ _
    (by show win0_4.index t (0 : Fin 2) * 400 + 1 * p.val = 400 * t.val + p.val; omega)
    (by show win0_4.index t (1 : Fin 2) * 128 + 1 * q.val = q.val; omega)

/-- An index of the result array is in point `t`'s block iff each coordinate is in the block's range on its axis. -/
theorem mem_resBlk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_call0_v50).slice (win0_4.rect t)).set ↔ _
  rw [View.set_slice_whole, Rect.mem_set_unit]
  exact Iff.rfl

/-- Row `r` of the result is in the block of point `r / 400`, which is written back. -/
theorem covered (i : S10000x128.Idx) : ∃ t : Fin cfg0.N, (cfg0.win 4).flush t = true ∧ i ∈ ((cfg0.win 4).blk t).view.set := by
  have hi0 : (i 0).val < 10000 := idx2_lt0 i
  have hi1 : (i 1).val < 128 := idx2_lt1 i
  obtain ⟨t, ht⟩ : ∃ t : Fin cfg0.N, t.val = (i 0).val / 400 :=
    ⟨⟨(i 0).val / 400, by have hN := N_0; show (i 0).val / 400 < grid0.N; omega⟩, rfl⟩
  obtain ⟨-, -, -, -, -, -, -, -, e0, e1⟩ := index_facts t
  refine ⟨t, flush0_4 t, ?_⟩
  rw [mem_resBlk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the region is `reluCell` of the four arrays. -/
theorem final_arr (c : Dev nD) : (dat0 (F := Ideal) V c).arrAt 4 cfg0.N = reluCell V c :=
  (dat0 (F := Ideal) V c).arrAt_eq_of_cover 4 (reluCell V c) (fun t _ => flushed_eq V c t) covered

/-- The result array after the region, at `(n, j)`: the layer's cell there, cut below at zero. -/
theorem final0 (c : Dev nD) (n : Fin 10000) (j : Fin 128) :
    (dat0 (F := Ideal) V c).arrAt 4 cfg0.N (ix2 n j)
      = max (cell (V c main_call0_v46) (V c main_call0_v47) (V c main_call0_v48) (V c main_call0_v49) n j) 0 :=
  congrFun (final_arr V c) (ix2 n j)

end Cert.KernelIdeal.RegionValue0

end
-- ==== Proof.RegionValue1.lean ====
/-
  Region 1 of the kernel program, read as a value at the extended reals.

  The region runs over 25 grid points. At point `t` it stages rows `[400 t, 400 t + 400)` of the [10000, 10000]
  adjacency `A`, and the whole feature matrix `X` [10000, 128], weights `W` [128, 128] and bias row `b` [1, 128];
  it computes `acc = ((A_blk · X) · W) + b` (two contractions into zero accumulators; narrowing a float is the
  identity here), then stores `softplus acc` in the columns from 64 on and `acc` before, as block `t` of the
  [10000, 128] output. With `softplus a = max a 0 + log1p (exp (-|a|))`: the guard the body puts before it compares
  `a - 0` with itself for inequality, which no extended real satisfies, so the guarded branch is never taken.

  Hence the output array after the region is, at `(n, j)`:
  `if 64 ≤ j then softplus (cell A X W b n j) else cell A X W b n j`,
  with `cell A X W b n j = (Σ_k (Σ_s A (n, s) · X (s, k)) · W (k, j)) + b (0, j)` (`final1`).

  The steps: each contraction at an index as a sum over its one contracted axis (`agg_apply`, `lin_apply`); the
  body's stored value as `act (pre …)` (`pay_eq`), `act` and `pre` at an index (`act_apply`, `pre_apply`); each
  staged block as the rows of its array the index maps name (`adjBlk_apply` … `biasBlk_apply`, `outBlk_emb`); what a
  point writes back is its block of `G` (`flushed_eq`); row `r` is written by point `r / 400` (`cover`).
-/
import proofs.«419644_j5583457485490_3_alg».proof.Proof.Gen.KernelIdeal.Frame
import proofs.«419644_j5583457485490_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue1

open Cert.KernelIdeal Cert.KernelIdeal.Gen Idealize.ShloMosaic Idealize.ShloMosaic.ValueIdx Idealize.ShloMosaic.TcCoe Idealize.SL.Sem Cert.Gcn

variable (V : (c : Dev nD) → (b : Ref sig .tc) → Buf (Elt Ideal) ((c : Thread nD τ).loc b))

/-! ## The two products of the body, read at an index

The first contracts the adjacency rows' 10000 columns against the features' rows, the second the 128 aggregated
features against the weights' rows. -/

/-- The aggregation's dimension numbers: [400,10000] · [10000,128] → [400,128], contracting axis 1 with axis 0. -/
abbrev aggDims := dot_S400x10000_S10000x128_S400x128_1_0_0_1_n_n
/-- The transform's dimension numbers: [400,128] · [128,128] → [400,128], contracting axis 1 with axis 0. -/
abbrev linDims := dot_S400x128_S128x128_S400x128_1_0_0_1_n_n

theorem agg_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lin_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lin_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem lin_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem lin_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The aggregation into the zero accumulator, at row `p` and feature `k`: the row of the adjacency block against
    column `k` of the features. -/
theorem agg_apply (x : FVec Ideal S400x10000 .bf16) (y : FVec Ideal S10000x128 .bf16) (p : Fin 400) (k : Fin 128) :
    matmul dot_S400x10000_S10000x128_S400x128_1_0_0_1_n_n none x y (constant (F := Ideal) S400x128 .f32 0x00000000#32) (ix2 p k)
      = ∑ s : Fin 10000, x (ix2 p s) * y (ix2 s k) := by
  refine (Ideal.matmul_constant_zero_apply dot_S400x10000_S10000x128_S400x128_1_0_0_1_n_n none x y (ix2 p k)).trans ?_
  rw [← Equiv.sum_comp (contrEquiv1 dot_S400x10000_S10000x128_S400x128_1_0_0_1_n_n 10000 rfl rfl).symm]
  refine Finset.sum_congr rfl fun s _ => ?_
  have hs := contrEquiv1_symm_val dot_S400x10000_S10000x128_S400x128_1_0_0_1_n_n 10000 rfl rfl s
  have el : dot_S400x10000_S10000x128_S400x128_1_0_0_1_n_n.lhsIdx (ix2 p k) ((contrEquiv1 dot_S400x10000_S10000x128_S400x128_1_0_0_1_n_n 10000 rfl rfl).symm s) = ix2 p s := funext fun a => Fin.ext (by
    match a with
    | ⟨0, _⟩ => exact agg_lhs_0 _ _
    | ⟨1, _⟩ => exact (agg_lhs_1 _ _).trans hs)
  have er : dot_S400x10000_S10000x128_S400x128_1_0_0_1_n_n.rhsIdx (ix2 p k) ((contrEquiv1 dot_S400x10000_S10000x128_S400x128_1_0_0_1_n_n 10000 rfl rfl).symm s) = ix2 s k := funext fun a => Fin.ext (by
    match a with
    | ⟨0, _⟩ => exact (agg_rhs_0 _ _).trans hs
    | ⟨1, _⟩ => exact agg_rhs_1 _ _)
  rw [el, er]

/-- The transform into the zero accumulator, at row `p` and column `q`: the row of aggregated features against
    column `q` of the weights. -/
theorem lin_apply (x : FVec Ideal S400x128 .bf16) (y : FVec Ideal S128x128 .bf16) (p : Fin 400) (q : Fin 128) :
    matmul dot_S400x128_S128x128_S400x128_1_0_0_1_n_n none x y (constant (F := Ideal) S400x128 .f32 0x00000000#32) (ix2 p q)
      = ∑ k : Fin 128, x (ix2 p k) * y (ix2 k q) := by
  refine (Ideal.matmul_constant_zero_apply dot_S400x128_S128x128_S400x128_1_0_0_1_n_n none x y (ix2 p q)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lin_lhs_0 _ _
    | ⟨1, _⟩ => exact (lin_lhs_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (lin_rhs_0 _ _).trans hk
    | ⟨1, _⟩ => exact lin_rhs_1 _ _)
  rw [el, er]

/-! ## The body's arithmetic at an index -/

/-- The column test of the body: column `q` is at least 64, as the word compare decides it. -/
theorem col_ge_64 (q : Fin 128) : IntOp.cmpi .sge (BitVec.ofNat 32 q.val) 64#32 = if 64 ≤ q.val then 1#1 else 0#1 := by
  revert q; decide

/-- No extended real differs from itself. -/
theorem cmp_one_self (a : EReal) : Ideal.cmp .one a a = 0#1 := by
  unfold Ideal.cmp
  simp

/-- What the body does to its pre-activation `a`: softplus in the columns from 64 on, nothing before. -/
def act (a : FVec Ideal S400x128 .f32) : FVec Ideal S400x128 .f32 :=
  have v13 : IVec S400x128 32 := iota .tc S400x128 32 [1] iota_S400x128_d1_w32
  have cst_8 : Ideal .f32 := Scalar.ofBits .f32 0x00000000#32
  have v14 : FVec Ideal S400x128 .f32 := broadcast S400x128 cst_8
  have v15 : FVec Ideal S400x128 .f32 := maximumf a v14
  have v16 : FVec Ideal S400x128 .f32 := broadcast S400x128 cst_8
  have v17 : FVec Ideal S400x128 .f32 := subf a v16
  have v18 : IVec S400x128 1 := cmpf .one v17 v17
  have v19 : FVec Ideal S400x128 .f32 := broadcast S400x128 cst_8
  have v20 : FVec Ideal S400x128 .f32 := addf a v19
  have v21 : FVec Ideal S400x128 .f32 := absf v17
  have cst_9 : Ideal .f32 := Scalar.ofBits .f32 0x00000000#32
  have v22 : FVec Ideal S400x128 .f32 := broadcast S400x128 cst_9
  have v23 : FVec Ideal S400x128 .f32 := subf v22 v21
  have v24 : FVec Ideal S400x128 .f32 := exp v23
  have v25 : FVec Ideal S400x128 .f32 := log1p v24
  have v26 : FVec Ideal S400x128 .f32 := addf v15 v25
  have v27 : FVec Ideal S400x128 .f32 := select v18 v20 v26
  have v28 : IVec S400x128 32 := broadcast S400x128 64#32
  have v29 : IVec S400x128 1 := cmpi .sge v13 v28
  select v29 v27 a

/-- The pre-activation as the body computes it from its four loaded blocks. -/
def pre (x0 : Vec Ideal S400x10000 .bf16) (x1 : Vec Ideal S10000x128 .bf16) (x2 : Vec Ideal S128x128 .bf16) (x3 : Vec Ideal S1x128 .f32) : FVec Ideal S400x128 .f32 :=
  addf (matmul (φ₁ := .bf16) (φ₂ := .bf16) dot_S400x128_S128x128_S400x128_1_0_0_1_n_n none
      (truncf .bf16 (matmul (φ₁ := .bf16) (φ₂ := .bf16) dot_S400x10000_S10000x128_S400x128_1_0_0_1_n_n none x0 x1 (constant S400x128 .f32 0x00000000#32)) bitsLt_bf16_f32)
      x2 (constant S400x128 .f32 0x00000000#32))
    (broadcastTo S400x128 x3 broadcasts_S1x128_S400x128)

/-- The body's stored value is `act` of `pre`. -/
theorem pay_eq (x0 : Vec Ideal S400x10000 .bf16) (x1 : Vec Ideal S10000x128 .bf16) (x2 : Vec Ideal S128x128 .bf16) (x3 : Vec Ideal S1x128 .f32) :
    k1_pay1 (F := Ideal) x0 x1 x2 x3 = act (pre x0 x1 x2 x3) := by
  unfold k1_pay1 pre
  simp only [shapeCast_self]
  rfl

/-- `act` at an index. -/
theorem act_apply (a : FVec Ideal S400x128 .f32) (p : Fin 400) (q : Fin 128) :
    act a (ix2 p q) = if 64 ≤ q.val then softplus (a (ix2 p q)) else a (ix2 p q) := by
  have hz : (Scalar.ofBits .f32 0x00000000#32 : Ideal .f32) = (0 : EReal) := Ideal.ofBits_zero_f32
  have hcol : iota .tc S400x128 32 [1] iota_S400x128_d1_w32 (ix2 p q) = BitVec.ofNat 32 q.val :=
    iota_single_apply .tc S400x128 32 1 iota_S400x128_d1_w32 (ix2 p q)
  show Scalar.select (IntOp.cmpi .sge (iota .tc S400x128 32 [1] iota_S400x128_d1_w32 (ix2 p q)) 64#32)
      (Scalar.select (Ideal.cmp .one (a (ix2 p q) - (Scalar.ofBits .f32 0x00000000#32 : Ideal .f32)) (a (ix2 p q) - (Scalar.ofBits .f32 0x00000000#32 : Ideal .f32)))
        (a (ix2 p q) + (Scalar.ofBits .f32 0x00000000#32 : Ideal .f32))
        (max (a (ix2 p q)) (Scalar.ofBits .f32 0x00000000#32 : Ideal .f32)
          + Ideal.log1p (Ideal.exp ((Scalar.ofBits .f32 0x00000000#32 : Ideal .f32)
              - max (a (ix2 p q) - (Scalar.ofBits .f32 0x00000000#32 : Ideal .f32)) (-(a (ix2 p q) - (Scalar.ofBits .f32 0x00000000#32 : Ideal .f32)))))))
      (a (ix2 p q)) = _
  rw [hcol, col_ge_64, cmp_one_self, select_zero, hz]
  generalize a (ix2 p q) = r
  rw [sub_zero, zero_sub]
  unfold softplus
  split
  · rw [select_one]
  · rw [select_zero]

/-- `pre` at an index: the two contractions and the bias row. -/
theorem pre_apply (x0 : Vec Ideal S400x10000 .bf16) (x1 : Vec Ideal S10000x128 .bf16) (x2 : Vec Ideal S128x128 .bf16) (x3 : Vec Ideal S1x128 .f32) (p : Fin 400) (q : Fin 128) :
    pre x0 x1 x2 x3 (ix2 p q)
      = (∑ k : Fin 128, (∑ s : Fin 10000, x0 (ix2 p s) * x1 (ix2 s k)) * x2 (ix2 k q)) + x3 (ix2 (0 : Fin 1) q) := by
  unfold pre
  rw [addf_apply, lin_apply, broadcastTo_1b_ab_apply]
  refine congrArg (· + x3 (ix2 (0 : Fin 1) q)) (Finset.sum_congr rfl fun k _ => ?_)
  rw [truncf_apply, agg_apply]

/-! ## From the blocks to the array -/

/-- The four arrays the region stages, as it finds them. -/
abbrev adjArr (c : Dev nD) : S10000x10000.Idx → EReal := V c main_call0_v46
abbrev featArr (c : Dev nD) : S10000x128.Idx → EReal := V c main_call0_v50
abbrev wArr (c : Dev nD) : S128x128.Idx → EReal := V c main_call0_v53
abbrev biasArr (c : Dev nD) : S1x128.Idx → EReal := V c main_call0_v54

/-- Their blocks at grid point `t`. -/
abbrev adjBlk (c : Dev nD) (t : Fin cfg1.N) : Vec Ideal S400x10000 .bf16 := iblk1 V c 0 t
abbrev featBlk (c : Dev nD) (t : Fin cfg1.N) : Vec Ideal S10000x128 .bf16 := iblk1 V c 1 t
abbrev wBlk (c : Dev nD) (t : Fin cfg1.N) : Vec Ideal S128x128 .bf16 := iblk1 V c 2 t
abbrev biasBlk (c : Dev nD) (t : Fin cfg1.N) : Vec Ideal S1x128 .f32 := iblk1 V c 3 t

/-- What the output array ends holding: the layer's cell, through softplus in the columns from 64 on. -/
def G (c : Dev nD) : S10000x128.Idx → EReal := fun i =>
  if 64 ≤ (i 1).val then softplus (cell (adjArr V c) (featArr V c) (wArr V c) (biasArr V c) (i 0) (i 1))
  else cell (adjArr V c) (featArr V c) (wArr V c) (biasArr V c) (i 0) (i 1)

theorem zero_offsets : (![0, 0] : Fin 2 → Nat) = fun _ => 0 := funext fun a => by
  match a with
  | ⟨0, _⟩ => rfl
  | ⟨1, _⟩ => rfl

/-- The printed index maps over the grid: the adjacency and the output move down one block of rows per point, the
    other three windows stay on their whole arrays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is row `400 t + p` of the array. -/
abbrev rowOf (t : Fin cfg1.N) (p : Fin 400) : Fin 10000 := ⟨400 * t.val + p.val, by
  have ht : t.val < 25 := t.isLt
  have hp := p.isLt
  omega⟩

theorem adjBlk_apply (c : Dev nD) (t : Fin cfg1.N) (p : Fin 400) (s : Fin 10000) :
    adjBlk V c t (ix2 p s) = adjArr V c (ix2 (rowOf t p) s) := by
  obtain ⟨e0, e1, -⟩ := idx_facts t
  show V c main_call0_v46 (((cfg1.win 0).blk t).view.emb (ix2 p s)) = V c main_call0_v46 (ix2 (rowOf t p) s)
  refine congrArg (V c main_call0_v46) (funext fun a => Fin.ext ?_)
  match a with
  | ⟨0, _⟩ => show win1_0.index t (0 : Fin 2) * 400 + 1 * p.val = 400 * t.val + p.val; omega
  | ⟨1, _⟩ => show win1_0.index t (1 : Fin 2) * 10000 + 1 * s.val = s.val; omega

theorem featBlk_apply (c : Dev nD) (t : Fin cfg1.N) (s : Fin 10000) (k : Fin 128) :
    featBlk V c t (ix2 s k) = featArr V c (ix2 s k) := by
  obtain ⟨-, -, e0, e1, -⟩ := idx_facts t
  show V c main_call0_v50 (((cfg1.win 1).blk t).view.emb (ix2 s k)) = V c main_call0_v50 (ix2 s k)
  refine congrArg (V c main_call0_v50) (funext fun a => Fin.ext ?_)
  match a with
  | ⟨0, _⟩ => show win1_1.index t (0 : Fin 2) * 10000 + 1 * s.val = s.val; omega
  | ⟨1, _⟩ => show win1_1.index t (1 : Fin 2) * 128 + 1 * k.val = k.val; omega

theorem wBlk_apply (c : Dev nD) (t : Fin cfg1.N) (k : Fin 128) (q : Fin 128) :
    wBlk V c t (ix2 k q) = wArr V c (ix2 k q) := by
  obtain ⟨-, -, -, -, e0, e1, -⟩ := idx_facts t
  show V c main_call0_v53 (((cfg1.win 2).blk t).view.emb (ix2 k q)) = V c main_call0_v53 (ix2 k q)
  refine congrArg (V c main_call0_v53) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem biasBlk_apply (c : Dev nD) (t : Fin cfg1.N) (z : Fin 1) (q : Fin 128) :
    biasBlk V c t (ix2 z q) = biasArr V c (ix2 z q) := by
  obtain ⟨-, -, -, -, -, -, e0, e1, -⟩ := idx_facts t
  show V c main_call0_v54 (((cfg1.win 3).blk t).view.emb (ix2 z q)) = V c main_call0_v54 (ix2 z q)
  refine congrArg (V c main_call0_v54) (funext fun a => Fin.ext ?_)
  match a with
  | ⟨0, _⟩ => show win1_3.index t (0 : Fin 2) * 1 + 1 * z.val = z.val; omega
  | ⟨1, _⟩ => show win1_3.index t (1 : Fin 2) * 128 + 1 * q.val = q.val; omega

/-- Element `(p, q)` of the output's block at point `t` sits at row `400 t + p`, column `q` of the array. -/
theorem outBlk_emb (t : Fin cfg1.N) (p : Fin 400) (q : Fin 128) :
    ((cfg1.win 4).blk t).view.emb (ix2 p q) = ix2 (rowOf t p) q := by
  obtain ⟨-, -, -, -, -, -, -, -, e0, e1⟩ := idx_facts t
  refine funext fun a => Fin.ext ?_
  match a with
  | ⟨0, _⟩ => show win1_4.index t (0 : Fin 2) * 400 + 1 * p.val = 400 * t.val + p.val; omega
  | ⟨1, _⟩ => show win1_4.index t (1 : Fin 2) * 128 + 1 * q.val = q.val; omega

/-- The pre-activation over a point's blocks is the layer's cell at the block's row of the array. -/
theorem pre_blocks (c : Dev nD) (t : Fin cfg1.N) (p : Fin 400) (q : Fin 128) :
    pre (adjBlk V c t) (featBlk V c t) (wBlk V c t) (biasBlk V c t) (ix2 p q)
      = cell (adjArr V c) (featArr V c) (wArr V c) (biasArr V c) (rowOf t p) q := by
  rw [pre_apply]
  unfold cell
  refine congrArg₂ (· + ·) (Finset.sum_congr rfl fun k _ => ?_) (biasBlk_apply V c t 0 q)
  rw [wBlk_apply]
  refine congrArg (· * wArr V c (ix2 k q)) (Finset.sum_congr rfl fun s _ => ?_)
  rw [adjBlk_apply, featBlk_apply]

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x128) zero_offsets,
    View.ld_unit_zero (S := S128x128) zero_offsets, View.ld_unit_zero (S := S1x128) zero_offsets]
  rw [pay_eq]
  funext y
  obtain ⟨p, q, rfl⟩ : ∃ (p : Fin 400) (q : Fin 128), y = ix2 p q := ⟨y 0, y 1, eq_ix2 y⟩
  show act (pre (adjBlk V c t) (featBlk V c t) (wBlk V c t) (biasBlk V c t)) (ix2 p q)
    = G V c (((cfg1.win 4).blk t).view.emb (ix2 p q))
  rw [outBlk_emb, act_apply, pre_blocks]
  rfl

/-- An index of the array is in point `t`'s block iff each coordinate is in the block's range on its axis. -/
theorem mem_outBlk (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_call0_v55).slice (win1_4.rect t)).set ↔ _
  rw [View.set_slice_whole, Rect.mem_set_unit]
  exact Iff.rfl

/-- Row `r` of the array is written by point `r / 400`. -/
theorem cover (i : S10000x128.Idx) :
    ∃ t : Fin cfg1.N, (cfg1.win 4).flush t = true ∧ i ∈ ((cfg1.win 4).blk t).view.set := by
  have h0 : (i 0).val < 10000 := (i 0).isLt
  have h1 : (i 1).val < 128 := (i 1).isLt
  have hlt : (i 0).val / 400 < 25 := by omega
  obtain ⟨t, ht⟩ : ∃ t : Fin cfg1.N, t.val = (i 0).val / 400 := ⟨⟨(i 0).val / 400, hlt⟩, rfl⟩
  obtain ⟨-, -, -, -, -, -, -, -, e0, e1⟩ := idx_facts t
  refine ⟨t, flush1_4 t, ?_⟩
  rw [mem_outBlk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The output array after the region. -/
theorem final_arr (c : Dev nD) : (dat1 (F := Ideal) V c).arrAt 4 cfg1.N = G V c :=
  (dat1 (F := Ideal) V c).arrAt_eq_of_cover 4 (G V c) (fun t _ => flushed_eq V c t) cover

/-- The output array after the region, at row `n` and column `j`: the layer's cell, through softplus from column 64 on. -/
theorem final1 (c : Dev nD) (n : Fin 10000) (j : Fin 128) :
    (dat1 (F := Ideal) V c).arrAt 4 cfg1.N (ix2 n j)
      = if 64 ≤ j.val then softplus (cell (V c main_call0_v46) (V c main_call0_v50) (V c main_call0_v53) (V c main_call0_v54) n j)
        else cell (V c main_call0_v46) (V c main_call0_v50) (V c main_call0_v53) (V c main_call0_v54) n j :=
  (congrFun (final_arr V c) (ix2 n j)).trans (by unfold G; rfl)

end Cert.KernelIdeal.RegionValue1

end
-- ==== Proof.LibPairScatter.lean ====
/-
  A host scatter-add into a matrix through index PAIRS, read at one element, at the extended reals: what
  `x.at[rows, cols].add(u)` holds at `(g, h)`, as the operand's element plus the sum of the updates whose pair of
  indices, read signed, is `(g, h)`.
  General lemmas over any sizes; they import no program.
-/
import proofs.«419644_j5583457485490_3_alg».proof.Proof.LibScatterRead

noncomputable section

open scoped BigOperators

namespace Idealize.ShloMosaic.ScatterRead

open Idealize.ShloMosaic Idealize.ShloMosaic.ValueIdx

/-- The dimension numbers of an element scatter into a matrix through index pairs: the updates have no window axis;
    both operand axes are inserted, and component 0 / 1 of the index vector names operand axis 0 / 1; the index
    vector is the pairs' axis 1. -/
abbrev pairsDims (N0 N1 M : Nat)
    (wf : ScatterDims.WF ⟨2, ![N0, N1]⟩ ⟨2, ![M, 2]⟩ ⟨1, ![M]⟩ [] [0, 1] [0, 1] 1) :
    ScatterDims ⟨2, ![N0, N1]⟩ ⟨2, ![M, 2]⟩ ⟨1, ![M]⟩ where
  updateWindowDims := []
  insertedWindowDims := [0, 1]
  scatterDimsToOperandDims := [0, 1]
  indexVectorDim := 1
  wf := wf

/-- Where update `v` of a pair scatter lands: at `(g, h)` exactly when `v`'s two indices, read signed, are `g` and
    `h` (the window is the one element at the pair). -/
theorem pairs_resultIdx?_iff {N0 N1 M w : Nat}
    (wf : ScatterDims.WF ⟨2, ![N0, N1]⟩ ⟨2, ![M, 2]⟩ ⟨1, ![M]⟩ [] [0, 1] [0, 1] 1)
    (idx : IVec ⟨2, ![M, 2]⟩ w) (v : Fin M) (g : Fin N0) (h : Fin N1) :
    (pairsDims N0 N1 M wf).resultIdx? (ix1 v) idx = some (ix2 g h)
      ↔ (idx (ix2 v (0 : Fin 2))).toInt = (g.val : ℤ) ∧ (idx (ix2 v (1 : Fin 2))).toInt = (h.val : ℤ) := by
  rw [resultIdx?_eq_some_iff]
  -- component `c` of the scatter index of update `v` is read at `(v, c)`
  have hsi0 : (pairsDims N0 N1 M wf).siIdx (ix1 v) ⟨0, Nat.zero_lt_two⟩ = ix2 v (0 : Fin 2) := by
    funext b
    match b with
    | ⟨0, _⟩ => rfl
    | ⟨1, _⟩ => rfl
  have hsi1 : (pairsDims N0 N1 M wf).siIdx (ix1 v) ⟨1, Nat.one_lt_two⟩ = ix2 v (1 : Fin 2) := by
    funext b
    match b with
    | ⟨0, _⟩ => rfl
    | ⟨1, _⟩ => rfl
  -- starts and window coordinates on the two operand axes
  have e0 : (pairsDims N0 N1 M wf).start (ix1 v) idx 0 = (idx (ix2 v (0 : Fin 2))).toInt := by rw [← hsi0]; rfl
  have e1 : (pairsDims N0 N1 M wf).start (ix1 v) idx 1 = (idx (ix2 v (1 : Fin 2))).toInt := by rw [← hsi1]; rfl
  have w0 : (pairsDims N0 N1 M wf).window (ix1 v) 0 = 0 := rfl
  have w1 : (pairsDims N0 N1 M wf).window (ix1 v) 1 = 0 := rfl
  constructor
  · intro hh
    have h0 : (pairsDims N0 N1 M wf).start (ix1 v) idx 0 + ((pairsDims N0 N1 M wf).window (ix1 v) 0 : ℤ) = (g.val : ℤ) := hh 0
    have h1 : (pairsDims N0 N1 M wf).start (ix1 v) idx 1 + ((pairsDims N0 N1 M wf).window (ix1 v) 1 : ℤ) = (h.val : ℤ) := hh 1
    rw [e0, w0] at h0
    rw [e1, w1] at h1
    exact ⟨by simpa using h0, by simpa using h1⟩
  · rintro ⟨hg, hh⟩
    have t0 : (pairsDims N0 N1 M wf).start (ix1 v) idx 0 + ((pairsDims N0 N1 M wf).window (ix1 v) 0 : ℤ) = (g.val : ℤ) := by
      rw [e0, w0, hg]; simp
    have t1 : (pairsDims N0 N1 M wf).start (ix1 v) idx 1 + ((pairsDims N0 N1 M wf).window (ix1 v) 1 : ℤ) = (h.val : ℤ) := by
      rw [e1, w1, hh]; simp
    intro a
    match a with
    | ⟨0, _⟩ => exact t0
    | ⟨1, _⟩ => exact t1

/-- A pair scatter-add (`x.at[rows, cols].add(u)` into a matrix, the indices an [M × 2] table of pairs): element
    `(g, h)` of the result is the operand's plus the sum of the updates `v` whose pair of indices, read signed, is
    `(g, h)`; an update whose pair is outside the matrix lands nowhere. -/
theorem scatterAdd_pairs_apply {N0 N1 M w : Nat} (d : ScatterDims ⟨2, ![N0, N1]⟩ ⟨2, ![M, 2]⟩ ⟨1, ![M]⟩)
    (huw : d.updateWindowDims = []) (hiw : d.insertedWindowDims = [0, 1]) (hsd : d.scatterDimsToOperandDims = [0, 1])
    (hiv : d.indexVectorDim = 1)
    (x : (⟨2, ![N0, N1]⟩ : Shape).Idx → EReal) (idx : IVec ⟨2, ![M, 2]⟩ w) (upd : (⟨1, ![M]⟩ : Shape).Idx → EReal)
    (g : Fin N0) (h : Fin N1) :
    Ideal.hostScatterAdd d x idx upd (ix2 g h)
      = x (ix2 g h) + ∑ v ∈ Finset.univ.filter (fun v : Fin M => (idx (ix2 v (0 : Fin 2))).toInt = (g.val : ℤ)
          ∧ (idx (ix2 v (1 : Fin 2))).toInt = (h.val : ℤ)), upd (ix1 v) := by
  obtain ⟨uw, iw, sd, iv, wf⟩ := d
  dsimp only at huw hiw hsd hiv
  subst huw hiw hsd hiv
  show x (ix2 g h) + ∑ j ∈ Finset.univ.filter (fun j => (pairsDims N0 N1 M wf).resultIdx? j idx = some (ix2 g h)), upd j = _
  congr 1
  -- the updates' index set is its one coordinate's range
  rw [Finset.sum_filter, Finset.sum_filter, sum_idx1]
  refine Finset.sum_congr rfl fun v _ => ?_
  simp only [pairs_resultIdx?_iff]

end Idealize.ShloMosaic.ScatterRead

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.KernelAdj.lean ====
/-
  The dense normalised adjacency the kernel program's host code builds, read at an element.

  With src = row 0 and dst = row 1 of the edge table (every word w with 0 ≤ w < 10000, read signed): the degree of a node
  is one plus the number of edges into it, the normaliser is its reciprocal square root, an edge weighs the product of
  the normaliser at its two ends and the self loop at a node the normaliser's square there. The host code adds, into a
  zero matrix, the edge weights at (dst e, src e) and the self-loop weights at (n, n), through 650000 index pairs:
  640000 edges followed by 10000 nodes. The negative-index wrap (a word below zero has 10000 added) is the identity
  on words in range and on the node numbers. Read at (n, s) the result is
      Σ_{e : dst e = n ∧ src e = s} weight e + [n = s] selfweight n,
  the specification's `adj`.

  The road: the host code's stages as named functions of the edge table; each stage read at an index, bottom-up; the
  62 printed operations cut into five stretches, the buffers after each stretch identified with the stages; the last
  buffer is the adjacency stage.
-/
import proofs.«419644_j5583457485490_3_alg».proof.Proof.Gen.KernelIdeal.Frame
import proofs.«419644_j5583457485490_3_alg».proof.Proof.Spec
import proofs.«419644_j5583457485490_3_alg».proof.Proof.LibScatterRead
import Idealize.ShloMosaic.Lib.StableHlo.Predicate
import Idealize.ShloMosaic.Lib.Pipeline.Value
import proofs.«419644_j5583457485490_3_alg».proof.Proof.LibPairScatter
import Mathlib.Algebra.BigOperators.Fin
import proofs.«419644_j5583457485490_3_alg».proof.Proof.LibTRef

set_option maxRecDepth 16384

noncomputable section

open scoped BigOperators

namespace Cert.KernelIdeal.HostValue

open Cert.KernelIdeal Cert.KernelIdeal.Gen Idealize.ShloMosaic Idealize.ShloMosaic.ValueIdx Idealize.ShloMosaic.TcCoe Idealize.SL.Sem Cert.Gcn
open Idealize.ShloMosaic.ScatterRead Idealize.ShloMosaic.StableHlo

variable (m : (ℓ : Loc nD τ sig) → Buf (Elt Ideal) ℓ) (ρ : Dev nD → PrngReg)

/-! ## The host code's stages, as functions of the edge table -/

/-- The source words: row 0 of the edge table, as a vector. -/
def srcV (x1 : IVec S2x640000 32) : IVec S640000 32 :=
  shapeCast S640000 (extractStridedSlice S1x640000 ![0, 0] x1 slices_S2x640000_S1x640000_0_0) shapeCasts_S1x640000_S640000
/-- The destination words: row 1 of the edge table, as a vector. -/
def dstV (x1 : IVec S2x640000 32) : IVec S640000 32 :=
  shapeCast S640000 (extractStridedSlice S1x640000 ![1, 0] x1 slices_S2x640000_S1x640000_1_0) shapeCasts_S1x640000_S640000
/-- The degrees: a one per edge added at its destination word, plus one. -/
def degV (x1 : IVec S2x640000 32) : FVec Ideal S10000 .f32 :=
  addf (Host.scatterAdd scatter_S10000_S640000x1_S640000_n_0_0_1
      (broadcastInDim S10000 ![] bcast_S_S10000 (constant (F := Ideal) S_ .f32 0x00000000#32))
      (broadcastInDim S640000x1 ![0] bcast_S640000_S640000x1_0 (dstV x1))
      (broadcastInDim S640000 ![] bcast_S_S640000 (constant (F := Ideal) S_ .f32 0x3F800000#32)))
    (broadcastInDim S10000 ![] bcast_S_S10000 (constant (F := Ideal) S_ .f32 0x3F800000#32))
/-- The normaliser `deg^(-1/2)`. -/
def disV (x1 : IVec S2x640000 32) : FVec Ideal S10000 .f32 := Host.rsqrt (degV x1)
/-- The negative-index wrap over the edges: a word below zero has 10000 added. -/
def wrapE (a : IVec S640000 32) : IVec S640000 32 :=
  select (cmpi .slt a (broadcastInDim S640000 ![] bcast_S_S640000 (constantI S_ 32 0#32)))
    (addi a (broadcastInDim S640000 ![] bcast_S_S640000 (constantI S_ 32 10000#32))) a
/-- The negative-index wrap over the updates. -/
def wrapU (a : IVec S650000 32) : IVec S650000 32 :=
  select (cmpi .slt a (broadcastInDim S650000 ![] bcast_S_S650000 (constantI S_ 32 0#32)))
    (addi a (broadcastInDim S650000 ![] bcast_S_S650000 (constantI S_ 32 10000#32))) a
/-- The normaliser gathered at wrapped words. -/
def takeV (x1 : IVec S2x640000 32) (a : IVec S640000 32) : FVec Ideal S640000 .f32 :=
  Host.gather gather_S10000_S640000x1_S640000_n_0_n_n_0_1_1 (disV x1)
    (broadcastInDim S640000x1 ![0] bcast_S640000_S640000x1_0 (wrapE a))
/-- The edge weights. -/
def edgeNormV (x1 : IVec S2x640000 32) : FVec Ideal S640000 .f32 := mulf (takeV x1 (srcV x1)) (takeV x1 (dstV x1))
/-- The self-loop weights. -/
def selfNormV (x1 : IVec S2x640000 32) : FVec Ideal S10000 .f32 := mulf (disV x1) (disV x1)
/-- Words followed by the node numbers. -/
def withIota (a : IVec S640000 32) : IVec S650000 32 :=
  concatenate S650000 0 [⟨S640000, a⟩, ⟨S10000, iotaInDim S10000 32 0⟩] concatenates_S640000_S10000_S650000_d0
/-- The updates: edge weights followed by self-loop weights. -/
def updV (x1 : IVec S2x640000 32) : FVec Ideal S650000 .f32 :=
  concatenate S650000 0 [⟨S640000, edgeNormV x1⟩, ⟨S10000, selfNormV x1⟩] concatenates_S640000_S10000_S650000_d0
/-- The index pairs: (row, column) = (destination, source) per edge, then (n, n) per node, each wrapped. -/
def pairsV (x1 : IVec S2x640000 32) : IVec S650000x2 32 :=
  concatenate S650000x2 1
    [⟨S650000x1, broadcastInDim S650000x1 ![0] bcast_S650000_S650000x1_0 (wrapU (withIota (dstV x1)))⟩,
     ⟨S650000x1, broadcastInDim S650000x1 ![0] bcast_S650000_S650000x1_0 (wrapU (withIota (srcV x1)))⟩]
    concatenates_S650000x1_S650000x1_S650000x2_d1
/-- The adjacency: the updates added into a zero matrix at the pairs, then narrowed. -/
def adjV (x1 : IVec S2x640000 32) : FVec Ideal S10000x10000 .bf16 :=
  truncf .bf16 (Host.scatterAdd scatter_S10000x10000_S650000x2_S650000_n_01_01_1
      (broadcastInDim S10000x10000 ![] bcast_S_S10000x10000 (constant (F := Ideal) S_ .f32 0x00000000#32))
      (pairsV x1) (updV x1)) bitsLt_bf16_f32

/-- A two-piece concatenation with its pieces as plain arguments. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is the same with its pieces as plain arguments. -/
theorem concat2_def {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concat2 t a s₁ s₂ h x₁ x₂ := rfl

/-! ## Small reads -/

/-- A vector kept as an [n × 1] column reads, at `(p, z)`, the vector at `p`. -/
theorem col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  refine broadcastInDim_apply _ h v _ (ix1 p) fun a => ?_
  match a with
  | ⟨0, _⟩ =>
    show p.val = if n = 1 then 0 else p.val
    split
    · have := p.isLt; omega
    · rfl

/-- A scalar real constant broadcast to any shape reads the constant's value everywhere. -/
theorem bcast_const {t : Shape} (h : S_.BroadcastsInDim t ![]) (b : BitVec 32) (j : t.Idx) :
    broadcastInDim t ![] h (constant (F := Ideal) S_ .f32 b) j = Ideal.ofBits .f32 b :=
  (Predicate.bcast_scalar h (by decide) _ j).trans rfl

/-- A scalar integer constant broadcast to any shape reads the constant everywhere. -/
theorem bcast_constI {t : Shape} (h : S_.BroadcastsInDim t ![]) (b : BitVec 32) (j : t.Idx) :
    broadcastInDim t ![] h (constantI S_ 32 b) j = b :=
  (Predicate.bcast_scalar h (by decide) _ j).trans rfl

/-- A word that is not negative is not below zero, so the wrap keeps it. -/
theorem wrap_word (w : BitVec 32) (h : 0 ≤ w.toInt) :
    Scalar.select (IntOp.cmpi .slt w 0#32) (IntOp.addi w 10000#32) w = w := by
  have hs : IntOp.cmpi .slt w 0#32 = 0#1 := by
    unfold IntOp.cmpi
    have : w.slt 0#32 = false := by
      simp only [BitVec.slt, BitVec.toInt_zero, decide_eq_false_iff_not, not_lt]
      exact h
    rw [this]; rfl
  rw [hs, select_zero]

/-- The negative-index wrap at an index whose word is not negative is that word. -/
theorem wrap_apply {t : Shape} (hb : S_.BroadcastsInDim t ![]) (a : IVec t 32) (i : t.Idx) (h : 0 ≤ (a i).toInt) :
    select (cmpi .slt a (broadcastInDim t ![] hb (constantI S_ 32 0#32)))
      (addi a (broadcastInDim t ![] hb (constantI S_ 32 10000#32))) a i = a i := by
  rw [select_apply]
  show Scalar.select (IntOp.cmpi .slt (a i) (broadcastInDim t ![] hb (constantI S_ 32 0#32) i))
      (IntOp.addi (a i) (broadcastInDim t ![] hb (constantI S_ 32 10000#32) i)) (a i) = a i
  rw [bcast_constI, bcast_constI]
  exact wrap_word _ h

/-- The host's accumulating scatter is, at the extended reals, the exact sum. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The host's reciprocal square root, read at an index. -/
theorem hostRsqrt_apply {s : Shape} (v : FVec Ideal s .f32) (i : s.Idx) : Host.rsqrt v i = Ideal.rsqrt (v i) := rfl

/-- The rank-1 index at a coordinate, in its two spellings. -/
theorem ofFin_eq {n : Nat} (p : Fin n) : Shape.Idx.ofFin p = ix1 p := by
  funext d
  match d with
  | ⟨0, _⟩ => rfl

/-- Row `p` of a column, in its two spellings. -/
theorem ixP_eq {n : Nat} (p : Fin n) : Predicate.ixP p = ix2 p (0 : Fin 1) := by
  funext d
  match d with
  | ⟨0, _⟩ => rfl
  | ⟨1, _⟩ => rfl

/-- A word in range names its node: its signed value is `n` exactly when the node is `n`. -/
theorem word_eq_iff {w : BitVec 32} (h0 : 0 ≤ w.toInt) (h1 : w.toInt < 10000) (n : Fin 10000) :
    w.toInt = (n.val : ℤ) ↔ node w = n := by
  rw [← node_val_of_inRange h0 h1]
  constructor
  · intro h; exact Fin.ext (by exact_mod_cast h)
  · rintro rfl; rfl

/-- The word of a node number, read signed, is the number. -/
theorem toInt_nodeWord (d : Fin 10000) : (BitVec.ofNat 32 d.val).toInt = (d.val : ℤ) :=
  Predicate.toInt_ofNat_small d.val (by have := d.isLt; omega)

/-! ## The stages read at an index -/

/-- The source word of edge `e` is row 0 of the table. -/
theorem srcV_apply (x1 : IVec S2x640000 32) (e : Fin 640000) : srcV x1 (ix1 e) = x1 (ix2 (0 : Fin 2) e) := by
  unfold srcV
  refine (shapeCast_apply _ _ (ix1 e) (ix2 (0 : Fin 1) e) ?_).trans ?_
  · rw [Shape.rowMajor_val_two, Shape.rowMajor_val_one]
    show 0 * 640000 + e.val = e.val
    omega
  · refine extractStridedSlice_apply _ x1 _ _ (ix2 (0 : Fin 2) e) fun a => ?_
    match a with
    | ⟨0, _⟩ => rfl
    | ⟨1, _⟩ => show e.val = 0 + e.val; omega

/-- The destination word of edge `e` is row 1 of the table. -/
theorem dstV_apply (x1 : IVec S2x640000 32) (e : Fin 640000) : dstV x1 (ix1 e) = x1 (ix2 (1 : Fin 2) e) := by
  unfold dstV
  refine (shapeCast_apply _ _ (ix1 e) (ix2 (0 : Fin 1) e) ?_).trans ?_
  · rw [Shape.rowMajor_val_two, Shape.rowMajor_val_one]
    show 0 * 640000 + e.val = e.val
    omega
  · refine extractStridedSlice_apply _ x1 _ _ (ix2 (1 : Fin 2) e) fun a => ?_
    match a with
    | ⟨0, _⟩ => rfl
    | ⟨1, _⟩ => show e.val = 0 + e.val; omega

/-- The degree stage at node `n` is the specification's degree. -/
theorem degV_apply (x1 : IVec S2x640000 32) (n : Fin 10000) : degV x1 (ix1 n) = deg x1 n := by
  unfold degV deg
  rw [addf_apply, hostScatterAdd_eq, scatterAdd_flat_apply _ rfl rfl rfl rfl, bcast_const, bcast_const]
  refine congrArg (fun S : EReal => Ideal.ofBits .f32 0x00000000#32 + S + Ideal.ofBits .f32 0x3F800000#32) ?_
  refine Finset.sum_congr (Finset.filter_congr fun v _ => ?_) fun v _ => bcast_const _ _ _
  rw [col_apply, dstV_apply]

/-- The normaliser stage at node `n` is the specification's. -/
theorem disV_apply (x1 : IVec S2x640000 32) (n : Fin 10000) : disV x1 (ix1 n) = dis x1 n := by
  unfold disV dis
  rw [hostRsqrt_apply, degV_apply]

/-- The normaliser gathered at a word that is not negative is the normaliser of the node the word names. -/
theorem takeV_apply (x1 : IVec S2x640000 32) (a : IVec S640000 32) (e : Fin 640000) (h : 0 ≤ (a (ix1 e)).toInt) :
    takeV x1 a (ix1 e) = dis x1 (node (a (ix1 e))) := by
  have hi : (broadcastInDim S640000x1 ![0] bcast_S640000_S640000x1_0 (wrapE a)) (Predicate.ixP e) = a (ix1 e) := by
    rw [ixP_eq, col_apply]
    exact wrap_apply _ a (ix1 e) h
  have hg := Predicate.gather_take gather_S10000_S640000x1_S640000_n_0_n_n_0_1_1 rfl rfl rfl rfl (disV x1)
    (broadcastInDim S640000x1 ![0] bcast_S640000_S640000x1_0 (wrapE a)) e (by decide)
  rw [ofFin_eq, ofFin_eq] at hg
  unfold takeV
  refine hg.trans ?_
  refine (congrArg (fun k => disV x1 (ix1 k)) (Fin.ext ?_ : _ = node (a (ix1 e)))).trans (disV_apply x1 _)
  show min _ (10000 - 1) = min _ 9999
  rw [hi]

/-- The edge-weight stage at edge `e` is the specification's edge weight. -/
theorem edgeNormV_apply (x1 : IVec S2x640000 32) (hin : ∀ i, 0 ≤ (x1 i).toInt ∧ (x1 i).toInt < 10000) (e : Fin 640000) :
    edgeNormV x1 (ix1 e) = edgeW x1 e := by
  unfold edgeNormV edgeW src dst
  rw [mulf_apply, takeV_apply x1 _ e (by rw [srcV_apply]; exact (hin _).1),
    takeV_apply x1 _ e (by rw [dstV_apply]; exact (hin _).1), srcV_apply, dstV_apply]

/-- The self-weight stage at node `n` is the specification's self-loop weight. -/
theorem selfNormV_apply (x1 : IVec S2x640000 32) (n : Fin 10000) : selfNormV x1 (ix1 n) = selfW x1 n := by
  unfold selfNormV selfW
  rw [mulf_apply, disV_apply]

/-! ## The 650000 updates: 640000 edges, then 10000 nodes -/

/-- Update number of edge `e`. -/
abbrev inE (e : Fin 640000) : Fin 650000 := ⟨e.val, by have := e.isLt; omega⟩
/-- Update number of node `d`'s self loop. -/
abbrev inN (d : Fin 10000) : Fin 650000 := ⟨640000 + d.val, by have := d.isLt; omega⟩

/-- A sum over the updates is the sum over the edges plus the sum over the nodes. -/
theorem sum_split (f : Fin 650000 → EReal) :
    ∑ v, f v = ∑ e : Fin 640000, f (inE e) + ∑ d : Fin 10000, f (inN d) :=
  Fin.sum_univ_add (a := 640000) (b := 10000) f

/-- Of the self loops only node `n`'s lands at `(n, s)`, and only when `n = s`. -/
theorem self_sum (f : Fin 10000 → EReal) (n s : Fin 10000) :
    (∑ d : Fin 10000, if d = n ∧ d = s then f d else 0) = if n = s then f n else 0 := by
  by_cases h : n = s
  · subst h
    rw [if_pos rfl, Finset.sum_eq_single n]
    · rw [if_pos ⟨rfl, rfl⟩]
    · intro d _ hd; rw [if_neg]; rintro ⟨h1, _⟩; exact hd h1
    · intro hn; exact absurd (Finset.mem_univ n) hn
  · rw [if_neg h]
    refine Finset.sum_eq_zero fun d _ => ?_
    rw [if_neg]
    rintro ⟨h1, h2⟩
    exact h (h1.symm.trans h2)

/-- Two node numbers agree as integers exactly when they are the same node. -/
theorem natCast_eq_iff (d n : Fin 10000) : ((d.val : ℤ) = (n.val : ℤ)) ↔ d = n :=
  ⟨fun h => Fin.ext (by exact_mod_cast h), fun h => by rw [h]⟩

/-- Words followed by node numbers, at an edge: the edge's word. -/
theorem withIota_edge (a : IVec S640000 32) (e : Fin 640000) : withIota a (ix1 (inE e)) = a (ix1 e) := by
  unfold withIota
  exact concatenate_pair_apply_left (0 : Fin 1) a _ concatenates_S640000_S10000_S650000_d0 (ix1 (inE e)) rfl (ix1 e)
    (fun b => match b with | ⟨0, _⟩ => rfl)

/-- Words followed by node numbers, at a node: the node's number. -/
theorem withIota_node (a : IVec S640000 32) (d : Fin 10000) : withIota a (ix1 (inN d)) = BitVec.ofNat 32 d.val := by
  unfold withIota
  refine (concatenate_pair_apply_right (0 : Fin 1) a (iotaInDim S10000 32 0) concatenates_S640000_S10000_S650000_d0
    (ix1 (inN d)) rfl rfl (ix1 d) (fun b hb => absurd (Subsingleton.elim _ _) hb) ?_).trans rfl
  show d.val + 640000 = 640000 + d.val
  omega

/-- The wrapped index word of an edge whose word is not negative is that word. -/
theorem idx_edge (a : IVec S640000 32) (e : Fin 640000) (h : 0 ≤ (a (ix1 e)).toInt) :
    wrapU (withIota a) (ix1 (inE e)) = a (ix1 e) := by
  have hw := withIota_edge a e
  exact (wrap_apply _ (withIota a) (ix1 (inE e)) (by rw [hw]; exact h)).trans hw

/-- The wrapped index word of a node's self loop is the node's number. -/
theorem idx_node (a : IVec S640000 32) (d : Fin 10000) :
    wrapU (withIota a) (ix1 (inN d)) = BitVec.ofNat 32 d.val := by
  have hw := withIota_node a d
  exact (wrap_apply _ (withIota a) (ix1 (inN d)) (by rw [hw, toInt_nodeWord]; exact Int.natCast_nonneg _)).trans hw

/-- The update of edge `e` is its weight. -/
theorem updV_edge (x1 : IVec S2x640000 32) (hin : ∀ i, 0 ≤ (x1 i).toInt ∧ (x1 i).toInt < 10000) (e : Fin 640000) :
    updV x1 (ix1 (inE e)) = edgeW x1 e := by
  unfold updV
  exact (concatenate_pair_apply_left (0 : Fin 1) (edgeNormV x1) (selfNormV x1) concatenates_S640000_S10000_S650000_d0
    (ix1 (inE e)) rfl (ix1 e) (fun b => match b with | ⟨0, _⟩ => rfl)).trans (edgeNormV_apply x1 hin e)

/-- The update of node `d`'s self loop is its weight. -/
theorem updV_node (x1 : IVec S2x640000 32) (d : Fin 10000) : updV x1 (ix1 (inN d)) = selfW x1 d := by
  unfold updV
  refine (concatenate_pair_apply_right (0 : Fin 1) (edgeNormV x1) (selfNormV x1) concatenates_S640000_S10000_S650000_d0
    (ix1 (inN d)) rfl rfl (ix1 d) (fun b hb => absurd (Subsingleton.elim _ _) hb) ?_).trans (selfNormV_apply x1 d)
  show d.val + 640000 = 640000 + d.val
  omega

/-- The row index of update `v` is the wrapped destination-or-node word. -/
theorem pairsV_row (x1 : IVec S2x640000 32) (v : Fin 650000) :
    pairsV x1 (ix2 v (0 : Fin 2)) = wrapU (withIota (dstV x1)) (ix1 v) := by
  unfold pairsV
  refine (concatenate_pair_apply_left (s₁ := S650000x1) (s₂ := S650000x1) (1 : Fin 2) _ _
    concatenates_S650000x1_S650000x1_S650000x2_d1 (ix2 v (0 : Fin 2)) rfl
    (ix2 v (0 : Fin 1)) (fun b => match b with | ⟨0, _⟩ => rfl | ⟨1, _⟩ => rfl)).trans ?_
  exact col_apply _ _ v 0

/-- The column index of update `v` is the wrapped source-or-node word. -/
theorem pairsV_col (x1 : IVec S2x640000 32) (v : Fin 650000) :
    pairsV x1 (ix2 v (1 : Fin 2)) = wrapU (withIota (srcV x1)) (ix1 v) := by
  unfold pairsV
  refine (concatenate_pair_apply_right (s₁ := S650000x1) (s₂ := S650000x1) (1 : Fin 2) _ _
    concatenates_S650000x1_S650000x1_S650000x2_d1 (ix2 v (1 : Fin 2)) rfl rfl
    (ix2 v (0 : Fin 1)) (fun b hb => ?_) rfl).trans ?_
  · match b with
    | ⟨0, _⟩ => rfl
    | ⟨1, _⟩ => exact absurd rfl hb
  · exact col_apply _ _ v 0

/-! ## The adjacency read at an element -/

/-- The adjacency stage at `(n, s)` is the specification's dense normalised adjacency, when every edge word names a node. -/
theorem adjV_apply (x1 : IVec S2x640000 32) (hin : ∀ i, 0 ≤ (x1 i).toInt ∧ (x1 i).toInt < 10000) (n s : Fin 10000) :
    adjV x1 (ix2 n s) = adj x1 n s := by
  unfold adjV adj
  rw [truncf_apply, hostScatterAdd_eq, scatterAdd_pairs_apply _ rfl rfl rfl rfl, bcast_const, Ideal.ofBits_zero_f32, zero_add, Finset.sum_filter, sum_split]
  refine congrArg₂ (· + ·) ?_ ?_
  · rw [Finset.sum_filter]
    refine Finset.sum_congr rfl fun e _ => ?_
    rw [pairsV_row, pairsV_col, idx_edge _ e (by rw [dstV_apply]; exact (hin _).1),
      idx_edge _ e (by rw [srcV_apply]; exact (hin _).1), updV_edge x1 hin e, dstV_apply, srcV_apply]
    exact if_congr (and_congr (word_eq_iff (hin _).1 (hin _).2 n) (word_eq_iff (hin _).1 (hin _).2 s)) rfl rfl
  · rw [← self_sum (selfW x1) n s]
    refine Finset.sum_congr rfl fun d _ => ?_
    rw [pairsV_row, pairsV_col, idx_node, idx_node, updV_node, toInt_nodeWord]
    exact if_congr (and_congr (natCast_eq_iff d n) (natCast_eq_iff d s)) rfl rfl

/-! ## The host code cut into five stretches, and the buffers after each -/

section Stretches
variable {F : FTy → Type} [FloatOps F]

/-- Operations 1–14: the edge words, the degrees, the normaliser. -/
abbrev opsA1 : List (HloOp τ sig (Elt F)) :=
  [ StableHlo.TRef.unary (.of main_arg1 : StableHlo.TRef sig ⟨S2x640000, .i32⟩) (.of main_call0_v0 : StableHlo.TRef sig ⟨S1x640000, .i32⟩) (extractStridedSlice S1x640000 ![0, 0] · slices_S2x640000_S1x640000_0_0),
    StableHlo.TRef.reshape (.of main_call0_v0 : StableHlo.TRef sig ⟨S1x640000, .i32⟩) (.of main_call0_v1 : StableHlo.TRef sig ⟨S640000, .i32⟩) rfl shapeCasts_S1x640000_S640000,
    StableHlo.TRef.unary (.of main_arg1 : StableHlo.TRef sig ⟨S2x640000, .i32⟩) (.of main_call0_v2 : StableHlo.TRef sig ⟨S1x640000, .i32⟩) (extractStridedSlice S1x640000 ![1, 0] · slices_S2x640000_S1x640000_1_0),
    StableHlo.TRef.reshape (.of main_call0_v2 : StableHlo.TRef sig ⟨S1x640000, .i32⟩) (.of main_call0_v3 : StableHlo.TRef sig ⟨S640000, .i32⟩) rfl shapeCasts_S1x640000_S640000,
    StableHlo.TRef.nullary (.of main_call0_cst : StableHlo.TRef sig ⟨S_, .f32⟩) (constant S_ .f32 0x3F800000#32),
    StableHlo.TRef.unary (.of main_call0_cst : StableHlo.TRef sig ⟨S_, .f32⟩) (.of main_call0_v4 : StableHlo.TRef sig ⟨S640000, .f32⟩) (broadcastInDim S640000 ![] bcast_S_S640000),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v5 : StableHlo.TRef sig ⟨S10000, .f32⟩) (broadcastInDim S10000 ![] bcast_S_S10000),
    StableHlo.TRef.unary (.of main_call0_v3 : StableHlo.TRef sig ⟨S640000, .i32⟩) (.of main_call0_v6 : StableHlo.TRef sig ⟨S640000x1, .i32⟩) (broadcastInDim S640000x1 ![0] bcast_S640000_S640000x1_0),
    StableHlo.TRef.ternary (.of main_call0_v5 : StableHlo.TRef sig ⟨S10000, .f32⟩) (.of main_call0_v6 : StableHlo.TRef sig ⟨S640000x1, .i32⟩) (.of main_call0_v4 : StableHlo.TRef sig ⟨S640000, .f32⟩) (.of main_call0_v7 : StableHlo.TRef sig ⟨S10000, .f32⟩) (fun x i u => Host.scatterAdd scatter_S10000_S640000x1_S640000_n_0_0_1 x i u),
    StableHlo.TRef.nullary (.of main_call0_cst_1 : StableHlo.TRef sig ⟨S_, .f32⟩) (constant S_ .f32 0x3F800000#32),
    StableHlo.TRef.unary (.of main_call0_cst_1 : StableHlo.TRef sig ⟨S_, .f32⟩) (.of main_call0_v8 : StableHlo.TRef sig ⟨S10000, .f32⟩) (broadcastInDim S10000 ![] bcast_S_S10000),
    StableHlo.TRef.binary (.of main_call0_v7 : StableHlo.TRef sig ⟨S10000, .f32⟩) (.of main_call0_v8 : StableHlo.TRef sig ⟨S10000, .f32⟩) (.of main_call0_v9 : StableHlo.TRef sig ⟨S10000, .f32⟩) addf,
    StableHlo.TRef.unary (.of main_call0_v9 : StableHlo.TRef sig ⟨S10000, .f32⟩) (.of main_call0_v10 : StableHlo.TRef sig ⟨S10000, .f32⟩) Host.rsqrt ]

/-- Operations 15–35: the wrapped words, the two gathers, the weights, the node numbers. -/
abbrev opsA2 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v11 : StableHlo.TRef sig ⟨S640000, .i32⟩) (broadcastInDim S640000 ![] bcast_S_S640000),
    StableHlo.TRef.binary (.of main_call0_v1 : StableHlo.TRef sig ⟨S640000, .i32⟩) (.of main_call0_v11 : StableHlo.TRef sig ⟨S640000, .i32⟩) (.of main_call0_v12 : StableHlo.TRef sig ⟨S640000, .i1⟩) (cmpi .slt),
    StableHlo.TRef.nullary (.of main_call0_c_2 : StableHlo.TRef sig ⟨S_, .i32⟩) (constantI S_ 32 10000#32),
    StableHlo.TRef.unary (.of main_call0_c_2 : StableHlo.TRef sig ⟨S_, .i32⟩) (.of main_call0_v13 : StableHlo.TRef sig ⟨S640000, .i32⟩) (broadcastInDim S640000 ![] bcast_S_S640000),
    StableHlo.TRef.binary (.of main_call0_v1 : StableHlo.TRef sig ⟨S640000, .i32⟩) (.of main_call0_v13 : StableHlo.TRef sig ⟨S640000, .i32⟩) (.of main_call0_v14 : StableHlo.TRef sig ⟨S640000, .i32⟩) addi,
    StableHlo.TRef.ternary (.of main_call0_v12 : StableHlo.TRef sig ⟨S640000, .i1⟩) (.of main_call0_v14 : StableHlo.TRef sig ⟨S640000, .i32⟩) (.of main_call0_v1 : StableHlo.TRef sig ⟨S640000, .i32⟩) (.of main_call0_v15 : StableHlo.TRef sig ⟨S640000, .i32⟩) select,
    StableHlo.TRef.unary (.of main_call0_v15 : StableHlo.TRef sig ⟨S640000, .i32⟩) (.of main_call0_v16 : StableHlo.TRef sig ⟨S640000x1, .i32⟩) (broadcastInDim S640000x1 ![0] bcast_S640000_S640000x1_0),
    StableHlo.TRef.binary (.of main_call0_v10 : StableHlo.TRef sig ⟨S10000, .f32⟩) (.of main_call0_v16 : StableHlo.TRef sig ⟨S640000x1, .i32⟩) (.of main_call0_v17 : StableHlo.TRef sig ⟨S640000, .f32⟩) (fun x i => Host.gather gather_S10000_S640000x1_S640000_n_0_n_n_0_1_1 x i),
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v18 : StableHlo.TRef sig ⟨S640000, .i32⟩) (broadcastInDim S640000 ![] bcast_S_S640000),
    StableHlo.TRef.binary (.of main_call0_v3 : StableHlo.TRef sig ⟨S640000, .i32⟩) (.of main_call0_v18 : StableHlo.TRef sig ⟨S640000, .i32⟩) (.of main_call0_v19 : StableHlo.TRef sig ⟨S640000, .i1⟩) (cmpi .slt),
    StableHlo.TRef.nullary (.of main_call0_c_4 : StableHlo.TRef sig ⟨S_, .i32⟩) (constantI S_ 32 10000#32),
    StableHlo.TRef.unary (.of main_call0_c_4 : StableHlo.TRef sig ⟨S_, .i32⟩) (.of main_call0_v20 : StableHlo.TRef sig ⟨S640000, .i32⟩) (broadcastInDim S640000 ![] bcast_S_S640000),
    StableHlo.TRef.binary (.of main_call0_v3 : StableHlo.TRef sig ⟨S640000, .i32⟩) (.of main_call0_v20 : StableHlo.TRef sig ⟨S640000, .i32⟩) (.of main_call0_v21 : StableHlo.TRef sig ⟨S640000, .i32⟩) addi,
    StableHlo.TRef.ternary (.of main_call0_v19 : StableHlo.TRef sig ⟨S640000, .i1⟩) (.of main_call0_v21 : StableHlo.TRef sig ⟨S640000, .i32⟩) (.of main_call0_v3 : StableHlo.TRef sig ⟨S640000, .i32⟩) (.of main_call0_v22 : StableHlo.TRef sig ⟨S640000, .i32⟩) select,
    StableHlo.TRef.unary (.of main_call0_v22 : StableHlo.TRef sig ⟨S640000, .i32⟩) (.of main_call0_v23 : StableHlo.TRef sig ⟨S640000x1, .i32⟩) (broadcastInDim S640000x1 ![0] bcast_S640000_S640000x1_0),
    StableHlo.TRef.binary (.of main_call0_v10 : StableHlo.TRef sig ⟨S10000, .f32⟩) (.of main_call0_v23 : StableHlo.TRef sig ⟨S640000x1, .i32⟩) (.of main_call0_v24 : StableHlo.TRef sig ⟨S640000, .f32⟩) (fun x i => Host.gather gather_S10000_S640000x1_S640000_n_0_n_n_0_1_1 x i),
    StableHlo.TRef.binary (.of main_call0_v17 : StableHlo.TRef sig ⟨S640000, .f32⟩) (.of main_call0_v24 : StableHlo.TRef sig ⟨S640000, .f32⟩) (.of main_call0_v25 : StableHlo.TRef sig ⟨S640000, .f32⟩) mulf,
    StableHlo.TRef.binary (.of main_call0_v10 : StableHlo.TRef sig ⟨S10000, .f32⟩) (.of main_call0_v10 : StableHlo.TRef sig ⟨S10000, .f32⟩) (.of main_call0_v26 : StableHlo.TRef sig ⟨S10000, .f32⟩) mulf,
    StableHlo.TRef.nullary (.of main_call0_v27 : StableHlo.TRef sig ⟨S10000, .i32⟩) (iotaInDim S10000 32 0) ]

/-- Operations 36–38: the three concatenations. -/
abbrev opsB : List (HloOp τ sig (Elt F)) :=
  [ StableHlo.TRef.binary (.of main_call0_v3 : StableHlo.TRef sig ⟨S640000, .i32⟩) (.of main_call0_v27 : StableHlo.TRef sig ⟨S10000, .i32⟩) (.of main_call0_v28 : StableHlo.TRef sig ⟨S650000, .i32⟩) (fun a b => concatenate S650000 0 [⟨S640000, a⟩, ⟨S10000, b⟩] concatenates_S640000_S10000_S650000_d0),
    StableHlo.TRef.binary (.of main_call0_v1 : StableHlo.TRef sig ⟨S640000, .i32⟩) (.of main_call0_v27 : StableHlo.TRef sig ⟨S10000, .i32⟩) (.of main_call0_v29 : StableHlo.TRef sig ⟨S650000, .i32⟩) (fun a b => concatenate S650000 0 [⟨S640000, a⟩, ⟨S10000, b⟩] concatenates_S640000_S10000_S650000_d0),
    StableHlo.TRef.binary (.of main_call0_v25 : StableHlo.TRef sig ⟨S640000, .f32⟩) (.of main_call0_v26 : StableHlo.TRef sig ⟨S10000, .f32⟩) (.of main_call0_v30 : StableHlo.TRef sig ⟨S650000, .f32⟩) (fun a b => concatenate S650000 0 [⟨S640000, a⟩, ⟨S10000, b⟩] concatenates_S640000_S10000_S650000_d0) ]

/-- Operations 39–56: the zero matrix, the wrapped index columns. -/
abbrev opsC : List (HloOp τ sig (Elt F)) :=
  [ StableHlo.TRef.nullary (.of main_call0_cst_5 : StableHlo.TRef sig ⟨S_, .f32⟩) (constant S_ .f32 0x00000000#32),
    StableHlo.TRef.unary (.of main_call0_cst_5 : StableHlo.TRef sig ⟨S_, .f32⟩) (.of main_call0_v31 : StableHlo.TRef sig ⟨S10000x10000, .f32⟩) (broadcastInDim S10000x10000 ![] bcast_S_S10000x10000),
    StableHlo.TRef.nullary (.of main_call0_c_6 : StableHlo.TRef sig ⟨S_, .i32⟩) (constantI S_ 32 0#32),
    StableHlo.TRef.unary (.of main_call0_c_6 : StableHlo.TRef sig ⟨S_, .i32⟩) (.of main_call0_v32 : StableHlo.TRef sig ⟨S650000, .i32⟩) (broadcastInDim S650000 ![] bcast_S_S650000),
    StableHlo.TRef.binary (.of main_call0_v28 : StableHlo.TRef sig ⟨S650000, .i32⟩) (.of main_call0_v32 : StableHlo.TRef sig ⟨S650000, .i32⟩) (.of main_call0_v33 : StableHlo.TRef sig ⟨S650000, .i1⟩) (cmpi .slt),
    StableHlo.TRef.nullary (.of main_call0_c_7 : StableHlo.TRef sig ⟨S_, .i32⟩) (constantI S_ 32 10000#32),
    StableHlo.TRef.unary (.of main_call0_c_7 : StableHlo.TRef sig ⟨S_, .i32⟩) (.of main_call0_v34 : StableHlo.TRef sig ⟨S650000, .i32⟩) (broadcastInDim S650000 ![] bcast_S_S650000),
    StableHlo.TRef.binary (.of main_call0_v28 : StableHlo.TRef sig ⟨S650000, .i32⟩) (.of main_call0_v34 : StableHlo.TRef sig ⟨S650000, .i32⟩) (.of main_call0_v35 : StableHlo.TRef sig ⟨S650000, .i32⟩) addi,
    StableHlo.TRef.ternary (.of main_call0_v33 : StableHlo.TRef sig ⟨S650000, .i1⟩) (.of main_call0_v35 : StableHlo.TRef sig ⟨S650000, .i32⟩) (.of main_call0_v28 : StableHlo.TRef sig ⟨S650000, .i32⟩) (.of main_call0_v36 : StableHlo.TRef sig ⟨S650000, .i32⟩) select,
    StableHlo.TRef.nullary (.of main_call0_c_8 : StableHlo.TRef sig ⟨S_, .i32⟩) (constantI S_ 32 0#32),
    StableHlo.TRef.unary (.of main_call0_c_8 : StableHlo.TRef sig ⟨S_, .i32⟩) (.of main_call0_v37 : StableHlo.TRef sig ⟨S650000, .i32⟩) (broadcastInDim S650000 ![] bcast_S_S650000),
    StableHlo.TRef.binary (.of main_call0_v29 : StableHlo.TRef sig ⟨S650000, .i32⟩) (.of main_call0_v37 : StableHlo.TRef sig ⟨S650000, .i32⟩) (.of main_call0_v38 : StableHlo.TRef sig ⟨S650000, .i1⟩) (cmpi .slt),
    StableHlo.TRef.nullary (.of main_call0_c_9 : StableHlo.TRef sig ⟨S_, .i32⟩) (constantI S_ 32 10000#32),
    StableHlo.TRef.unary (.of main_call0_c_9 : StableHlo.TRef sig ⟨S_, .i32⟩) (.of main_call0_v39 : StableHlo.TRef sig ⟨S650000, .i32⟩) (broadcastInDim S650000 ![] bcast_S_S650000),
    StableHlo.TRef.binary (.of main_call0_v29 : StableHlo.TRef sig ⟨S650000, .i32⟩) (.of main_call0_v39 : StableHlo.TRef sig ⟨S650000, .i32⟩) (.of main_call0_v40 : StableHlo.TRef sig ⟨S650000, .i32⟩) addi,
    StableHlo.TRef.ternary (.of main_call0_v38 : StableHlo.TRef sig ⟨S650000, .i1⟩) (.of main_call0_v40 : StableHlo.TRef sig ⟨S650000, .i32⟩) (.of main_call0_v29 : StableHlo.TRef sig ⟨S650000, .i32⟩) (.of main_call0_v41 : StableHlo.TRef sig ⟨S650000, .i32⟩) select,
    StableHlo.TRef.unary (.of main_call0_v36 : StableHlo.TRef sig ⟨S650000, .i32⟩) (.of main_call0_v42 : StableHlo.TRef sig ⟨S650000x1, .i32⟩) (broadcastInDim S650000x1 ![0] bcast_S650000_S650000x1_0),
    StableHlo.TRef.unary (.of main_call0_v41 : StableHlo.TRef sig ⟨S650000, .i32⟩) (.of main_call0_v43 : StableHlo.TRef sig ⟨S650000x1, .i32⟩) (broadcastInDim S650000x1 ![0] bcast_S650000_S650000x1_0) ]

/-- Operations 57–62: the index pairs, the scatter, the narrowing casts. -/
abbrev opsD : List (HloOp τ sig (Elt F)) :=
  [ StableHlo.TRef.binary (.of main_call0_v42 : StableHlo.TRef sig ⟨S650000x1, .i32⟩) (.of main_call0_v43 : StableHlo.TRef sig ⟨S650000x1, .i32⟩) (.of main_call0_v44 : StableHlo.TRef sig ⟨S650000x2, .i32⟩) (fun a b => concatenate S650000x2 1 [⟨S650000x1, a⟩, ⟨S650000x1, b⟩] concatenates_S650000x1_S650000x1_S650000x2_d1),
    StableHlo.TRef.ternary (.of main_call0_v31 : StableHlo.TRef sig ⟨S10000x10000, .f32⟩) (.of main_call0_v44 : StableHlo.TRef sig ⟨S650000x2, .i32⟩) (.of main_call0_v30 : StableHlo.TRef sig ⟨S650000, .f32⟩) (.of main_call0_v45 : StableHlo.TRef sig ⟨S10000x10000, .f32⟩) (fun x i u => Host.scatterAdd scatter_S10000x10000_S650000x2_S650000_n_01_01_1 x i u),
    StableHlo.TRef.unary (.of main_call0_v45 : StableHlo.TRef sig ⟨S10000x10000, .f32⟩) (.of main_call0_v46 : StableHlo.TRef sig ⟨S10000x10000, .bf16⟩) (truncf .bf16 · bitsLt_bf16_f32),
    StableHlo.TRef.unary (.of main_arg0 : StableHlo.TRef sig ⟨S10000x128, .f32⟩) (.of main_call0_v47 : StableHlo.TRef sig ⟨S10000x128, .bf16⟩) (truncf .bf16 · bitsLt_bf16_f32),
    StableHlo.TRef.unary (.of main_arg2 : StableHlo.TRef sig ⟨S128x128, .f32⟩) (.of main_call0_v48 : StableHlo.TRef sig ⟨S128x128, .bf16⟩) (truncf .bf16 · bitsLt_bf16_f32),
    StableHlo.TRef.reshape (.of main_arg3 : StableHlo.TRef sig ⟨S128, .f32⟩) (.of main_call0_v49 : StableHlo.TRef sig ⟨S1x128, .f32⟩) rfl shapeCasts_S128_S1x128 ]

/-- The host code is the five stretches in order. -/
theorem hostOps0_eq : (hostOps0 : List (HloOp τ sig (Elt F))) = opsA1 ++ (opsA2 ++ (opsB ++ (opsC ++ opsD))) := rfl

end Stretches

/-- The buffers after the first stretch. -/
def WA1 (c : Dev nD) : Valuation τ sig (Elt Ideal) := StableHlo.after opsA1 (W0 m ρ c)
/-- The buffers after the second stretch. -/
def WA2 (c : Dev nD) : Valuation τ sig (Elt Ideal) := StableHlo.after opsA2 (WA1 m ρ c)
/-- The buffers after the third stretch. -/
def WB (c : Dev nD) : Valuation τ sig (Elt Ideal) := StableHlo.after opsB (WA2 m ρ c)
/-- The buffers after the fourth stretch. -/
def WC (c : Dev nD) : Valuation τ sig (Elt Ideal) := StableHlo.after opsC (WB m ρ c)

/-- The buffers at region 0's entry are the fifth stretch run from the fourth's. -/
theorem W1_eq (c : Dev nD) : W1 m ρ c = StableHlo.after opsD (WC m ρ c) := by
  show StableHlo.after hostOps0 (W0 m ρ c) = _
  rw [hostOps0_eq, StableHlo.after_append, StableHlo.after_append, StableHlo.after_append, StableHlo.after_append]
  rfl

/-- After the first stretch: the source words. -/
theorem WA1_v1 (c : Dev nD) :
    (WA1 m ρ c (Proc.devRef .tc main_call0_v1) : IVec S640000 32) = srcV (m ((c : Thread nD τ).loc main_arg1)) := by
  show StableHlo.after opsA1 (W0 m ρ c) (Proc.devRef .tc main_call0_v1) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  try simp only [TRef.ofBuf_toBuf, TRef.toBuf_ofBuf]
  unfold srcV
  rfl

/-- After the first stretch: the destination words. -/
theorem WA1_v3 (c : Dev nD) :
    (WA1 m ρ c (Proc.devRef .tc main_call0_v3) : IVec S640000 32) = dstV (m ((c : Thread nD τ).loc main_arg1)) := by
  show StableHlo.after opsA1 (W0 m ρ c) (Proc.devRef .tc main_call0_v3) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  try simp only [TRef.ofBuf_toBuf, TRef.toBuf_ofBuf]
  unfold dstV
  rfl

/-- After the first stretch: the normaliser. -/
theorem WA1_v10 (c : Dev nD) :
    (WA1 m ρ c (Proc.devRef .tc main_call0_v10) : FVec Ideal S10000 .f32) = disV (m ((c : Thread nD τ).loc main_arg1)) := by
  show StableHlo.after opsA1 (W0 m ρ c) (Proc.devRef .tc main_call0_v10) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  try simp only [TRef.ofBuf_toBuf, TRef.toBuf_ofBuf]
  unfold disV degV dstV
  rfl

/-- After the second stretch: the source words, untouched. -/
theorem WA2_v1 (c : Dev nD) :
    (WA2 m ρ c (Proc.devRef .tc main_call0_v1) : IVec S640000 32) = srcV (m ((c : Thread nD τ).loc main_arg1)) := by
  show StableHlo.after opsA2 (WA1 m ρ c) (Proc.devRef .tc main_call0_v1) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  exact WA1_v1 m ρ c

/-- After the second stretch: the destination words, untouched. -/
theorem WA2_v3 (c : Dev nD) :
    (WA2 m ρ c (Proc.devRef .tc main_call0_v3) : IVec S640000 32) = dstV (m ((c : Thread nD τ).loc main_arg1)) := by
  show StableHlo.after opsA2 (WA1 m ρ c) (Proc.devRef .tc main_call0_v3) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  exact WA1_v3 m ρ c

/-- After the second stretch: the edge weights. -/
theorem WA2_v25 (c : Dev nD) :
    (WA2 m ρ c (Proc.devRef .tc main_call0_v25) : FVec Ideal S640000 .f32) = edgeNormV (m ((c : Thread nD τ).loc main_arg1)) := by
  show StableHlo.after opsA2 (WA1 m ρ c) (Proc.devRef .tc main_call0_v25) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WA1_v1, WA1_v3, WA1_v10]
  try simp only [TRef.ofBuf_toBuf, TRef.toBuf_ofBuf]
  try simp only [TRef.ofBuf, TRef.toBuf, cast_eq]
  unfold edgeNormV takeV wrapE
  rfl

/-- After the second stretch: the self-loop weights. -/
theorem WA2_v26 (c : Dev nD) :
    (WA2 m ρ c (Proc.devRef .tc main_call0_v26) : FVec Ideal S10000 .f32) = selfNormV (m ((c : Thread nD τ).loc main_arg1)) := by
  show StableHlo.after opsA2 (WA1 m ρ c) (Proc.devRef .tc main_call0_v26) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WA1_v10]
  try simp only [TRef.ofBuf_toBuf, TRef.toBuf_ofBuf]
  unfold selfNormV
  rfl

/-- After the second stretch: the node numbers. -/
theorem WA2_v27 (c : Dev nD) :
    (WA2 m ρ c (Proc.devRef .tc main_call0_v27) : IVec S10000 32) = iotaInDim S10000 32 0 := by
  show StableHlo.after opsA2 (WA1 m ρ c) (Proc.devRef .tc main_call0_v27) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  try simp only [TRef.ofBuf_toBuf, TRef.toBuf_ofBuf]
  rfl

/-- After the third stretch: destination words, then node numbers. -/
theorem WB_v28 (c : Dev nD) :
    (WB m ρ c (Proc.devRef .tc main_call0_v28) : IVec S650000 32) = withIota (dstV (m ((c : Thread nD τ).loc main_arg1))) := by
  show StableHlo.after opsB (WA2 m ρ c) (Proc.devRef .tc main_call0_v28) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WA2_v3, WA2_v27]
  try simp only [TRef.ofBuf_toBuf, TRef.toBuf_ofBuf]
  unfold withIota concat2
  rfl

/-- After the third stretch: source words, then node numbers. -/
theorem WB_v29 (c : Dev nD) :
    (WB m ρ c (Proc.devRef .tc main_call0_v29) : IVec S650000 32) = withIota (srcV (m ((c : Thread nD τ).loc main_arg1))) := by
  show StableHlo.after opsB (WA2 m ρ c) (Proc.devRef .tc main_call0_v29) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WA2_v1, WA2_v27]
  try simp only [TRef.ofBuf_toBuf, TRef.toBuf_ofBuf]
  unfold withIota concat2
  rfl

/-- After the third stretch: the updates. -/
theorem WB_v30 (c : Dev nD) :
    (WB m ρ c (Proc.devRef .tc main_call0_v30) : FVec Ideal S650000 .f32) = updV (m ((c : Thread nD τ).loc main_arg1)) := by
  show StableHlo.after opsB (WA2 m ρ c) (Proc.devRef .tc main_call0_v30) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WA2_v25, WA2_v26]
  try simp only [TRef.ofBuf_toBuf, TRef.toBuf_ofBuf]
  unfold updV concat2
  rfl

/-- After the fourth stretch: the updates, untouched. -/
theorem WC_v30 (c : Dev nD) :
    (WC m ρ c (Proc.devRef .tc main_call0_v30) : FVec Ideal S650000 .f32) = updV (m ((c : Thread nD τ).loc main_arg1)) := by
  show StableHlo.after opsC (WB m ρ c) (Proc.devRef .tc main_call0_v30) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  exact WB_v30 m ρ c

/-- After the fourth stretch: the zero matrix. -/
theorem WC_v31 (c : Dev nD) :
    (WC m ρ c (Proc.devRef .tc main_call0_v31) : FVec Ideal S10000x10000 .f32) = broadcastInDim S10000x10000 ![] bcast_S_S10000x10000 (constant (F := Ideal) S_ .f32 0x00000000#32) := by
  show StableHlo.after opsC (WB m ρ c) (Proc.devRef .tc main_call0_v31) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  try simp only [TRef.ofBuf_toBuf, TRef.toBuf_ofBuf]
  rfl

/-- After the fourth stretch: the row-index column. -/
theorem WC_v42 (c : Dev nD) :
    (WC m ρ c (Proc.devRef .tc main_call0_v42) : IVec S650000x1 32) = broadcastInDim S650000x1 ![0] bcast_S650000_S650000x1_0 (wrapU (withIota (dstV (m ((c : Thread nD τ).loc main_arg1))))) := by
  show StableHlo.after opsC (WB m ρ c) (Proc.devRef .tc main_call0_v42) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WB_v28]
  try simp only [TRef.ofBuf_toBuf, TRef.toBuf_ofBuf]
  unfold wrapU
  rfl

/-- After the fourth stretch: the column-index column. -/
theorem WC_v43 (c : Dev nD) :
    (WC m ρ c (Proc.devRef .tc main_call0_v43) : IVec S650000x1 32) = broadcastInDim S650000x1 ![0] bcast_S650000_S650000x1_0 (wrapU (withIota (srcV (m ((c : Thread nD τ).loc main_arg1))))) := by
  show StableHlo.after opsC (WB m ρ c) (Proc.devRef .tc main_call0_v43) = _
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WB_v29]
  try simp only [TRef.ofBuf_toBuf, TRef.toBuf_ofBuf]
  unfold wrapU
  rfl

/-- The adjacency buffer at region 0's entry is the staged term over the launch's edge table. -/
theorem V1_adj_eq (c : Dev nD) :
    (V1 m ρ c main_call0_v46 : S10000x10000.Idx → EReal) = adjV (m ((c : Thread nD τ).loc main_arg1)) := by
  show W1 m ρ c (Proc.devRef .tc main_call0_v46) = _
  rw [W1_eq]
  simp (disch := decide) only [after_cons, after_nil,
      nullary_result', unary_result', binary_result', ternary_result', quaternary_result', reshape_result',
      nullary_result_ne', unary_result_ne', binary_result_ne', ternary_result_ne', quaternary_result_ne', reshape_result_ne',
      concat2_def]
  rw [WC_v30, WC_v31, WC_v42, WC_v43]
  try simp only [TRef.ofBuf_toBuf, TRef.toBuf_ofBuf]
  unfold adjV pairsV concat2
  rfl

/-- The adjacency the host code hands region 0, at `(n, s)`, is the specification's dense normalised adjacency of the
    launch's edge table, when every edge word names a node. -/
theorem V1_adj (c : Dev nD)
    (hin : ∀ i, 0 ≤ (m ((c : Thread nD τ).loc main_arg1) i).toInt ∧ (m ((c : Thread nD τ).loc main_arg1) i).toInt < 10000)
    (n s : Fin 10000) :
    V1 m ρ c main_call0_v46 (ix2 n s) = adj (m ((c : Thread nD τ).loc main_arg1)) n s :=
  (congrFun (V1_adj_eq m ρ c) (ix2 n s)).trans (adjV_apply (m ((c : Thread nD τ).loc main_arg1)) hin n s)

end Cert.KernelIdeal.HostValue

end
-- ==== Proof.KernelHost.lean ====
/-
  The kernel program's buffer contents at the boundaries between its host stretches and its two regions, read back
  to the launch memory: the first region's feature, weight and bias inputs are the arguments themselves; the second
  region reads the adjacency unchanged, the first region's output, and the two heads' weights and biases laid side by
  side; the program's two results are the two column halves of the second region's output.
-/
import proofs.«419644_j5583457485490_3_alg».proof.Proof.Gen.KernelIdeal.Frame
import Idealize.ShloMosaic.Lib.Pipeline.Value
import Idealize.ShloMosaic.Lib.Pipeline.Cells
import Idealize.ShloMosaic.Lib.ValueIdx
import Idealize.ShloMosaic.Lib.ValueLayout
import Idealize.ShloMosaic.Lib.StableHlo.Run

set_option maxRecDepth 16384

noncomputable section

namespace Cert.KernelIdeal.HostValue'

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-! ### The first region's inputs -/

/-- The features, cast to the narrower format (no change at the extended reals). -/
theorem V1_x (c : Dev nD) : V1 m ρ c main_call0_v47 = m ((c : Thread nD τ).loc main_arg0) := by
  show StableHlo.after hostOps0 (W0 m ρ c) (Proc.devRef .tc main_call0_v47) = _
  after_results_simp <;> rfl

/-- The first weight matrix, cast likewise. -/
theorem V1_W1 (c : Dev nD) : V1 m ρ c main_call0_v48 = m ((c : Thread nD τ).loc main_arg2) := by
  show StableHlo.after hostOps0 (W0 m ρ c) (Proc.devRef .tc main_call0_v48) = _
  after_results_simp <;> rfl

/-- The bias row: the bias vector with a unit axis put in front. -/
theorem V1_b1 (c : Dev nD) (j : Fin 128) :
    V1 m ρ c main_call0_v49 (ix2 (0 : Fin 1) j) = m ((c : Thread nD τ).loc main_arg3) (ix1 j) := by
  have e : (V1 m ρ c main_call0_v49 : S1x128.Idx → EReal)
      = shapeCast S1x128 (m ((c : Thread nD τ).loc main_arg3) : S128.Idx → EReal) shapeCasts_S128_S1x128 := by
    show StableHlo.after hostOps0 (W0 m ρ c) (Proc.devRef .tc main_call0_v49) = _
    after_results_simp <;> rfl
  refine (congrFun e (ix2 (0 : Fin 1) j)).trans ?_
  exact shapeCast_a_1a_apply _ _ (0 : Fin 1) j

/-! ### Walking a buffer back through a host stretch that does not write it -/

/-- The side condition of walking back: no operation of the stretch writes the buffer. -/
local macro "not_written" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### The second region's inputs -/

/-- The adjacency enters the second region as it entered the first: the first region only reads it and the
    stretch between the regions does not write it. -/
theorem V3_adj (c : Dev nD) : V3 m ρ c main_call0_v46 = V1 m ρ c main_call0_v46 :=
  calc V3 m ρ c main_call0_v46
    _ = W2 m ρ c (Proc.devRef .tc main_call0_v46) :=
        StableHlo.after_of_forall_not_mem (b := Proc.devRef .tc main_call0_v46) _ _ (by not_written hostOps1)
    _ = (dat0 (V1 m ρ) c).arrAt 0 cfg0.N := W2_arr m ρ c 0
    _ = (dat0 (V1 m ρ) c).A 0 := Pipeline.Dat.arrAt_in (dat0 (V1 m ρ) c) 0 rfl cfg0.N
    _ = V1 m ρ c main_call0_v46 := A_eq0 (V1 m ρ) c 0

/-- The hidden features are what the first region leaves in its output. -/
theorem V3_hid (c : Dev nD) : V3 m ρ c main_call0_v50 = (dat0 (V1 m ρ) c).arrAt 4 cfg0.N :=
  calc V3 m ρ c main_call0_v50
    _ = W2 m ρ c (Proc.devRef .tc main_call0_v50) :=
        StableHlo.after_of_forall_not_mem (b := Proc.devRef .tc main_call0_v50) _ _ (by not_written hostOps1)
    _ = (dat0 (V1 m ρ) c).arrAt 4 cfg0.N := W2_arr m ρ c 4

/-- An argument no operation writes holds its launch contents when the first region exits. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) :=
        StableHlo.after_of_forall_not_mem (b := Proc.devRef .tc main_arg4) _ _ (by not_written hostOps0)
    _ = m ((c : Thread nD τ).loc main_arg4) := rfl
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) :=
        StableHlo.after_of_forall_not_mem (b := Proc.devRef .tc main_arg5) _ _ (by not_written hostOps0)
    _ = m ((c : Thread nD τ).loc main_arg5) := rfl
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) :=
        StableHlo.after_of_forall_not_mem (b := Proc.devRef .tc main_arg6) _ _ (by not_written hostOps0)
    _ = m ((c : Thread nD τ).loc main_arg6) := rfl
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (by not_written hostOps0)
    _ = m ((c : Thread nD τ).loc main_arg7) := rfl

/-- The two heads' weights side by side, as an array. -/
theorem V3_Wcat_eq (c : Dev nD) : (V3 m ρ c main_call0_v53 : S128x128.Idx → EReal)
    = concatenate S128x128 1 [⟨S128x64, (m ((c : Thread nD τ).loc main_arg4) : S128x64.Idx → EReal)⟩,
        ⟨S128x64, (m ((c : Thread nD τ).loc main_arg6) : S128x64.Idx → EReal)⟩] concatenates_S128x64_S128x64_S128x128_d1 := by
  show StableHlo.after hostOps1 (W2 m ρ c) (Proc.devRef .tc main_call0_v53) = _
  after_results
  rw [W2_arg4, W2_arg6]
  rfl

/-- The two heads' weights side by side: column j is column j of the first head's matrix below 64 and column
    j - 64 of the second's from 64 on. -/
theorem V3_Wcat (c : Dev nD) (k j : Fin 128) :
    V3 m ρ c main_call0_v53 (ix2 k j)
      = if h : j.val < 64 then m ((c : Thread nD τ).loc main_arg4) (ix2 k (⟨j.val, h⟩ : Fin 64))
        else m ((c : Thread nD τ).loc main_arg6) (ix2 k (⟨j.val - 64, by omega⟩ : Fin 64)) := by
  refine (congrFun (V3_Wcat_eq m ρ c) (ix2 k j)).trans ?_
  by_cases h : j.val < 64
  · rw [dif_pos h]
    exact concatenate_pair_apply_left (t := S128x128) (s₁ := S128x64) (s₂ := S128x64) (1 : Fin 2) _ _ _ (ix2 k j) rfl
      (ix2 k (⟨j.val, h⟩ : Fin 64))
      (fun b => by match b with | ⟨0, _⟩ => rfl | ⟨1, _⟩ => rfl)
  · rw [dif_neg h]
    exact concatenate_pair_apply_right (t := S128x128) (s₁ := S128x64) (s₂ := S128x64) (1 : Fin 2) _ _ _ (ix2 k j) rfl rfl
      (ix2 k (⟨j.val - 64, by omega⟩ : Fin 64))
      (fun b hb => by match b, hb with | ⟨0, _⟩, _ => rfl | ⟨1, _⟩, hb => exact absurd rfl hb)
      (by show (j.val - 64) + 64 = j.val; omega)

/-- The two heads' biases end to end, with a unit axis in front, as an array. -/
theorem V3_bcat_eq (c : Dev nD) : (V3 m ρ c main_call0_v54 : S1x128.Idx → EReal)
    = shapeCast S1x128 (concatenate S128 0 [⟨S64, (m ((c : Thread nD τ).loc main_arg5) : S64.Idx → EReal)⟩,
        ⟨S64, (m ((c : Thread nD τ).loc main_arg7) : S64.Idx → EReal)⟩] concatenates_S64_S64_S128_d0)
        shapeCasts_S128_S1x128 := by
  show StableHlo.after hostOps1 (W2 m ρ c) (Proc.devRef .tc main_call0_v54) = _
  after_results
  rw [W2_arg5, W2_arg7]
  rfl

/-- The two heads' biases end to end: entry j is entry j of the first head's bias below 64 and entry j - 64 of the
    second's from 64 on. -/
theorem V3_bcat (c : Dev nD) (j : Fin 128) :
    V3 m ρ c main_call0_v54 (ix2 (0 : Fin 1) j)
      = if h : j.val < 64 then m ((c : Thread nD τ).loc main_arg5) (ix1 (⟨j.val, h⟩ : Fin 64))
        else m ((c : Thread nD τ).loc main_arg7) (ix1 (⟨j.val - 64, by omega⟩ : Fin 64)) := by
  refine (congrFun (V3_bcat_eq m ρ c) (ix2 (0 : Fin 1) j)).trans ?_
  refine (shapeCast_a_1a_apply _ _ (0 : Fin 1) j).trans ?_
  by_cases h : j.val < 64
  · rw [dif_pos h]
    exact concatenate_pair_apply_left (t := S128) (s₁ := S64) (s₂ := S64) (0 : Fin 1) _ _ _ (ix1 j) rfl
      (ix1 (⟨j.val, h⟩ : Fin 64))
      (fun b => by match b with | ⟨0, _⟩ => rfl)
  · rw [dif_neg h]
    exact concatenate_pair_apply_right (t := S128) (s₁ := S64) (s₂ := S64) (0 : Fin 1) _ _ _ (ix1 j) rfl rfl
      (ix1 (⟨j.val - 64, by omega⟩ : Fin 64))
      (fun b hb => by match b, hb with | ⟨0, _⟩, hb => exact absurd rfl hb)
      (by show (j.val - 64) + 64 = j.val; omega)

/-! ### The program's results -/

/-- The second region's output array when it exits. -/
theorem W4_out (c : Dev nD) : W4 m ρ c (Proc.devRef .tc main_call0_v55) = (dat1 (V3 m ρ) c).arrAt 4 cfg1.N :=
  W4_arr m ρ c 4

/-- The mean head: columns 0 to 63 of the second region's output. -/
theorem W5_mu (c : Dev nD) (n : Fin 10000) (j : Fin 64) :
    W5 m ρ c (Proc.devRef .tc main_v0_0) (ix2 n j)
      = (dat1 (V3 m ρ) c).arrAt 4 cfg1.N (ix2 n (⟨j.val, by omega⟩ : Fin 128)) := by
  have e : (W5 m ρ c (Proc.devRef .tc main_v0_0) : S10000x64.Idx → EReal)
      = extractStridedSlice S10000x64 ![0, 0] ((dat1 (V3 m ρ) c).arrAt 4 cfg1.N : S10000x128.Idx → EReal)
          slices_S10000x128_S10000x64_0_0 := by
    show StableHlo.after hostOps2 (W4 m ρ c) (Proc.devRef .tc main_v0_0) = _
    after_results
    rw [W4_out]
    rfl
  refine (congrFun e (ix2 n j)).trans ?_
  exact slice2_axis1_apply 0 _ _ n j (⟨j.val, by omega⟩ : Fin 128) (by simp)

/-- The log-deviation head: columns 64 to 127 of the second region's output. -/
theorem W5_ls (c : Dev nD) (n : Fin 10000) (j : Fin 64) :
    W5 m ρ c (Proc.devRef .tc main_v0_1) (ix2 n j)
      = (dat1 (V3 m ρ) c).arrAt 4 cfg1.N (ix2 n (⟨j.val + 64, by omega⟩ : Fin 128)) := by
  have e : (W5 m ρ c (Proc.devRef .tc main_v0_1) : S10000x64.Idx → EReal)
      = extractStridedSlice S10000x64 ![0, 64] ((dat1 (V3 m ρ) c).arrAt 4 cfg1.N : S10000x128.Idx → EReal)
          slices_S10000x128_S10000x64_0_64 := by
    show StableHlo.after hostOps2 (W4 m ρ c) (Proc.devRef .tc main_v0_1) = _
    after_results
    rw [W4_out]
    rfl
  refine (congrFun e (ix2 n j)).trans ?_
  exact slice2_axis1_apply 64 _ _ n j (⟨j.val + 64, by omega⟩ : Fin 128) (by simp; omega)

end Cert.KernelIdeal.HostValue'

end
-- ==== Proof.NetValue.lean ====
/-
  The kernel program's two results as the network over the dense-adjacency layer.

  The program runs two fused regions between stretches of host code. Region 0 leaves, in the hidden-feature array,
  `relu` of its cell over the adjacency, the features, the first weights and the first bias; region 1 leaves, in a
  [10000, 128] array, its cell over the same adjacency, those hidden features and the two heads' weights and biases laid
  side by side, with the softplus on the right half of the columns; the last host stretch cuts that array into its left
  and right halves. Read back through the host stretches to the launch arrays, the left half is `muOf (adjLayer ei)` and
  the right half `lsOf (adjLayer ei)`: a cell over the staged arrays IS the dense-adjacency layer at a weight column.
-/
import proofs.«419644_j5583457485490_3_alg».proof.Proof.RegionValue0
import proofs.«419644_j5583457485490_3_alg».proof.Proof.RegionValue1
import proofs.«419644_j5583457485490_3_alg».proof.Proof.KernelAdj
import proofs.«419644_j5583457485490_3_alg».proof.Proof.KernelHost
import proofs.«419644_j5583457485490_3_alg».proof.Proof.Spec

noncomputable section

namespace Cert.KernelIdeal.NetValue
open Cert.KernelIdeal Cert.KernelIdeal.Gen Idealize.ShloMosaic Idealize.ShloMosaic.ValueIdx Idealize.ShloMosaic.TcCoe Idealize.SL.Sem Cert.Gcn

variable (m : (ℓ : Loc nD τ sig) → Buf (Elt Ideal) ℓ) (ρ : Dev nD → PrngReg)

/-- What the first region leaves in the hidden-feature array: at (s, k) the rectified dense layer of the launch
    arrays — the region's cell over the adjacency, the features, the first weights and bias as the host code staged them. -/
theorem hidden_apply (c : Dev nD) (hin : ∀ i, 0 ≤ (m ((c : Thread nD τ).loc main_arg1) i).toInt ∧ (m ((c : Thread nD τ).loc main_arg1) i).toInt < 10000) (s : Fin 10000) (k : Fin 128) :
    V3 m ρ c main_call0_v50 (ix2 s k) = hid (adjLayer (m ((c : Thread nD τ).loc main_arg1))) (fun s k => m ((c : Thread nD τ).loc main_arg0) (ix2 s k))
          (fun k j' => m ((c : Thread nD τ).loc main_arg2) (ix2 k j')) (fun j' => m ((c : Thread nD τ).loc main_arg3) (ix1 j')) s k := by
  rw [HostValue'.V3_hid m ρ c, RegionValue0.final0]
  unfold cell hid adjLayer
  rw [HostValue'.V1_x m ρ c, HostValue'.V1_W1 m ρ c, HostValue'.V1_b1 m ρ c k]
  simp only [HostValue.V1_adj m ρ c hin]

/-- The mean head: column j < 64 of the second region's output, whose weights and bias are the left halves of the
    concatenated heads and whose columns below 64 skip the softplus. -/
theorem mu_apply (c : Dev nD) (hin : ∀ i, 0 ≤ (m ((c : Thread nD τ).loc main_arg1) i).toInt ∧ (m ((c : Thread nD τ).loc main_arg1) i).toInt < 10000) (n : Fin 10000) (j : Fin 64) :
    W5 m ρ c (Proc.devRef .tc main_v0_0) (ix2 n j) = muOf (adjLayer (m ((c : Thread nD τ).loc main_arg1))) (fun s k => m ((c : Thread nD τ).loc main_arg0) (ix2 s k))
          (fun k j' => m ((c : Thread nD τ).loc main_arg2) (ix2 k j')) (fun j' => m ((c : Thread nD τ).loc main_arg3) (ix1 j'))
          (fun k j' => m ((c : Thread nD τ).loc main_arg4) (ix2 k j')) (fun j' => m ((c : Thread nD τ).loc main_arg5) (ix1 j')) n j := by
  have hj : j.val < 64 := j.isLt
  rw [HostValue'.W5_mu m ρ c, RegionValue1.final1, if_neg (by show ¬ 64 ≤ j.val; omega)]
  unfold cell muOf adjLayer
  rw [HostValue'.V3_adj m ρ c, HostValue'.V3_bcat m ρ c]
  simp only [HostValue.V1_adj m ρ c hin, hidden_apply m ρ c hin, HostValue'.V3_Wcat m ρ c, dif_pos hj]
  rfl

/-- The log-deviation head: column 64 + j of the second region's output, the right halves of the concatenated heads, under
    the softplus. -/
theorem ls_apply (c : Dev nD) (hin : ∀ i, 0 ≤ (m ((c : Thread nD τ).loc main_arg1) i).toInt ∧ (m ((c : Thread nD τ).loc main_arg1) i).toInt < 10000) (n : Fin 10000) (j : Fin 64) :
    W5 m ρ c (Proc.devRef .tc main_v0_1) (ix2 n j) = lsOf (adjLayer (m ((c : Thread nD τ).loc main_arg1))) (fun s k => m ((c : Thread nD τ).loc main_arg0) (ix2 s k))
          (fun k j' => m ((c : Thread nD τ).loc main_arg2) (ix2 k j')) (fun j' => m ((c : Thread nD τ).loc main_arg3) (ix1 j'))
          (fun k j' => m ((c : Thread nD τ).loc main_arg6) (ix2 k j')) (fun j' => m ((c : Thread nD τ).loc main_arg7) (ix1 j')) n j := by
  have hj : ¬ j.val + 64 < 64 := by omega
  have hb : (⟨j.val + 64 - 64, by have := j.isLt; omega⟩ : Fin 64) = j := Fin.ext (Nat.add_sub_cancel _ _)
  rw [HostValue'.W5_ls m ρ c, RegionValue1.final1, if_pos (by show 64 ≤ j.val + 64; omega)]
  unfold cell lsOf adjLayer
  rw [HostValue'.V3_adj m ρ c, HostValue'.V3_bcat m ρ c]
  simp only [HostValue.V1_adj m ρ c hin, hidden_apply m ρ c hin, HostValue'.V3_Wcat m ρ c, dif_neg hj, hb]
  rfl

end Cert.KernelIdeal.NetValue

end
-- ==== Proof.lean ====
/-
  The certificate of the graph-convolution encoder: the fused two-region kernel against its jnp reference.

  Both programs compute, from node features x, an edge table and three weight/bias pairs, the two heads
  mu = conv(relu(conv(x, W1, b1)), W_mu, b_mu) and logstd = softplus(conv(relu(conv(x, W1, b1)), W_ls, b_ls)) of a
  degree-normalised graph convolution with self loops. The reference transforms first and gathers along the edges
  (Spec's `aggLayer`); the kernel aggregates through a dense normalised adjacency built once by a scatter-add and
  transforms afterwards, both heads side by side (`adjLayer`). Where every float entry is real and every edge word
  names a node — the precondition — the two layers are one function: all numbers are reals, and in the reals it is
  distributivity and an exchange of finite sums.

  The frames of the word-level kernel and of its idealization are the generated ones; the reference's frame is its
  generated run; the ideal pass rewrote nothing, so `preserves` is trivial.
-/
import proofs.«419644_j5583457485490_3_alg».proof.Defs
import proofs.«419644_j5583457485490_3_alg».proof.Proof.Gen.Kernel
import proofs.«419644_j5583457485490_3_alg».proof.Proof.Gen.Kernel.Frame
import proofs.«419644_j5583457485490_3_alg».proof.Proof.Gen.KernelIdeal
import proofs.«419644_j5583457485490_3_alg».proof.Proof.Gen.ReferenceIdeal
import proofs.«419644_j5583457485490_3_alg».proof.Proof.Gen.Pre_finite_inputs
import proofs.«419644_j5583457485490_3_alg».proof.Proof.Gen.ReferenceIdeal.Read
import proofs.«419644_j5583457485490_3_alg».proof.Proof.LayerAlgebra
import proofs.«419644_j5583457485490_3_alg».proof.Proof.PreRead
import proofs.«419644_j5583457485490_3_alg».proof.Proof.KernelRun
import proofs.«419644_j5583457485490_3_alg».proof.Proof.RefRead
import proofs.«419644_j5583457485490_3_alg».proof.Proof.NetValue
import Idealize.ShloMosaic.Adequacy
import Idealize.ShloMosaic.Init

noncomputable section

namespace Cert.Proof.Claims

open Idealize.ShloMosaic Idealize.ShloMosaic.ValueIdx Idealize.ShloMosaic.TcCoe Idealize.SL.Sem Cert.Gcn

/-- The word-level kernel and its idealization run and keep their arguments: the generated frames. -/
theorem frame_k : Cert.frame_Kernel := fun m ρ _ => Cert.Kernel.Gen.frame m ρ
theorem frame_ki : Cert.frame_KernelIdeal := fun m ρ _ => Cert.KernelIdeal.Gen.frame m ρ
/-- The reference's frame is its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs compute the same two heads. The kernel's results are the network over the dense-adjacency layer, the
    reference's the network over the edge-gather layer, of the same argument arrays; the precondition makes every float
    entry real and every edge word a node, under which the two layers are one function (distributivity and an exchange of
    finite sums over the reals). -/
theorem algebraic : Cert.algebraic_KernelIdeal_ReferenceIdeal := by
  intro m ρ m' ρ' hpre hagree
  refine ⟨fun c => Cert.ReferenceIdeal.Value.res_out0 (F := Ideal) m' c,
    fun c => Cert.ReferenceIdeal.Value.res_out1 (F := Ideal) m' c, ?_, Cert.ReferenceIdeal.Value.run (F := Ideal) m' ρ'⟩
  refine (θ_run Cert.KernelIdeal.defs _ _).mono (fun r h c => ?_) (Cert.KernelIdeal.RunValue.run (F := Ideal) m ρ)
  obtain ⟨h0, h1, hargs⟩ := h c
  obtain ⟨a0, a1, a2, a3, a4, a5, a6, a7⟩ := hagree c
  obtain ⟨f0, f2, f3, f4, f5, f6, f7, hin⟩ := Cert.Gcn.pre_read _ _ _ _ _ _ _ _ (hpre c)
  have hin' : ∀ i, 0 ≤ (m' ((c.tc : Thread Cert.ReferenceIdeal.nD Cert.ReferenceIdeal.τ).loc Cert.ReferenceIdeal.main_arg1) i).toInt
      ∧ (m' ((c.tc : Thread Cert.ReferenceIdeal.nD Cert.ReferenceIdeal.τ).loc Cert.ReferenceIdeal.main_arg1) i).toInt < 10000 := by
    rw [a1]; exact hin
  refine ⟨h0.trans ?_, h1.trans ?_, hargs⟩
  · funext i
    obtain ⟨n, j, rfl⟩ : ∃ (n : Fin 10000) (j : Fin 64), i = ix2 n j := ⟨i 0, i 1, eq_ix2 i⟩
    rw [Cert.KernelIdeal.NetValue.mu_apply m ρ c hin n j]
    refine Eq.trans ?_ (Cert.Gcn.Ref.res_out0_apply m' c hin' n j).symm
    rw [a0, a1, a2, a3, a4, a5]
    exact muOf_adj_eq_agg _ _ _ _ _ _ (fun s k => f0 _) (fun k j' => f2 _) (fun j' => f3 _) (fun k j' => f4 _) n j
  · funext i
    obtain ⟨n, j, rfl⟩ : ∃ (n : Fin 10000) (j : Fin 64), i = ix2 n j := ⟨i 0, i 1, eq_ix2 i⟩
    rw [Cert.KernelIdeal.NetValue.ls_apply m ρ c hin n j]
    refine Eq.trans ?_ (Cert.Gcn.Ref.res_out1_apply m' c hin' n j).symm
    rw [a0, a1, a2, a3, a6, a7]
    exact lsOf_adj_eq_agg _ _ _ _ _ _ (fun s k => f0 _) (fun k j' => f2 _) (fun j' => f3 _) (fun k j' => f6 _) n j

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
